-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : IVec S4096 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S4096 : Shape := ⟨1, ![4096]⟩
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S512x256 : Shape := ⟨2, ![512, 256]⟩
abbrev S512x1 : Shape := ⟨2, ![512, 1]⟩
abbrev S1x512 : Shape := ⟨2, ![1, 512]⟩
abbrev S256x512 : Shape := ⟨2, ![256, 512]⟩
abbrev S512x512 : Shape := ⟨2, ![512, 512]⟩
abbrev S512 : Shape := ⟨1, ![512]⟩

abbrev nBuf : Space → Nat
  | .hbm => 23
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096, .i32⟩
  | .hbm, ⟨3, _⟩ => ⟨S8192x256, .f32⟩
  | .hbm, ⟨4, _⟩ => ⟨S8192, .i32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x256, .f32⟩
  | .hbm, ⟨14, _⟩ => ⟨S8192x256, .f32⟩
  | .hbm, ⟨15, _⟩ => ⟨S8192x256, .bf16⟩
  | .hbm, ⟨16, _⟩ => ⟨S8192x1, .i32⟩
  | .hbm, ⟨17, _⟩ => ⟨S1x8192, .i32⟩
  | .hbm, ⟨18, _⟩ => ⟨S8192x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg1 : BitVec 32 := BitVec.ofNat 32 (i 1).val
  let c15_i32 : BitVec 32 := 15#32
  let v48 : BitVec 1 := Scalar.cmpi .eq arg1 c15_i32
  let v49 : BitVec 32 := Scalar.extui v48
  let c0_i32_25 : BitVec 32 := 0#32
  let v50 : BitVec 1 := Scalar.cmpi .ne v49 c0_i32_25
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  concatenates_S4096x256_S4096x256_S8192x256_d0 : Shape.Concatenates [S4096x256, S4096x256] S8192x256 0
  concatenates_S4096_S4096_S8192_d0 : Shape.Concatenates [S4096, S4096] S8192 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  iota_S512x512_d0_w32 : S512x512.Iotas .tc 32 [0]
  iota_S512x512_d1_w32 : S512x512.Iotas .tc 32 [1]
  reducesTo_S8192x1_S_d0_1 : S8192x1.ReducesTo [0, 1] S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v7) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S4096 : Shape := ⟨1, ![4096]⟩
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S4096x1 : Shape := ⟨2, ![4096, 1]⟩
abbrev S4096x2 : Shape := ⟨2, ![4096, 2]⟩
abbrev S1x8192 : Shape := ⟨2, ![1, 8192]⟩

abbrev nBuf : Space → Nat
  | .hbm => 95
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096, .i32⟩
  | .hbm, ⟨3, _⟩ => ⟨S8192x256, .f32⟩
  | .hbm, ⟨4, _⟩ => ⟨S8192, .i32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x256, .f32⟩
  | .hbm, ⟨14, _⟩ => ⟨S8192x256, .f32⟩
  | .hbm, ⟨15, _⟩ => ⟨S256x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096x1, .i32⟩
  | .hbm, ⟨41, _⟩ => ⟨S4096x2, .i32⟩
  | .hbm, ⟨42, _⟩ => ⟨S4096, .f32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S4096x1, .i32⟩
  | .hbm, ⟨64, _⟩ => ⟨S4096x2, .i32⟩
  | .hbm, ⟨65, _⟩ => ⟨S4096, .f32⟩
  | .hbm, ⟨66, _⟩ => ⟨S8192, .f32⟩
  | .hbm, ⟨67, _⟩ => ⟨S8192x1, .i32⟩
  | .hbm, ⟨68, _⟩ => ⟨S1x8192, .i32⟩
  | .hbm, ⟨69, _⟩ => ⟨S8192x8192, .i32⟩
  | .hbm, ⟨70, _⟩ => ⟨S8192x8192, .i32⟩
  | .hbm, ⟨71, _⟩ => ⟨S8192x8192, .i1⟩
  | .hbm, ⟨72, _⟩ => ⟨S_, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192x1, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192, .f32⟩
  | .hbm, ⟨89, _⟩ => ⟨S8192, .f32⟩
  | .hbm, ⟨90, _⟩ => ⟨S8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_call1_v0 : Ref sig .tc := ⟨.hbm, 20, rfl⟩
abbrev main_call1_v1 : Ref sig .tc := ⟨.hbm, 21, rfl⟩
abbrev main_call1_c : Ref sig .tc := ⟨.hbm, 22, rfl⟩
abbrev main_call1_v2 : Ref sig .tc := ⟨.hbm, 23, rfl⟩
abbrev main_call1_v3 : Ref sig .tc := ⟨.hbm, 24, rfl⟩
abbrev main_call1_c_0 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c_2 : Ref sig .tc := ⟨.hbm, 32, rfl⟩
abbrev main_call1_v9 : Ref sig .tc := ⟨.hbm, 33, rfl⟩
abbrev main_call1_v10 : Ref sig .tc := ⟨.hbm, 34, rfl⟩
abbrev main_call1_c_3 : Ref sig .tc := ⟨.hbm, 35, rfl⟩
abbrev main_call1_v11 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_v15 : Ref sig .tc := ⟨.hbm, 40, rfl⟩
abbrev main_call1_v16 : Ref sig .tc := ⟨.hbm, 41, rfl⟩
abbrev main_v11 : Ref sig .tc := ⟨.hbm, 42, rfl⟩
abbrev main_call2_v0 : Ref sig .tc := ⟨.hbm, 43, rfl⟩
abbrev main_call2_v1 : Ref sig .tc := ⟨.hbm, 44, rfl⟩
abbrev main_call2_c : Ref sig .tc := ⟨.hbm, 45, rfl⟩
abbrev main_call2_v2 : Ref sig .tc := ⟨.hbm, 46, rfl⟩
abbrev main_call2_v3 : Ref sig .tc := ⟨.hbm, 47, rfl⟩
abbrev main_call2_c_0 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c_2 : Ref sig .tc := ⟨.hbm, 55, rfl⟩
abbrev main_call2_v9 : Ref sig .tc := ⟨.hbm, 56, rfl⟩
abbrev main_call2_v10 : Ref sig .tc := ⟨.hbm, 57, rfl⟩
abbrev main_call2_c_3 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_v15 : Ref sig .tc := ⟨.hbm, 63, rfl⟩
abbrev main_call2_v16 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_cst_1 : Ref sig .tc := ⟨.hbm, 72, rfl⟩
abbrev main_call3_v0 : Ref sig .tc := ⟨.hbm, 73, rfl⟩
abbrev main_call3_v1 : Ref sig .tc := ⟨.hbm, 74, rfl⟩
abbrev main_v19 : Ref sig .tc := ⟨.hbm, 75, rfl⟩
abbrev main_cst_2 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_cst_3 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_cst_4 : Ref sig .tc := ⟨.hbm, 91, rfl⟩
abbrev main_v33 : Ref sig .tc := ⟨.hbm, 92, rfl⟩
abbrev main_cst_5 : Ref sig .tc := ⟨.hbm, 93, rfl⟩
abbrev main_v34 : Ref sig .tc := ⟨.hbm, 94, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  concatenates_S4096_S4096_S8192_d0 : Shape.Concatenates [S4096, S4096] S8192 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KState.lean ====
/- The kernel's state from grid point to grid point, as pure functions of the blocks it is handed.
   The three scratch columns hold, for each of the 512 rows of the current row tile, the running maximum
   of the masked logits, the running sum of their exponentials taken relative to that maximum, and the
   positive logit once its column tile has been met. A point whose column tile is the first resets the
   three; every point folds its tile of masked logits into the first two; the point whose column tile
   is the row tile's partner stores the tile's diagonal into the third. The output column is written
   from the three at the last column tile. -/
import proofs.«117797_j84602265797103_1_alg».proof.Proof.Gen.Kernel.Launch
import proofs.«117797_j84602265797103_1_alg».proof.Proof.Gen.Kernel.Skeleton
import proofs.«117797_j84602265797103_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three scratch columns: running maximum, running sum, positive logit. -/
abbrev St (F : FTy → Type) [FloatOps F] : Type := Vec F S512x1 .f32 × Vec F S512x1 .f32 × Vec F S512x1 .f32

/-- One grid point's effect on the scratch columns: `reset` says the column tile is the first, `hit`
    that it is the row tile's partner; `x0`, `x1` are the row and column tiles of the normalised
    embeddings, `x2`, `x3` the row and column tiles of the labels. -/
def stNext (x0 x1 : Vec F S512x256 .bf16) (x2 : Vec F S512x1 .i32) (x3 : Vec F S1x512 .i32) (reset hit : Bool) (s : St F) : St F :=
  (k0_pay2 (k0_pay10 x0 x1 x2 x3 (if reset then k0_pay5 (F := F) else s.1)),
   k0_pay1 (k0_pay11 x0 x1 x2 x3 (if reset then k0_pay5 (F := F) else s.1) (if reset then k0_pay5 (F := F) else s.1) (if reset then k0_pay6 (F := F) else s.2.1)),
   if hit then k0_pay3 (k0_pay8 x0 x1) else (if reset then k0_pay7 (F := F) else s.2.2))

/-- The output column a point at the last column tile writes, from the scratch columns it leaves. -/
def outOf (s : St F) : Vec F S512x1 .f32 := k0_pay4 s.1 s.2.2 s.1 s.2.1 s.2.2 s.2.2

variable (m : (ℓ : Loc nD τ sig) → Buf (Elt F) ℓ) (ρ : Dev nD → PrngReg)

/-- The buffers' contents when the region is entered: the launch contents after the host operations
    before the region. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types. -/
abbrev xb0 (c : Dev nD) (t : Fin cfg0.N) : Vec F S512x256 .bf16 := iblk m c 0 t
abbrev xb1 (c : Dev nD) (t : Fin cfg0.N) : Vec F S512x256 .bf16 := iblk m c 1 t
abbrev xb2 (c : Dev nD) (t : Fin cfg0.N) : Vec F S512x1 .i32 := iblk m c 2 t
abbrev xb3 (c : Dev nD) (t : Fin cfg0.N) : Vec F S1x512 .i32 := iblk m c 3 t

/-- Point `n` is at the first column tile. -/
abbrev isReset (n : ℕ) : Bool := decide (n % 16 = 0)
/-- Point `n`'s column tile is its row tile's partner (eight tiles away, cyclically). -/
abbrev isHit (n : ℕ) : Bool := decide (n % 16 = (if n / 16 < 8 then n / 16 + 8 else n / 16 - 8))
/-- Point `n` is at the last column tile. -/
abbrev isLast (n : ℕ) : Bool := decide (n % 16 = 15)

/-- The scratch columns after point `n`. (The contents before the first point are never read: the
    first point resets.) -/
def stAt (c : Dev nD) : (n : ℕ) → n < cfg0.N → St F
  | 0, hn => stNext (xb0 m c ⟨0, hn⟩) (xb1 m c ⟨0, hn⟩) (xb2 m c ⟨0, hn⟩) (xb3 m c ⟨0, hn⟩) true (isHit 0) (k0_pay5, k0_pay6, k0_pay7)
  | n + 1, hn => stNext (xb0 m c ⟨n + 1, hn⟩) (xb1 m c ⟨n + 1, hn⟩) (xb2 m c ⟨n + 1, hn⟩) (xb3 m c ⟨n + 1, hn⟩) (isReset (n + 1)) (isHit (n + 1))
      (stAt c n (Nat.lt_of_succ_lt hn))

theorem stAt_zero (c : Dev nD) (hn : 0 < cfg0.N) :
    stAt m c 0 hn = stNext (xb0 m c ⟨0, hn⟩) (xb1 m c ⟨0, hn⟩) (xb2 m c ⟨0, hn⟩) (xb3 m c ⟨0, hn⟩) true (isHit 0) (k0_pay5, k0_pay6, k0_pay7) := rfl

theorem stAt_succ (c : Dev nD) (n : ℕ) (hn : n + 1 < cfg0.N) :
    stAt m c (n + 1) hn = stNext (xb0 m c ⟨n + 1, hn⟩) (xb1 m c ⟨n + 1, hn⟩) (xb2 m c ⟨n + 1, hn⟩) (xb3 m c ⟨n + 1, hn⟩) (isReset (n + 1)) (isHit (n + 1))
      (stAt m c n (Nat.lt_of_succ_lt hn)) := rfl

/-- A reset point's result does not depend on what the scratch held. -/
theorem stNext_reset (x0 x1 : Vec F S512x256 .bf16) (x2 : Vec F S512x1 .i32) (x3 : Vec F S1x512 .i32) (hit : Bool) (s s' : St F) :
    stNext x0 x1 x2 x3 true hit s = stNext x0 x1 x2 x3 true hit s' := by
  unfold stNext; simp only [if_true]

/-! ## The body's branch conditions, as the printed body computes them, and in closed form over the grid -/

abbrev cond1 (i : grid0.Coords) : Prop := (Scalar.cmpi .ne (Scalar.extui (Scalar.cmpi .eq (BitVec.ofNat 32 (i 1).val) 0#32)) 0#32) = 1#1
abbrev cond2 (i : grid0.Coords) : Prop :=
  (Scalar.cmpi .ne (Scalar.extui (Scalar.cmpi .eq (BitVec.ofNat 32 (i 1).val)
    (Scalar.select (Scalar.cmpi .slt (BitVec.ofNat 32 (i 0).val) 8#32) (Scalar.addi (BitVec.ofNat 32 (i 0).val) 8#32) (Scalar.subi (BitVec.ofNat 32 (i 0).val) 8#32)))) 0#32) = 1#1
abbrev cond3 (i : grid0.Coords) : Prop := k0_cond3 i = 1#1

theorem hcond1 : ∀ t : Fin cfg0.N, cond1 (grid0.coords t) ↔ isReset t.val = true :=
  (by decide +kernel : ∀ t : Fin grid0.N, cond1 (grid0.coords t) ↔ isReset t.val = true)
theorem hcond2 : ∀ t : Fin cfg0.N, cond2 (grid0.coords t) ↔ isHit t.val = true :=
  (by decide +kernel : ∀ t : Fin grid0.N, cond2 (grid0.coords t) ↔ isHit t.val = true)
theorem hcond3 : ∀ t : Fin cfg0.N, cond3 (grid0.coords t) ↔ isLast t.val = true :=
  (by decide +kernel : ∀ t : Fin grid0.N, cond3 (grid0.coords t) ↔ isLast t.val = true)

end Cert.Kernel.Hand

end
-- ==== Proof.KRun.lean ====
/- The kernel body run once, on any whole staging and scratch memrefs: from the blocks and scratch columns
   it is handed, it leaves the scratch columns at the next state and, at a last column tile, the output
   column computed from them; the input buffers are left as they were, and the output buffer is left
   untouched elsewhere. -/
import proofs.«117797_j84602265797103_1_alg».proof.Proof.KState
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access of the body: the origin. -/
private theorem hz2 : (![0, 0] : Fin 2 → Nat) = fun _ => 0 := funext fun a => by fin_cases a <;> rfl

/-- A buffer read, through any view of it, after a list of writes the last of which covers the whole
    shape at the origin: that write's payload, whatever lay below it. -/
private theorem read_writes_cons_whole {sig : RefSig} {κ : Kind} {sp : Space} {S : Shape} {e : EltTy} {Val : EltTy → Type}
    [∀ e, Nonempty (Val e)] (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

set_option hygiene false in
/-- Hand buffer `H` of whole memref `h` back at the contents the statement names. A buffer the body did not
    store into reads what it held. One it stored into reads the payload of its last store, which covers
    it; each load that payload was computed from reads either a whole untouched buffer, that is its
    contents, or a buffer after a covering store, that is that store's payload. -/
local macro "hand_back " H:ident h:ident : tactic => `(tactic| (
  iexists _; isplitr; swap; iexact $H
  ipureintro
  first
    | exact ($h).read_unread _
    | (sl_unfold_run_names
       rw [read_writes_cons_whole _ _ hz2]
       try dsimp only
       try simp only [View.readAt_eq_ld, harg2.read_unread, harg3.read_unread, harg4.read_unread, harg5.read_unread,
         harg7.read_unread, harg8.read_unread, harg9.read_unread, View.ld_unit_zero (S := S512x256) hz2,
         View.ld_unit_zero (S := S512x1) hz2, View.ld_unit_zero (S := S1x512) hz2, View.readCov_cons_toLoadRect]
       rfl)))

set_option maxHeartbeats 4000000 in
/-- The body at coordinates `i`, the three branch conditions decided as the Booleans say. Each of the eight
    combinations goes the same way: the conditions fix which stores happen, the body runs through them,
    and every buffer is handed back at the contents named. -/
theorem body_run (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (b1 b2 b3 : Bool) (h1 : cond1 i ↔ b1 = true) (h2 : cond2 i ↔ b2 = true) (h3 : cond3 i ↔ b3 = true)
    (x0 x1 : Vec F S512x256 .bf16) (x2 : Vec F S512x1 .i32) (x3 : Vec F S1x512 .i32) (xo : Vec F S512x1 .f32) (s : St F)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (if b3 then outOf (stNext x0 x1 x2 x3 b1 b2 s) else xo)
            ∗ owns (c : Thread nD τ) arg7 fullShare (stNext x0 x1 x2 x3 b1 b2 s).1
            ∗ owns (c : Thread nD τ) arg8 fullShare (stNext x0 x1 x2 x3 b1 b2 s).2.1
            ∗ owns (c : Thread nD τ) arg9 fullShare (stNext x0 x1 x2 x3 b1 b2 s).2.2) -∗ K ⟨⟩))
      ⊢ wp frame (wpE (defs₀ (F := F)) Variants.none c none) E
          (cc0_kernel i arg2 harg2 arg3 harg3 arg4 harg4 arg5 harg5 arg6 harg6 arg7 harg7 arg8 harg8 arg9 harg9) K := by
  cases b1 <;> cases b2 <;> cases b3
  all_goals
    first
      | have hc1 : cond1 i := h1.mpr rfl
      | have hc1 : ¬cond1 i := fun h => Bool.false_ne_true (h1.mp h)
    first
      | have hc2 : cond2 i := h2.mpr rfl
      | have hc2 : ¬cond2 i := fun h => Bool.false_ne_true (h2.mp h)
    first
      | have hc3 : cond3 i := h3.mpr rfl
      | have hc3 : ¬cond3 i := fun h => Bool.false_ne_true (h3.mp h)
    simp only [cc0_kernel_eq_skeleton]; unfold cc0_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩,
      ⟨%f7, %hf7, H7⟩, ⟨%f8, %hf8, H8⟩, ⟨%f9, %hf9, H9⟩, Hk⟩
    obtain rfl := harg2.eq_unread hf2; obtain rfl := harg3.eq_unread hf3
    obtain rfl := harg4.eq_unread hf4; obtain rfl := harg5.eq_unread hf5
    obtain rfl := harg6.eq_unread hf6; obtain rfl := harg7.eq_unread hf7
    obtain rfl := harg8.eq_unread hf8; obtain rfl := harg9.eq_unread hf9
    sl_exec (disch := first | exact hc1 | exact hc2 | exact hc3)
    sl_step
    iapply Hk
    isplitl [H2]; · hand_back H2 harg2
    isplitl [H3]; · hand_back H3 harg3
    isplitl [H4]; · hand_back H4 harg4
    isplitl [H5]; · hand_back H5 harg5
    isplitl [H6]; · hand_back H6 harg6
    isplitl [H7]; · hand_back H7 harg7
    isplitl [H8]; · hand_back H8 harg8
    hand_back H9 harg9

end Cert.Kernel.Hand

end
-- ==== Proof.KLaunch.lean ====
/- The launch: from a body obligation for proof data whose arrays are the region-entry contents, to the run
   of the whole program. The two embedding windows read one array, so that array's full share is dealt
   as its two halves, one to each window; the host operations after the region read the output column
   and write the scalar result. -/
import proofs.«117797_j84602265797103_1_alg».proof.Proof.KState

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares the input windows hold their arrays at: the embeddings' array is read through two windows,
    each holding one half of it; the label arrays are each read through one window. -/
def qOf : Fin 5 → PosShare TreeShare := fun | 0 => fullShare.left | 1 => fullShare.right | 2 => fullShare | 3 => fullShare | 4 => fullShare | ⟨_ + 5, h⟩ => absurd h (Nat.not_lt.2 (Nat.le_add_left _ _))

/-- The host operations after the region as one function of the output column: its sum over all rows,
    divided by the row count. -/
def tailVal (x : (⟨S8192x1, .f32⟩ : BufTy).Contents (Elt F)) : (⟨S_, .f32⟩ : BufTy).Contents (Elt F) :=
  Host.divf (Host.reduceAdd x (constant S_ .f32 0x00000000#32) reducesTo_S8192x1_S_d0_1 h_S_) (constant S_ .f32 0x46000000#32)

variable (m : (ℓ : Loc nD τ sig) → Buf (Elt F) ℓ) (ρ : Dev nD → PrngReg)

/-- The core's buffer contents when the region is left: the output column's array at what the write-backs
    left in it, every other buffer at its region-entry contents. -/
def Wx (dats : (p : Fin 1) → (c : Dev nD) → Dat τ (Elt F) Unit ℕ (UR sig nD τ) ℕ (cfgs p) c) (c : Dev nD) : Valuation τ sig (Elt F) :=
  Function.update (V0 m c) (Proc.devRef .tc main_v10) ((dats 0 c).arrAt 4 cfg0.N)

/-- The bypassing buffers' contents after the host operations that follow the region. -/
abbrev Vend (dats : (p : Fin 1) → (c : Dev nD) → Dat τ (Elt F) Unit ℕ (UR sig nD τ) ℕ (cfgs p) c) (c : Dev nD) (b : Ref sig .tc) :
    Buf (Elt F) ((c : Thread nD τ).loc b) := StableHlo.after hostOps1 (Wx m dats c) (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the three stretches of host operations, the region, and the last four host operations:
    it reduces to the region continued by those four, at the contents after the three stretches. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0, hostOps0_1, hostOps0_2] [hostOps1]
    ⟨hostOps0_sub, hostOps0_1_sub, hostOps0_2_sub⟩ ⟨hostOps0_fresh, hostOps0_1_fresh, hostOps0_2_fresh⟩ main_chain

/-- THE ARRAYS AT ENTRY. The four buffers behind the five windows, each whole at the full share, make the
    proof data's arrays: the embeddings' buffer is dealt as its left and right halves to the two windows that
    read it, each other buffer goes whole to its one window. -/
theorem hsplit (dats : (p : Fin 1) → (c : Dev nD) → Dat τ (Elt F) Unit ℕ (UR sig nD τ) ℕ (cfgs p) c)
    (hq : ∀ c w, (dats 0 c).q w = qOf w)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  have hB : (Pipeline.arrBufs spec0 c (V m c) : sProp 𝕄)
      = iprop((((c.tc : Thread nD τ).loc main_v7) ↦{fullShare} V m c main_v7) ∗ (((c.tc : Thread nD τ).loc main_v8) ↦{fullShare} V m c main_v8)
          ∗ (((c.tc : Thread nD τ).loc main_v9) ↦{fullShare} V m c main_v9) ∗ (((c.tc : Thread nD τ).loc main_v10) ↦{fullShare} V m c main_v10)) := by
    unfold Pipeline.arrBufs
    exact bigSep_eq_bigSepL_of_eq [main_v7, main_v8, main_v9, main_v10] (by decide) (by decide) _
  have hW : ∀ w : Fin 5, ((View.loc (c.tc : Thread nD τ) ((cfgs 0).win w).arr.view ↦[((cfgs 0).win w).arr.view.set]{(dats 0 c).share w} (dats 0 c).arrAt w 0 : sProp 𝕄))
      = (((c.tc : Thread nD τ).loc (Pipeline.arrRef spec0 w)) ↦{(dats 0 c).share w} V m c (Pipeline.arrRef spec0 w)) := fun w => by
    rw [(Gen.arr_whole0 w).set_eq_univ]
    show (_ ↦{_} (dats 0 c).A w : sProp 𝕄) = _
    rw [hA]
  have hs0 : (dats 0 c).share 0 = fullShare.left := by unfold Dat.share; rw [hq]; rfl
  have hs1 : (dats 0 c).share 1 = fullShare.right := by unfold Dat.share; rw [hq]; rfl
  have hs2 : (dats 0 c).share 2 = fullShare := by unfold Dat.share; rw [hq]; rfl
  have hs3 : (dats 0 c).share 3 = fullShare := by unfold Dat.share; rw [hq]; rfl
  have hs4 : (dats 0 c).share 4 = fullShare := by unfold Dat.share; rfl
  rw [hB]
  unfold Dat.arrays
  rw [Gen.bigSep_W0, hW 0, hW 1, hW 2, hW 3, hW 4, hs0, hs1, hs2, hs3, hs4]
  iintro ⟨H7, H8, H9, H10⟩
  ihave H7' := (pointsTo_share (PosShare.mem_left_op_right fullShare)).1 $$ H7
  icases H7' with ⟨H7l, H7r⟩
  isplitl [H7l]; · iexact H7l
  isplitl [H7r]; · iexact H7r
  isplitl [H8]; · iexact H8
  isplitl [H9]; · iexact H9
  iexact H10

/-- The buffers the last four host operations run within: the output column's array and the buffers that
    bypass the region. -/
def tailSet : Finset (DevRef τ sig) :=
  insert (Proc.devRef .tc main_v10) ((Pipeline.restRefs sig spec0).map ⟨Proc.devRef (sig := sig) .tc, Proc.devRef_injective _⟩)

theorem v10_not_rest : main_v10 ∉ Pipeline.restRefs sig spec0 := fun h =>
  (Finset.mem_sdiff.mp h).2 (Finset.mem_image.mpr ⟨4, Finset.mem_univ _, rfl⟩)

theorem v10_not_map : Proc.devRef (τ := τ) .tc main_v10 ∉ (Pipeline.restRefs sig spec0).map ⟨Proc.devRef (sig := sig) .tc, Proc.devRef_injective _⟩ := fun h => by
  obtain ⟨b, hb, e⟩ := Finset.mem_map.mp h
  exact v10_not_rest (Proc.devRef_injective _ e ▸ hb)

/-- That set held at a valuation is the output column's array and the bypassing buffers at it. -/
theorem held_tailSet (c : Dev nD) (W : Valuation τ sig (Elt F)) :
    (StableHlo.held (c.tc : Thread nD τ) tailSet W : sProp 𝕄)
      = iprop((((c.tc : Thread nD τ).loc main_v10) ↦{fullShare} W (Proc.devRef .tc main_v10))
          ∗ Pipeline.unscopedRest spec0 c (fun b => W (Proc.devRef .tc b))) := by
  unfold StableHlo.held tailSet Pipeline.unscopedRest
  rw [bigSep_insert v10_not_map, bigSep_map]
  rfl

theorem mem_tailSet_of {b : Ref sig .tc} (hs : b.isScoped = false) (ha : ∀ w, (spec0 w).arr.view.ref ≠ b) :
    Proc.devRef (τ := τ) .tc b ∈ tailSet :=
  Finset.mem_insert_of_mem (Finset.mem_map_of_mem _ (Pipeline.mem_restRefs_of b hs ha))

/-- Each of the last four host operations touches only buffers of that set. -/
theorem hostOps1_within : ∀ op ∈ (hostOps1 : List (HloOp τ sig (Elt F))), op.bufs ⊆ tailSet := by
  intro op hop
  simp only [hostOps1, List.mem_cons, List.mem_nil_iff, or_false] at hop
  rcases hop with rfl | rfl | rfl | rfl
  · rw [StableHlo.nullary_bufs]
    exact Finset.singleton_subset_iff.mpr (mem_tailSet_of rfl (by decide))
  · rw [StableHlo.binary_bufs]
    exact Finset.insert_subset_iff.mpr ⟨Finset.mem_insert_self _ _, Finset.insert_subset_iff.mpr
      ⟨mem_tailSet_of rfl (by decide), Finset.singleton_subset_iff.mpr (mem_tailSet_of rfl (by decide))⟩⟩
  · rw [StableHlo.nullary_bufs]
    exact Finset.singleton_subset_iff.mpr (mem_tailSet_of rfl (by decide))
  · rw [StableHlo.binary_bufs]
    exact Finset.insert_subset_iff.mpr ⟨mem_tailSet_of rfl (by decide), Finset.insert_subset_iff.mpr
      ⟨mem_tailSet_of rfl (by decide), Finset.singleton_subset_iff.mpr (mem_tailSet_of rfl (by decide))⟩⟩

/-- None of them writes the output column's array. -/
theorem hostOps1_keeps_v10 : ∀ op ∈ (hostOps1 : List (HloOp τ sig (Elt F))), Proc.devRef (τ := τ) .tc main_v10 ∉ op.writes := by
  intro op hop
  simp only [hostOps1, List.mem_cons, List.mem_nil_iff, or_false] at hop
  rcases hop with rfl | rfl | rfl | rfl
  all_goals simp only [StableHlo.nullary_writes, StableHlo.binary_writes, Finset.mem_singleton] <;> exact StableHlo.devRef_ne_of_ne (by decide)

/-- The exit contents at the output column's array, and at a bypassing buffer. -/
theorem Wx_v10 (dats : (p : Fin 1) → (c : Dev nD) → Dat τ (Elt F) Unit ℕ (UR sig nD τ) ℕ (cfgs p) c) (c : Dev nD) :
    Wx m dats c (Proc.devRef .tc main_v10) = (dats 0 c).arrAt 4 cfg0.N := by
  unfold Wx; exact Function.update_self _ _ _

theorem Wx_rest (dats : (p : Fin 1) → (c : Dev nD) → Dat τ (Elt F) Unit ℕ (UR sig nD τ) ℕ (cfgs p) c) (c : Dev nD)
    (b : Ref sig .tc) (hb : b ∈ Pipeline.restRefs sig spec0) : Wx m dats c (Proc.devRef .tc b) = V m c b := by
  unfold Wx; exact Function.update_of_ne (StableHlo.devRef_ne_of_ne (ne_of_mem_of_not_mem hb v10_not_rest)) _ _

/-- The buffers held when the region is left. -/
theorem held_exit (dats : (p : Fin 1) → (c : Dev nD) → Dat τ (Elt F) Unit ℕ (UR sig nD τ) ℕ (cfgs p) c) (c : Dev nD) :
    (StableHlo.held (c.tc : Thread nD τ) tailSet (Wx m dats c) : sProp 𝕄)
      = iprop((((c.tc : Thread nD τ).loc main_v10) ↦{fullShare} (dats 0 c).arrAt 4 cfg0.N) ∗ Pipeline.unscopedRest spec0 c (V m c)) := by
  rw [held_tailSet, Wx_v10]
  have h2 : (Pipeline.unscopedRest spec0 c (fun b => Wx m dats c (Proc.devRef .tc b)) : sProp 𝕄) = Pipeline.unscopedRest spec0 c (V m c) := by
    unfold Pipeline.unscopedRest
    exact bigSep_congr fun b hb => by beta_reduce; rw [Wx_rest m dats c b hb]
  rw [h2]

/-- And after the last four host operations. -/
theorem held_end (dats : (p : Fin 1) → (c : Dev nD) → Dat τ (Elt F) Unit ℕ (UR sig nD τ) ℕ (cfgs p) c) (c : Dev nD) :
    (StableHlo.held (c.tc : Thread nD τ) tailSet (StableHlo.after hostOps1 (Wx m dats c)) : sProp 𝕄)
      = iprop((((c.tc : Thread nD τ).loc main_v10) ↦{fullShare} (dats 0 c).arrAt 4 cfg0.N) ∗ Pipeline.unscopedRest spec0 c (Vend m dats c)) := by
  rw [held_tailSet, StableHlo.after_of_forall_not_mem _ _ hostOps1_keeps_v10, Wx_v10]

/-- THE LAST FOUR HOST OPERATIONS, run from the region's exit: they run within the output column's array and the
    bypassing buffers, and hand back the windows' arrays as they were and the bypassing buffers at the contents
    after the four. The other windows' arrays are not touched. -/
theorem htail (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c (Vend m dats c)) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun p => (cfgs p).toPCfg (Val := Elt F)) defs₀) (Variants.lift Variants.none) (c.tc : Thread nD τ) none) Set.univ
          (Pipeline.chain [StableHlo.seq hostOps1]) Q' := by
  have h4 : ((View.loc (c.tc : Thread nD τ) ((cfgs 0).win 4).arr.view ↦[((cfgs 0).win 4).arr.view.set]{(dats 0 c).share 4} (dats 0 c).arrAt 4 cfg0.N : sProp 𝕄))
      = (((c.tc : Thread nD τ).loc main_v10) ↦{fullShare} (dats 0 c).arrAt 4 cfg0.N) := by
    rw [(Gen.arr_whole0 4).set_eq_univ]; rfl
  have hrun := Pipeline.wp_seqs_then (Ix := Unit) (Name := ℕ) (U := UR sig nD τ) (Lvl := ℕ) (fun p => (cfgs p).toPCfg (Val := Elt F)) defs₀ Variants.none c tailSet [] [hostOps1]
    (fun ops hops op hop => by
      simp only [List.mem_cons, List.mem_nil_iff, or_false] at hops; subst hops; exact hostOps1_within op hop)
    (fun ops hops op hop => by
      simp only [List.mem_cons, List.mem_nil_iff, or_false] at hops; subst hops; exact (List.forall_iff_forall_mem.mp hostOps1_fresh) op hop)
    (Wx m dats c) (K := Q')
  simp only [List.map_cons, List.map_nil, List.append_nil, List.flatten_cons, List.flatten_nil, Pipeline.chain_nil] at hrun
  rw [held_exit, held_end] at hrun
  rw [Pipeline.unscopedRestP_none, Pipeline.unscopedRestP_none]
  unfold Dat.arrays
  rw [Gen.bigSep_W0, h4]
  iintro ⟨Hk, Hb, ⟨H0, H1, H2, H3, H4⟩, HZ⟩
  iapply hrun $$ [Hb H4 HZ]
  · isplitl [Hb]; · iexact Hb
    isplitl [H4]; · iexact H4
    iexact HZ
  iintro ⟨Hb, H4, HZ⟩
  rw [wp_pure]; imodintro
  iapply Hk
  isplitr [HZ]
  · isplitl [H0]; · iexact H0
    isplitl [H1]; · iexact H1
    isplitl [H2]; · iexact H2
    isplitl [H3]; · iexact H3
    iexact H4
  · iexact HZ

/-- The scalar result after the last four host operations is the host tail of the output column. -/
theorem Vend_v12 (dats : (p : Fin 1) → (c : Dev nD) → Dat τ (Elt F) Unit ℕ (UR sig nD τ) ℕ (cfgs p) c) (c : Dev nD) :
    Vend m dats c main_v12 = tailVal ((dats 0 c).arrAt 4 cfg0.N) := by
  show StableHlo.after hostOps1 (Wx m dats c) (Proc.devRef .tc main_v12) = _
  after_results
  rw [Wx_v10]; rfl

/-- No host operation of the program writes an argument. -/
theorem args_kept (b : Ref sig .tc) (hb : b = main_arg0 ∨ b = main_arg1 ∨ b = main_arg2) :
    ∀ op ∈ (List.flatten [hostOps0, hostOps0_1, hostOps0_2] ++ hostOps1 : List (HloOp τ sig (Elt F))), Proc.devRef (τ := τ) .tc b ∉ op.writes := by
  intro op hop
  simp only [hostOps0, hostOps0_1, hostOps0_2, hostOps1, List.flatten_cons, List.flatten_nil, List.append_nil, List.cons_append, List.nil_append,
    List.mem_cons, List.mem_nil_iff, or_false] at hop
  rcases hb with rfl | rfl | rfl <;> rcases hop with rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

/-- So each argument holds its launch contents at the end. -/
theorem Vend_arg (dats : (p : Fin 1) → (c : Dev nD) → Dat τ (Elt F) Unit ℕ (UR sig nD τ) ℕ (cfgs p) c) (c : Dev nD)
    (b : Ref sig .tc) (hb : b = main_arg0 ∨ b = main_arg1 ∨ b = main_arg2) :
    Vend m dats c b = m ((c.tc : Thread nD τ).loc b) := by
  have hr : b ∈ Pipeline.restRefs sig spec0 := by
    rcases hb with rfl | rfl | rfl <;> exact Pipeline.mem_restRefs_of _ rfl (by decide)
  show StableHlo.after hostOps1 (Wx m dats c) (Proc.devRef .tc b) = _
  rw [StableHlo.after_of_forall_not_mem _ _ (fun op hop => args_kept b hb op (List.mem_append_right _ hop)), Wx_rest m dats c b hr]
  show StableHlo.after (List.flatten [hostOps0, hostOps0_1, hostOps0_2]) (fun b => m (c, b)) (Proc.devRef .tc b) = _
  rw [StableHlo.after_of_forall_not_mem _ _ (fun op hop => args_kept b hb op (List.mem_append_left _ hop))]

/-- THE RUN. Every weakly fair execution of the program terminates without a fault; the scalar result is
    the host tail of what the write-backs left in the output column's array, and the arguments are unchanged. -/
theorem run_main_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = qOf w)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (fun r => ∀ c : Dev nD,
      r.2.mem ((c.tc : Thread nD τ).loc main_v12) = tailVal ((dats 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail (fun p => (cfgs p).toPCfg (Val := Elt F)) (fun p => (cfgs p).toPCfg_adm) dats () Gen.cellOf_inj 0 Gen.winFacts₀0
    (Pipeline.OwnSemFacts.none spec0) (Pipeline.PreFacts.none _) emb₁ defs₀ Variants.none m ρ main
    (fun _ => Pipeline.chain [StableHlo.seq hostOps1]) hbody
    Gen.block_pos0 Gen.arr_whole0 Gen.stage_whole0 howed
    (G := fun _ => iprop(emp)) (u₀ := initOf (Pipeline.cells cfgs Gen.cellOf_inj) (Pipeline.launchToks cfgs Gen.cellOf_inj))
    (hu₀ := by
      iintro Hu; imodintro
      isplitl [Hu]; · iapply (show (ownU _ : sProp 𝕄) ⊢ BI.own (emb₁ (initOf (Pipeline.cells cfgs Gen.cellOf_inj) (Pipeline.launchToks cfgs Gen.cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => hsplit m dats hq hA c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m dats c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail m dats c Q')
    (QY := fun c s => ∀ b ∈ Pipeline.restRefs sig spec0, s.mem ((c.tc : Thread nD τ).loc b) = Vend m dats c b)
    (hY := fun c s' => by
      rw [Pipeline.unscopedRestP_none]
      iintro ⟨-, HU, HSI⟩
      unfold Pipeline.unscopedRest
      imodintro
      iapply (pointsTo_read_all (Pipeline.restRefs sig spec0) (fun b => (c.tc : Thread nD τ).loc b) (Vend m dats c) s')
      isplitl [HU] <;> iassumption)
    (hQ := fun s h c =>
      have hr := (h c).2.2
      ⟨(hr main_v12 (Pipeline.mem_restRefs_of _ rfl (by decide))).trans (Vend_v12 m dats c),
        (hr main_arg0 (Pipeline.mem_restRefs_of _ rfl (by decide))).trans (Vend_arg m dats c main_arg0 (.inl rfl)),
        (hr main_arg1 (Pipeline.mem_restRefs_of _ rfl (by decide))).trans (Vend_arg m dats c main_arg1 (.inr (.inl rfl))),
        (hr main_arg2 (Pipeline.mem_restRefs_of _ rfl (by decide))).trans (Vend_arg m dats c main_arg2 (.inr (.inr rfl)))⟩)

end Cert.Kernel.Hand

end
-- ==== Proof.KFrame.lean ====
/- The proof data of the one pipeline, its body obligation and the run of the whole program.
   After point `t` the scratch columns hold the state `stAt t`; each input window's staging buffer holds
   its block of the array at every point, fetched there or not; the output window's staging buffer is
   written only at the last column tile of each row tile, where it is written back. -/
import proofs.«117797_j84602265797103_1_alg».proof.Proof.KRun
import proofs.«117797_j84602265797103_1_alg».proof.Proof.KLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging and scratch memrefs at a point -/

abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev scM0 : Memref sig .tc .vmem S512x1 .f32 := Memref.whole cc0_scratch0
abbrev scM1 : Memref sig .tc .vmem S512x1 .f32 := Memref.whole cc0_scratch1
abbrev scM2 : Memref sig .tc .vmem S512x1 .f32 := Memref.whole cc0_scratch2

/-- The invariant the launch hands the region, with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem idleAt4 : ∀ t : Fin cfg0.N, isLast t.val = false → cfg0.idle 4 (grid0.coords t) = true := by decide +kernel
theorem noFlush4 : ∀ t : Fin cfg0.N, isLast t.val = false → (cfg0.win 4).flush t = false := by decide +kernel
theorem liveAt4 : ∀ t : Fin cfg0.N, isLast t.val = true → cfg0.idle 4 (grid0.coords t) = false := by decide +kernel

/-! ## What the scratch columns hold before a point -/

/-- The scratch columns before point `t`: what the point before left (before the first point, anything). -/
def stPrev (c : Dev nD) (t : Fin cfg0.N) : St F :=
  if h : t.val = 0 then (k0_pay5, k0_pay6, k0_pay7) else stAt m c (t.val - 1) (Nat.lt_of_le_of_lt (Nat.sub_le _ _) t.isLt)

/-- Each point's state is one step from the state before it. -/
theorem stAt_eq (c : Dev nD) (t : Fin cfg0.N) :
    stAt m c t.val t.isLt = stNext (xb0 m c t) (xb1 m c t) (xb2 m c t) (xb3 m c t) (isReset t.val) (isHit t.val) (stPrev m c t) := by
  obtain ⟨n, hn⟩ := t
  cases n with
  | zero => unfold stPrev; rw [dif_pos rfl]; rfl
  | succ n => unfold stPrev; rw [dif_neg (Nat.succ_ne_zero n)]; rfl

/-- The region invariant before position `n`: before the first point the launch's; afterwards the scratch
    columns at the state the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare (stAt m c n hn).1 ∗ owns (c : Thread nD τ) scM1 fullShare (stAt m c n hn).2.1
      ∗ owns (c : Thread nD τ) scM2 fullShare (stAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (stAt m c n hn).1 ∗ owns (c : Thread nD τ) scM1 fullShare (stAt m c n hn).2.1
      ∗ owns (c : Thread nD τ) scM2 fullShare (stAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0 fullShare (stAt m c (n - 1) (by omega)).1 ∗ owns (c : Thread nD τ) scM1 fullShare (stAt m c (n - 1) (by omega)).2.1
      ∗ owns (c : Thread nD τ) scM2 fullShare (stAt m c (n - 1) (by omega)).2.2) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (stAt m c t.val t.isLt)
  Φ t := PhiS m c t.val (Nat.le_of_lt_succ t.isLt)
  q := qOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outOf (stAt m c t.val t.isLt) := by dsimp only [dats]

/-- Each input's current staging buffer holds its block at every point, fetched there or not: where it is not
    fetched the window's block index has not moved since the fetch, and the body left the block in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_in0 (c : Dev nD) (t : Fin cfg0.N) : (dats m 0 c).leavesExact 0 t = owns (c : Thread nD τ) (ms0 t) fullShare (iblk m c 0 t) := by
  unfold Dat.leavesExact; rw [liveAt0 t, after0]
theorem leaves_in1 (c : Dev nD) (t : Fin cfg0.N) : (dats m 0 c).leavesExact 1 t = owns (c : Thread nD τ) (ms1 t) fullShare (iblk m c 1 t) := by
  unfold Dat.leavesExact; rw [liveAt1 t, after1]
theorem leaves_in2 (c : Dev nD) (t : Fin cfg0.N) : (dats m 0 c).leavesExact 2 t = owns (c : Thread nD τ) (ms2 t) fullShare (iblk m c 2 t) := by
  unfold Dat.leavesExact; rw [liveAt2 t, after2]
theorem leaves_in3 (c : Dev nD) (t : Fin cfg0.N) : (dats m 0 c).leavesExact 3 t = owns (c : Thread nD τ) (ms3 t) fullShare (iblk m c 3 t) := by
  unfold Dat.leavesExact; rw [liveAt3 t, after3]
theorem leaves_out_last (c : Dev nD) (t : Fin cfg0.N) (h : isLast t.val = true) :
    (dats m 0 c).leavesExact 4 t = owns (c : Thread nD τ) (ms4 t) fullShare (outOf (stAt m c t.val t.isLt)) := by
  unfold Dat.leavesExact; rw [liveAt4 t h, after4]

set_option maxHeartbeats 4000000 in
/-- The body at any point: the inputs' buffers hold their blocks, the scratch columns what the point before
    left (anything before the first point, which resets them), and the body leaves the next state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, stAt_eq m c t]
  have hb1 := hcond1 t
  have hb2 := hcond2 t
  have hb3 := hcond3 t
  by_cases hz : t.val = 0
  · have hr : isReset t.val = true := by rw [hz]; rfl
    rw [PhiS_castSucc m c t, PhiS_zero m c _ _ hz, PhiA_eq]
    by_cases hl : isLast t.val = true
    · exfalso; rw [hz] at hl; exact absurd hl (by decide)
    · have hl' : isLast t.val = false := by simpa using hl
      rw [Dat.leavesExact_idle (dats m 0 c) 4 t (idleAt4 t hl') (noFlush4 t hl')]
      iintro ⟨⟨⟨⟨%d7, HS0⟩, ⟨%d8, HS1⟩, ⟨%d9, HS2⟩⟩, Hg⟩, Ho, ⟨%d0, H0⟩, ⟨%d1, H1⟩, ⟨%d2, H2⟩, ⟨%d3, H3⟩, ⟨%d4, H4⟩⟩
      iapply (body_run c (grid0.coords t) _ _ _ _ _ _ _ _ _ _ _ _ _ _ _ _ (isReset t.val) (isHit t.val) (isLast t.val) hb1 hb2 hb3
        (iblk m c 0 t) (iblk m c 1 t) (iblk m c 2 t) (iblk m c 3 t) ((dats m 0 c).before 4 t d4) (d7, d8, d9) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      rw [hl', hr, stNext_reset _ _ _ _ _ (d7, d8, d9) (stPrev m c t)]
      simp only [Bool.false_eq_true, if_false]
      iintro ⟨H0, H1, H2, H3, H4, HS0, HS1, HS2⟩
      isplitl [HS0 HS1 HS2 Hg]
      · isplitr [Hg]
        · isplitl [HS0]; · iexact HS0
          isplitl [HS1]; · iexact HS1
          iexact HS2
        · iexact Hg
      isplitl [Ho]; · iexact Ho
      isplitl [H0]; · iexact H0
      isplitl [H1]; · iexact H1
      isplitl [H2]; · iexact H2
      isplitl [H3]; · iexact H3
      iexists _; iexact H4
  · rw [PhiS_castSucc m c t, PhiS_pos m c _ _ hz]
    have hp : stPrev m c t = stAt m c (t.val - 1) (Nat.lt_of_le_of_lt (Nat.sub_le _ _) t.isLt) := by
      unfold stPrev; rw [dif_neg hz]
    rw [hp]
    by_cases hl : isLast t.val = true
    · rw [leaves_out_last m c t hl, stAt_eq m c t, hp]
      iintro ⟨⟨⟨HS0, HS1, HS2⟩, Hg⟩, Ho, ⟨%d0, H0⟩, ⟨%d1, H1⟩, ⟨%d2, H2⟩, ⟨%d3, H3⟩, ⟨%d4, H4⟩⟩
      iapply (body_run c (grid0.coords t) _ _ _ _ _ _ _ _ _ _ _ _ _ _ _ _ (isReset t.val) (isHit t.val) (isLast t.val) hb1 hb2 hb3
        (iblk m c 0 t) (iblk m c 1 t) (iblk m c 2 t) (iblk m c 3 t) ((dats m 0 c).before 4 t d4)
        (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      rw [hl]
      simp only [if_true]
      iintro ⟨H0, H1, H2, H3, H4, HS0, HS1, HS2⟩
      isplitl [HS0 HS1 HS2 Hg]
      · isplitr [Hg]
        · isplitl [HS0]; · iexact HS0
          isplitl [HS1]; · iexact HS1
          iexact HS2
        · iexact Hg
      isplitl [Ho]; · iexact Ho
      isplitl [H0]; · iexact H0
      isplitl [H1]; · iexact H1
      isplitl [H2]; · iexact H2
      isplitl [H3]; · iexact H3
      iexact H4
    · have hl' : isLast t.val = false := by simpa using hl
      rw [Dat.leavesExact_idle (dats m 0 c) 4 t (idleAt4 t hl') (noFlush4 t hl')]
      iintro ⟨⟨⟨HS0, HS1, HS2⟩, Hg⟩, Ho, ⟨%d0, H0⟩, ⟨%d1, H1⟩, ⟨%d2, H2⟩, ⟨%d3, H3⟩, ⟨%d4, H4⟩⟩
      iapply (body_run c (grid0.coords t) _ _ _ _ _ _ _ _ _ _ _ _ _ _ _ _ (isReset t.val) (isHit t.val) (isLast t.val) hb1 hb2 hb3
        (iblk m c 0 t) (iblk m c 1 t) (iblk m c 2 t) (iblk m c 3 t) ((dats m 0 c).before 4 t d4)
        (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      rw [hl']
      simp only [Bool.false_eq_true, if_false]
      iintro ⟨H0, H1, H2, H3, H4, HS0, HS1, HS2⟩
      isplitl [HS0 HS1 HS2 Hg]
      · isplitr [Hg]
        · isplitl [HS0]; · iexact HS0
          isplitl [HS1]; · iexact HS1
          iexact HS2
        · iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 256 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨⟨HS0, HS1, HS2⟩, Hg⟩
  isplitr [Hg]
  · isplitl [HS0]; · iexists _; iexact HS0
    isplitl [HS1]; · iexists _; iexact HS1
    iexists _; iexact HS2
  · iexact Hg

/-- THE RUN: the scalar result is the host tail of the output column's array after the write-backs; the
    arguments are unchanged. -/
theorem run_main : θ_run defs (onTc (τ := τ) (main (F := F))) (s₀ m ρ) (fun r => ∀ c : Dev nD,
      r.2.mem ((c.tc : Thread nD τ).loc main_v12) = tailVal ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_main_of m ρ (dats m) (fun c => (body_obligation m c).loose) (fun _ _ => rfl) (fun _ _ => rfl) (A_eq m) (hin m) (hout m)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KIState.lean ====
/- The kernel's state from grid point to grid point, as pure functions of the blocks it is handed.
   The three scratch columns hold, for each of the 512 rows of the current row tile, the running maximum
   of the masked logits, the running sum of their exponentials taken relative to that maximum, and the
   positive logit once its column tile has been met. A point whose column tile is the first resets the
   three; every point folds its tile of masked logits into the first two; the point whose column tile
   is the row tile's partner stores the tile's diagonal into the third. The output column is written
   from the three at the last column tile. -/
import proofs.«117797_j84602265797103_1_alg».proof.Proof.Gen.KernelIdeal.Launch
import proofs.«117797_j84602265797103_1_alg».proof.Proof.Gen.KernelIdeal.Skeleton
import proofs.«117797_j84602265797103_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three scratch columns: running maximum, running sum, positive logit. -/
abbrev St (F : FTy → Type) [FloatOps F] : Type := Vec F S512x1 .f32 × Vec F S512x1 .f32 × Vec F S512x1 .f32

/-- One grid point's effect on the scratch columns: `reset` says the column tile is the first, `hit`
    that it is the row tile's partner; `x0`, `x1` are the row and column tiles of the normalised
    embeddings, `x2`, `x3` the row and column tiles of the labels. -/
def stNext (x0 x1 : Vec F S512x256 .bf16) (x2 : Vec F S512x1 .i32) (x3 : Vec F S1x512 .i32) (reset hit : Bool) (s : St F) : St F :=
  (k0_pay2 (k0_pay10 x0 x1 x2 x3 (if reset then k0_pay5 (F := F) else s.1)),
   k0_pay1 (k0_pay11 x0 x1 x2 x3 (if reset then k0_pay5 (F := F) else s.1) (if reset then k0_pay5 (F := F) else s.1) (if reset then k0_pay6 (F := F) else s.2.1)),
   if hit then k0_pay3 (k0_pay8 x0 x1) else (if reset then k0_pay7 (F := F) else s.2.2))

/-- The output column a point at the last column tile writes, from the scratch columns it leaves. -/
def outOf (s : St F) : Vec F S512x1 .f32 := k0_pay4 s.1 s.2.2 s.1 s.2.1 s.2.2 s.2.2

variable (m : (ℓ : Loc nD τ sig) → Buf (Elt F) ℓ) (ρ : Dev nD → PrngReg)

/-- The buffers' contents when the region is entered: the launch contents after the host operations
    before the region. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types. -/
abbrev xb0 (c : Dev nD) (t : Fin cfg0.N) : Vec F S512x256 .bf16 := iblk m c 0 t
abbrev xb1 (c : Dev nD) (t : Fin cfg0.N) : Vec F S512x256 .bf16 := iblk m c 1 t
abbrev xb2 (c : Dev nD) (t : Fin cfg0.N) : Vec F S512x1 .i32 := iblk m c 2 t
abbrev xb3 (c : Dev nD) (t : Fin cfg0.N) : Vec F S1x512 .i32 := iblk m c 3 t

/-- Point `n` is at the first column tile. -/
abbrev isReset (n : ℕ) : Bool := decide (n % 16 = 0)
/-- Point `n`'s column tile is its row tile's partner (eight tiles away, cyclically). -/
abbrev isHit (n : ℕ) : Bool := decide (n % 16 = (if n / 16 < 8 then n / 16 + 8 else n / 16 - 8))
/-- Point `n` is at the last column tile. -/
abbrev isLast (n : ℕ) : Bool := decide (n % 16 = 15)

/-- The scratch columns after point `n`. (The contents before the first point are never read: the
    first point resets.) -/
def stAt (c : Dev nD) : (n : ℕ) → n < cfg0.N → St F
  | 0, hn => stNext (xb0 m c ⟨0, hn⟩) (xb1 m c ⟨0, hn⟩) (xb2 m c ⟨0, hn⟩) (xb3 m c ⟨0, hn⟩) true (isHit 0) (k0_pay5, k0_pay6, k0_pay7)
  | n + 1, hn => stNext (xb0 m c ⟨n + 1, hn⟩) (xb1 m c ⟨n + 1, hn⟩) (xb2 m c ⟨n + 1, hn⟩) (xb3 m c ⟨n + 1, hn⟩) (isReset (n + 1)) (isHit (n + 1))
      (stAt c n (Nat.lt_of_succ_lt hn))

theorem stAt_zero (c : Dev nD) (hn : 0 < cfg0.N) :
    stAt m c 0 hn = stNext (xb0 m c ⟨0, hn⟩) (xb1 m c ⟨0, hn⟩) (xb2 m c ⟨0, hn⟩) (xb3 m c ⟨0, hn⟩) true (isHit 0) (k0_pay5, k0_pay6, k0_pay7) := rfl

theorem stAt_succ (c : Dev nD) (n : ℕ) (hn : n + 1 < cfg0.N) :
    stAt m c (n + 1) hn = stNext (xb0 m c ⟨n + 1, hn⟩) (xb1 m c ⟨n + 1, hn⟩) (xb2 m c ⟨n + 1, hn⟩) (xb3 m c ⟨n + 1, hn⟩) (isReset (n + 1)) (isHit (n + 1))
      (stAt m c n (Nat.lt_of_succ_lt hn)) := rfl

/-- A reset point's result does not depend on what the scratch held. -/
theorem stNext_reset (x0 x1 : Vec F S512x256 .bf16) (x2 : Vec F S512x1 .i32) (x3 : Vec F S1x512 .i32) (hit : Bool) (s s' : St F) :
    stNext x0 x1 x2 x3 true hit s = stNext x0 x1 x2 x3 true hit s' := by
  unfold stNext; simp only [if_true]

/-! ## The body's branch conditions, as the printed body computes them, and in closed form over the grid -/

abbrev cond1 (i : grid0.Coords) : Prop := (Scalar.cmpi .ne (Scalar.extui (Scalar.cmpi .eq (BitVec.ofNat 32 (i 1).val) 0#32)) 0#32) = 1#1
abbrev cond2 (i : grid0.Coords) : Prop :=
  (Scalar.cmpi .ne (Scalar.extui (Scalar.cmpi .eq (BitVec.ofNat 32 (i 1).val)
    (Scalar.select (Scalar.cmpi .slt (BitVec.ofNat 32 (i 0).val) 8#32) (Scalar.addi (BitVec.ofNat 32 (i 0).val) 8#32) (Scalar.subi (BitVec.ofNat 32 (i 0).val) 8#32)))) 0#32) = 1#1
abbrev cond3 (i : grid0.Coords) : Prop := k0_cond3 i = 1#1

theorem hcond1 : ∀ t : Fin cfg0.N, cond1 (grid0.coords t) ↔ isReset t.val = true :=
  (by decide +kernel : ∀ t : Fin grid0.N, cond1 (grid0.coords t) ↔ isReset t.val = true)
theorem hcond2 : ∀ t : Fin cfg0.N, cond2 (grid0.coords t) ↔ isHit t.val = true :=
  (by decide +kernel : ∀ t : Fin grid0.N, cond2 (grid0.coords t) ↔ isHit t.val = true)
theorem hcond3 : ∀ t : Fin cfg0.N, cond3 (grid0.coords t) ↔ isLast t.val = true :=
  (by decide +kernel : ∀ t : Fin grid0.N, cond3 (grid0.coords t) ↔ isLast t.val = true)

end Cert.KernelIdeal.Hand

end
-- ==== Proof.KIRun.lean ====
/- The kernel body run once, on any whole staging and scratch memrefs: from the blocks and scratch columns
   it is handed, it leaves the scratch columns at the next state and, at a last column tile, the output
   column computed from them; the input buffers are left as they were, and the output buffer is left
   untouched elsewhere. -/
import proofs.«117797_j84602265797103_1_alg».proof.Proof.KIState
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access of the body: the origin. -/
private theorem hz2 : (![0, 0] : Fin 2 → Nat) = fun _ => 0 := funext fun a => by fin_cases a <;> rfl

/-- A buffer read, through any view of it, after a list of writes the last of which covers the whole
    shape at the origin: that write's payload, whatever lay below it. -/
private theorem read_writes_cons_whole {sig : RefSig} {κ : Kind} {sp : Space} {S : Shape} {e : EltTy} {Val : EltTy → Type}
    [∀ e, Nonempty (Val e)] (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

set_option hygiene false in
/-- Hand buffer `H` of whole memref `h` back at the contents the statement names. A buffer the body did not
    store into reads what it held. One it stored into reads the payload of its last store, which covers
    it; each load that payload was computed from reads either a whole untouched buffer, that is its
    contents, or a buffer after a covering store, that is that store's payload. -/
local macro "hand_back " H:ident h:ident : tactic => `(tactic| (
  iexists _; isplitr; swap; iexact $H
  ipureintro
  first
    | exact ($h).read_unread _
    | (sl_unfold_run_names
       rw [read_writes_cons_whole _ _ hz2]
       try dsimp only
       try simp only [View.readAt_eq_ld, harg2.read_unread, harg3.read_unread, harg4.read_unread, harg5.read_unread,
         harg7.read_unread, harg8.read_unread, harg9.read_unread, View.ld_unit_zero (S := S512x256) hz2,
         View.ld_unit_zero (S := S512x1) hz2, View.ld_unit_zero (S := S1x512) hz2, View.readCov_cons_toLoadRect]
       rfl)))

set_option maxHeartbeats 4000000 in
/-- The body at coordinates `i`, the three branch conditions decided as the Booleans say. Each of the eight
    combinations goes the same way: the conditions fix which stores happen, the body runs through them,
    and every buffer is handed back at the contents named. -/
theorem body_run (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (b1 b2 b3 : Bool) (h1 : cond1 i ↔ b1 = true) (h2 : cond2 i ↔ b2 = true) (h3 : cond3 i ↔ b3 = true)
    (x0 x1 : Vec F S512x256 .bf16) (x2 : Vec F S512x1 .i32) (x3 : Vec F S1x512 .i32) (xo : Vec F S512x1 .f32) (s : St F)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (if b3 then outOf (stNext x0 x1 x2 x3 b1 b2 s) else xo)
            ∗ owns (c : Thread nD τ) arg7 fullShare (stNext x0 x1 x2 x3 b1 b2 s).1
            ∗ owns (c : Thread nD τ) arg8 fullShare (stNext x0 x1 x2 x3 b1 b2 s).2.1
            ∗ owns (c : Thread nD τ) arg9 fullShare (stNext x0 x1 x2 x3 b1 b2 s).2.2) -∗ K ⟨⟩))
      ⊢ wp frame (wpE (defs₀ (F := F)) Variants.none c none) E
          (cc0_kernel i arg2 harg2 arg3 harg3 arg4 harg4 arg5 harg5 arg6 harg6 arg7 harg7 arg8 harg8 arg9 harg9) K := by
  cases b1 <;> cases b2 <;> cases b3
  all_goals
    first
      | have hc1 : cond1 i := h1.mpr rfl
      | have hc1 : ¬cond1 i := fun h => Bool.false_ne_true (h1.mp h)
    first
      | have hc2 : cond2 i := h2.mpr rfl
      | have hc2 : ¬cond2 i := fun h => Bool.false_ne_true (h2.mp h)
    first
      | have hc3 : cond3 i := h3.mpr rfl
      | have hc3 : ¬cond3 i := fun h => Bool.false_ne_true (h3.mp h)
    simp only [cc0_kernel_eq_skeleton]; unfold cc0_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩,
      ⟨%f7, %hf7, H7⟩, ⟨%f8, %hf8, H8⟩, ⟨%f9, %hf9, H9⟩, Hk⟩
    obtain rfl := harg2.eq_unread hf2; obtain rfl := harg3.eq_unread hf3
    obtain rfl := harg4.eq_unread hf4; obtain rfl := harg5.eq_unread hf5
    obtain rfl := harg6.eq_unread hf6; obtain rfl := harg7.eq_unread hf7
    obtain rfl := harg8.eq_unread hf8; obtain rfl := harg9.eq_unread hf9
    sl_exec (disch := first | exact hc1 | exact hc2 | exact hc3)
    sl_step
    iapply Hk
    isplitl [H2]; · hand_back H2 harg2
    isplitl [H3]; · hand_back H3 harg3
    isplitl [H4]; · hand_back H4 harg4
    isplitl [H5]; · hand_back H5 harg5
    isplitl [H6]; · hand_back H6 harg6
    isplitl [H7]; · hand_back H7 harg7
    isplitl [H8]; · hand_back H8 harg8
    hand_back H9 harg9

end Cert.KernelIdeal.Hand

end
-- ==== Proof.KILaunch.lean ====
/- The launch: from a body obligation for proof data whose arrays are the region-entry contents, to the run
   of the whole program. The two embedding windows read one array, so that array's full share is dealt
   as its two halves, one to each window; the host operations after the region read the output column
   and write the scalar result. -/
import proofs.«117797_j84602265797103_1_alg».proof.Proof.KIState

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares the input windows hold their arrays at: the embeddings' array is read through two windows,
    each holding one half of it; the label arrays are each read through one window. -/
def qOf : Fin 5 → PosShare TreeShare := fun | 0 => fullShare.left | 1 => fullShare.right | 2 => fullShare | 3 => fullShare | 4 => fullShare | ⟨_ + 5, h⟩ => absurd h (Nat.not_lt.2 (Nat.le_add_left _ _))

/-- The host operations after the region as one function of the output column: its sum over all rows,
    divided by the row count. -/
def tailVal (x : (⟨S8192x1, .f32⟩ : BufTy).Contents (Elt F)) : (⟨S_, .f32⟩ : BufTy).Contents (Elt F) :=
  Host.divf (Host.reduceAdd x (constant S_ .f32 0x00000000#32) reducesTo_S8192x1_S_d0_1 h_S_) (constant S_ .f32 0x46000000#32)

variable (m : (ℓ : Loc nD τ sig) → Buf (Elt F) ℓ) (ρ : Dev nD → PrngReg)

/-- The core's buffer contents when the region is left: the output column's array at what the write-backs
    left in it, every other buffer at its region-entry contents. -/
def Wx (dats : (p : Fin 1) → (c : Dev nD) → Dat τ (Elt F) Unit ℕ (UR sig nD τ) ℕ (cfgs p) c) (c : Dev nD) : Valuation τ sig (Elt F) :=
  Function.update (V0 m c) (Proc.devRef .tc main_v10) ((dats 0 c).arrAt 4 cfg0.N)

/-- The bypassing buffers' contents after the host operations that follow the region. -/
abbrev Vend (dats : (p : Fin 1) → (c : Dev nD) → Dat τ (Elt F) Unit ℕ (UR sig nD τ) ℕ (cfgs p) c) (c : Dev nD) (b : Ref sig .tc) :
    Buf (Elt F) ((c : Thread nD τ).loc b) := StableHlo.after hostOps1 (Wx m dats c) (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the three stretches of host operations, the region, and the last four host operations:
    it reduces to the region continued by those four, at the contents after the three stretches. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0, hostOps0_1, hostOps0_2] [hostOps1]
    ⟨hostOps0_sub, hostOps0_1_sub, hostOps0_2_sub⟩ ⟨hostOps0_fresh, hostOps0_1_fresh, hostOps0_2_fresh⟩ main_chain

/-- THE ARRAYS AT ENTRY. The four buffers behind the five windows, each whole at the full share, make the
    proof data's arrays: the embeddings' buffer is dealt as its left and right halves to the two windows that
    read it, each other buffer goes whole to its one window. -/
theorem hsplit (dats : (p : Fin 1) → (c : Dev nD) → Dat τ (Elt F) Unit ℕ (UR sig nD τ) ℕ (cfgs p) c)
    (hq : ∀ c w, (dats 0 c).q w = qOf w)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  have hB : (Pipeline.arrBufs spec0 c (V m c) : sProp 𝕄)
      = iprop((((c.tc : Thread nD τ).loc main_v7) ↦{fullShare} V m c main_v7) ∗ (((c.tc : Thread nD τ).loc main_v8) ↦{fullShare} V m c main_v8)
          ∗ (((c.tc : Thread nD τ).loc main_v9) ↦{fullShare} V m c main_v9) ∗ (((c.tc : Thread nD τ).loc main_v10) ↦{fullShare} V m c main_v10)) := by
    unfold Pipeline.arrBufs
    exact bigSep_eq_bigSepL_of_eq [main_v7, main_v8, main_v9, main_v10] (by decide) (by decide) _
  have hW : ∀ w : Fin 5, ((View.loc (c.tc : Thread nD τ) ((cfgs 0).win w).arr.view ↦[((cfgs 0).win w).arr.view.set]{(dats 0 c).share w} (dats 0 c).arrAt w 0 : sProp 𝕄))
      = (((c.tc : Thread nD τ).loc (Pipeline.arrRef spec0 w)) ↦{(dats 0 c).share w} V m c (Pipeline.arrRef spec0 w)) := fun w => by
    rw [(Gen.arr_whole0 w).set_eq_univ]
    show (_ ↦{_} (dats 0 c).A w : sProp 𝕄) = _
    rw [hA]
  have hs0 : (dats 0 c).share 0 = fullShare.left := by unfold Dat.share; rw [hq]; rfl
  have hs1 : (dats 0 c).share 1 = fullShare.right := by unfold Dat.share; rw [hq]; rfl
  have hs2 : (dats 0 c).share 2 = fullShare := by unfold Dat.share; rw [hq]; rfl
  have hs3 : (dats 0 c).share 3 = fullShare := by unfold Dat.share; rw [hq]; rfl
  have hs4 : (dats 0 c).share 4 = fullShare := by unfold Dat.share; rfl
  rw [hB]
  unfold Dat.arrays
  rw [Gen.bigSep_W0, hW 0, hW 1, hW 2, hW 3, hW 4, hs0, hs1, hs2, hs3, hs4]
  iintro ⟨H7, H8, H9, H10⟩
  ihave H7' := (pointsTo_share (PosShare.mem_left_op_right fullShare)).1 $$ H7
  icases H7' with ⟨H7l, H7r⟩
  isplitl [H7l]; · iexact H7l
  isplitl [H7r]; · iexact H7r
  isplitl [H8]; · iexact H8
  isplitl [H9]; · iexact H9
  iexact H10

/-- The buffers the last four host operations run within: the output column's array and the buffers that
    bypass the region. -/
def tailSet : Finset (DevRef τ sig) :=
  insert (Proc.devRef .tc main_v10) ((Pipeline.restRefs sig spec0).map ⟨Proc.devRef (sig := sig) .tc, Proc.devRef_injective _⟩)

theorem v10_not_rest : main_v10 ∉ Pipeline.restRefs sig spec0 := fun h =>
  (Finset.mem_sdiff.mp h).2 (Finset.mem_image.mpr ⟨4, Finset.mem_univ _, rfl⟩)

theorem v10_not_map : Proc.devRef (τ := τ) .tc main_v10 ∉ (Pipeline.restRefs sig spec0).map ⟨Proc.devRef (sig := sig) .tc, Proc.devRef_injective _⟩ := fun h => by
  obtain ⟨b, hb, e⟩ := Finset.mem_map.mp h
  exact v10_not_rest (Proc.devRef_injective _ e ▸ hb)

/-- That set held at a valuation is the output column's array and the bypassing buffers at it. -/
theorem held_tailSet (c : Dev nD) (W : Valuation τ sig (Elt F)) :
    (StableHlo.held (c.tc : Thread nD τ) tailSet W : sProp 𝕄)
      = iprop((((c.tc : Thread nD τ).loc main_v10) ↦{fullShare} W (Proc.devRef .tc main_v10))
          ∗ Pipeline.unscopedRest spec0 c (fun b => W (Proc.devRef .tc b))) := by
  unfold StableHlo.held tailSet Pipeline.unscopedRest
  rw [bigSep_insert v10_not_map, bigSep_map]
  rfl

theorem mem_tailSet_of {b : Ref sig .tc} (hs : b.isScoped = false) (ha : ∀ w, (spec0 w).arr.view.ref ≠ b) :
    Proc.devRef (τ := τ) .tc b ∈ tailSet :=
  Finset.mem_insert_of_mem (Finset.mem_map_of_mem _ (Pipeline.mem_restRefs_of b hs ha))

/-- Each of the last four host operations touches only buffers of that set. -/
theorem hostOps1_within : ∀ op ∈ (hostOps1 : List (HloOp τ sig (Elt F))), op.bufs ⊆ tailSet := by
  intro op hop
  simp only [hostOps1, List.mem_cons, List.mem_nil_iff, or_false] at hop
  rcases hop with rfl | rfl | rfl | rfl
  · rw [StableHlo.nullary_bufs]
    exact Finset.singleton_subset_iff.mpr (mem_tailSet_of rfl (by decide))
  · rw [StableHlo.binary_bufs]
    exact Finset.insert_subset_iff.mpr ⟨Finset.mem_insert_self _ _, Finset.insert_subset_iff.mpr
      ⟨mem_tailSet_of rfl (by decide), Finset.singleton_subset_iff.mpr (mem_tailSet_of rfl (by decide))⟩⟩
  · rw [StableHlo.nullary_bufs]
    exact Finset.singleton_subset_iff.mpr (mem_tailSet_of rfl (by decide))
  · rw [StableHlo.binary_bufs]
    exact Finset.insert_subset_iff.mpr ⟨mem_tailSet_of rfl (by decide), Finset.insert_subset_iff.mpr
      ⟨mem_tailSet_of rfl (by decide), Finset.singleton_subset_iff.mpr (mem_tailSet_of rfl (by decide))⟩⟩

/-- None of them writes the output column's array. -/
theorem hostOps1_keeps_v10 : ∀ op ∈ (hostOps1 : List (HloOp τ sig (Elt F))), Proc.devRef (τ := τ) .tc main_v10 ∉ op.writes := by
  intro op hop
  simp only [hostOps1, List.mem_cons, List.mem_nil_iff, or_false] at hop
  rcases hop with rfl | rfl | rfl | rfl
  all_goals simp only [StableHlo.nullary_writes, StableHlo.binary_writes, Finset.mem_singleton] <;> exact StableHlo.devRef_ne_of_ne (by decide)

/-- The exit contents at the output column's array, and at a bypassing buffer. -/
theorem Wx_v10 (dats : (p : Fin 1) → (c : Dev nD) → Dat τ (Elt F) Unit ℕ (UR sig nD τ) ℕ (cfgs p) c) (c : Dev nD) :
    Wx m dats c (Proc.devRef .tc main_v10) = (dats 0 c).arrAt 4 cfg0.N := by
  unfold Wx; exact Function.update_self _ _ _

theorem Wx_rest (dats : (p : Fin 1) → (c : Dev nD) → Dat τ (Elt F) Unit ℕ (UR sig nD τ) ℕ (cfgs p) c) (c : Dev nD)
    (b : Ref sig .tc) (hb : b ∈ Pipeline.restRefs sig spec0) : Wx m dats c (Proc.devRef .tc b) = V m c b := by
  unfold Wx; exact Function.update_of_ne (StableHlo.devRef_ne_of_ne (ne_of_mem_of_not_mem hb v10_not_rest)) _ _

/-- The buffers held when the region is left. -/
theorem held_exit (dats : (p : Fin 1) → (c : Dev nD) → Dat τ (Elt F) Unit ℕ (UR sig nD τ) ℕ (cfgs p) c) (c : Dev nD) :
    (StableHlo.held (c.tc : Thread nD τ) tailSet (Wx m dats c) : sProp 𝕄)
      = iprop((((c.tc : Thread nD τ).loc main_v10) ↦{fullShare} (dats 0 c).arrAt 4 cfg0.N) ∗ Pipeline.unscopedRest spec0 c (V m c)) := by
  rw [held_tailSet, Wx_v10]
  have h2 : (Pipeline.unscopedRest spec0 c (fun b => Wx m dats c (Proc.devRef .tc b)) : sProp 𝕄) = Pipeline.unscopedRest spec0 c (V m c) := by
    unfold Pipeline.unscopedRest
    exact bigSep_congr fun b hb => by beta_reduce; rw [Wx_rest m dats c b hb]
  rw [h2]

/-- And after the last four host operations. -/
theorem held_end (dats : (p : Fin 1) → (c : Dev nD) → Dat τ (Elt F) Unit ℕ (UR sig nD τ) ℕ (cfgs p) c) (c : Dev nD) :
    (StableHlo.held (c.tc : Thread nD τ) tailSet (StableHlo.after hostOps1 (Wx m dats c)) : sProp 𝕄)
      = iprop((((c.tc : Thread nD τ).loc main_v10) ↦{fullShare} (dats 0 c).arrAt 4 cfg0.N) ∗ Pipeline.unscopedRest spec0 c (Vend m dats c)) := by
  rw [held_tailSet, StableHlo.after_of_forall_not_mem _ _ hostOps1_keeps_v10, Wx_v10]

/-- THE LAST FOUR HOST OPERATIONS, run from the region's exit: they run within the output column's array and the
    bypassing buffers, and hand back the windows' arrays as they were and the bypassing buffers at the contents
    after the four. The other windows' arrays are not touched. -/
theorem htail (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c (Vend m dats c)) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun p => (cfgs p).toPCfg (Val := Elt F)) defs₀) (Variants.lift Variants.none) (c.tc : Thread nD τ) none) Set.univ
          (Pipeline.chain [StableHlo.seq hostOps1]) Q' := by
  have h4 : ((View.loc (c.tc : Thread nD τ) ((cfgs 0).win 4).arr.view ↦[((cfgs 0).win 4).arr.view.set]{(dats 0 c).share 4} (dats 0 c).arrAt 4 cfg0.N : sProp 𝕄))
      = (((c.tc : Thread nD τ).loc main_v10) ↦{fullShare} (dats 0 c).arrAt 4 cfg0.N) := by
    rw [(Gen.arr_whole0 4).set_eq_univ]; rfl
  have hrun := Pipeline.wp_seqs_then (Ix := Unit) (Name := ℕ) (U := UR sig nD τ) (Lvl := ℕ) (fun p => (cfgs p).toPCfg (Val := Elt F)) defs₀ Variants.none c tailSet [] [hostOps1]
    (fun ops hops op hop => by
      simp only [List.mem_cons, List.mem_nil_iff, or_false] at hops; subst hops; exact hostOps1_within op hop)
    (fun ops hops op hop => by
      simp only [List.mem_cons, List.mem_nil_iff, or_false] at hops; subst hops; exact (List.forall_iff_forall_mem.mp hostOps1_fresh) op hop)
    (Wx m dats c) (K := Q')
  simp only [List.map_cons, List.map_nil, List.append_nil, List.flatten_cons, List.flatten_nil, Pipeline.chain_nil] at hrun
  rw [held_exit, held_end] at hrun
  rw [Pipeline.unscopedRestP_none, Pipeline.unscopedRestP_none]
  unfold Dat.arrays
  rw [Gen.bigSep_W0, h4]
  iintro ⟨Hk, Hb, ⟨H0, H1, H2, H3, H4⟩, HZ⟩
  iapply hrun $$ [Hb H4 HZ]
  · isplitl [Hb]; · iexact Hb
    isplitl [H4]; · iexact H4
    iexact HZ
  iintro ⟨Hb, H4, HZ⟩
  rw [wp_pure]; imodintro
  iapply Hk
  isplitr [HZ]
  · isplitl [H0]; · iexact H0
    isplitl [H1]; · iexact H1
    isplitl [H2]; · iexact H2
    isplitl [H3]; · iexact H3
    iexact H4
  · iexact HZ

/-- The scalar result after the last four host operations is the host tail of the output column. -/
theorem Vend_v12 (dats : (p : Fin 1) → (c : Dev nD) → Dat τ (Elt F) Unit ℕ (UR sig nD τ) ℕ (cfgs p) c) (c : Dev nD) :
    Vend m dats c main_v12 = tailVal ((dats 0 c).arrAt 4 cfg0.N) := by
  show StableHlo.after hostOps1 (Wx m dats c) (Proc.devRef .tc main_v12) = _
  after_results
  rw [Wx_v10]; rfl

/-- No host operation of the program writes an argument. -/
theorem args_kept (b : Ref sig .tc) (hb : b = main_arg0 ∨ b = main_arg1 ∨ b = main_arg2) :
    ∀ op ∈ (List.flatten [hostOps0, hostOps0_1, hostOps0_2] ++ hostOps1 : List (HloOp τ sig (Elt F))), Proc.devRef (τ := τ) .tc b ∉ op.writes := by
  intro op hop
  simp only [hostOps0, hostOps0_1, hostOps0_2, hostOps1, List.flatten_cons, List.flatten_nil, List.append_nil, List.cons_append, List.nil_append,
    List.mem_cons, List.mem_nil_iff, or_false] at hop
  rcases hb with rfl | rfl | rfl <;> rcases hop with rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

/-- So each argument holds its launch contents at the end. -/
theorem Vend_arg (dats : (p : Fin 1) → (c : Dev nD) → Dat τ (Elt F) Unit ℕ (UR sig nD τ) ℕ (cfgs p) c) (c : Dev nD)
    (b : Ref sig .tc) (hb : b = main_arg0 ∨ b = main_arg1 ∨ b = main_arg2) :
    Vend m dats c b = m ((c.tc : Thread nD τ).loc b) := by
  have hr : b ∈ Pipeline.restRefs sig spec0 := by
    rcases hb with rfl | rfl | rfl <;> exact Pipeline.mem_restRefs_of _ rfl (by decide)
  show StableHlo.after hostOps1 (Wx m dats c) (Proc.devRef .tc b) = _
  rw [StableHlo.after_of_forall_not_mem _ _ (fun op hop => args_kept b hb op (List.mem_append_right _ hop)), Wx_rest m dats c b hr]
  show StableHlo.after (List.flatten [hostOps0, hostOps0_1, hostOps0_2]) (fun b => m (c, b)) (Proc.devRef .tc b) = _
  rw [StableHlo.after_of_forall_not_mem _ _ (fun op hop => args_kept b hb op (List.mem_append_left _ hop))]

/-- THE RUN. Every weakly fair execution of the program terminates without a fault; the scalar result is
    the host tail of what the write-backs left in the output column's array, and the arguments are unchanged. -/
theorem run_main_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = qOf w)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (fun r => ∀ c : Dev nD,
      r.2.mem ((c.tc : Thread nD τ).loc main_v12) = tailVal ((dats 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail (fun p => (cfgs p).toPCfg (Val := Elt F)) (fun p => (cfgs p).toPCfg_adm) dats () Gen.cellOf_inj 0 Gen.winFacts₀0
    (Pipeline.OwnSemFacts.none spec0) (Pipeline.PreFacts.none _) emb₁ defs₀ Variants.none m ρ main
    (fun _ => Pipeline.chain [StableHlo.seq hostOps1]) hbody
    Gen.block_pos0 Gen.arr_whole0 Gen.stage_whole0 howed
    (G := fun _ => iprop(emp)) (u₀ := initOf (Pipeline.cells cfgs Gen.cellOf_inj) (Pipeline.launchToks cfgs Gen.cellOf_inj))
    (hu₀ := by
      iintro Hu; imodintro
      isplitl [Hu]; · iapply (show (ownU _ : sProp 𝕄) ⊢ BI.own (emb₁ (initOf (Pipeline.cells cfgs Gen.cellOf_inj) (Pipeline.launchToks cfgs Gen.cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => hsplit m dats hq hA c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m dats c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail m dats c Q')
    (QY := fun c s => ∀ b ∈ Pipeline.restRefs sig spec0, s.mem ((c.tc : Thread nD τ).loc b) = Vend m dats c b)
    (hY := fun c s' => by
      rw [Pipeline.unscopedRestP_none]
      iintro ⟨-, HU, HSI⟩
      unfold Pipeline.unscopedRest
      imodintro
      iapply (pointsTo_read_all (Pipeline.restRefs sig spec0) (fun b => (c.tc : Thread nD τ).loc b) (Vend m dats c) s')
      isplitl [HU] <;> iassumption)
    (hQ := fun s h c =>
      have hr := (h c).2.2
      ⟨(hr main_v12 (Pipeline.mem_restRefs_of _ rfl (by decide))).trans (Vend_v12 m dats c),
        (hr main_arg0 (Pipeline.mem_restRefs_of _ rfl (by decide))).trans (Vend_arg m dats c main_arg0 (.inl rfl)),
        (hr main_arg1 (Pipeline.mem_restRefs_of _ rfl (by decide))).trans (Vend_arg m dats c main_arg1 (.inr (.inl rfl))),
        (hr main_arg2 (Pipeline.mem_restRefs_of _ rfl (by decide))).trans (Vend_arg m dats c main_arg2 (.inr (.inr rfl)))⟩)

end Cert.KernelIdeal.Hand

end
-- ==== Proof.KIFrame.lean ====
/- The proof data of the one pipeline, its body obligation and the run of the whole program.
   After point `t` the scratch columns hold the state `stAt t`; each input window's staging buffer holds
   its block of the array at every point, fetched there or not; the output window's staging buffer is
   written only at the last column tile of each row tile, where it is written back. -/
import proofs.«117797_j84602265797103_1_alg».proof.Proof.KIRun
import proofs.«117797_j84602265797103_1_alg».proof.Proof.KILaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging and scratch memrefs at a point -/

abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev scM0 : Memref sig .tc .vmem S512x1 .f32 := Memref.whole cc0_scratch0
abbrev scM1 : Memref sig .tc .vmem S512x1 .f32 := Memref.whole cc0_scratch1
abbrev scM2 : Memref sig .tc .vmem S512x1 .f32 := Memref.whole cc0_scratch2

/-- The invariant the launch hands the region, with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem idleAt4 : ∀ t : Fin cfg0.N, isLast t.val = false → cfg0.idle 4 (grid0.coords t) = true := by decide +kernel
theorem noFlush4 : ∀ t : Fin cfg0.N, isLast t.val = false → (cfg0.win 4).flush t = false := by decide +kernel
theorem liveAt4 : ∀ t : Fin cfg0.N, isLast t.val = true → cfg0.idle 4 (grid0.coords t) = false := by decide +kernel

/-! ## What the scratch columns hold before a point -/

/-- The scratch columns before point `t`: what the point before left (before the first point, anything). -/
def stPrev (c : Dev nD) (t : Fin cfg0.N) : St F :=
  if h : t.val = 0 then (k0_pay5, k0_pay6, k0_pay7) else stAt m c (t.val - 1) (Nat.lt_of_le_of_lt (Nat.sub_le _ _) t.isLt)

/-- Each point's state is one step from the state before it. -/
theorem stAt_eq (c : Dev nD) (t : Fin cfg0.N) :
    stAt m c t.val t.isLt = stNext (xb0 m c t) (xb1 m c t) (xb2 m c t) (xb3 m c t) (isReset t.val) (isHit t.val) (stPrev m c t) := by
  obtain ⟨n, hn⟩ := t
  cases n with
  | zero => unfold stPrev; rw [dif_pos rfl]; rfl
  | succ n => unfold stPrev; rw [dif_neg (Nat.succ_ne_zero n)]; rfl

/-- The region invariant before position `n`: before the first point the launch's; afterwards the scratch
    columns at the state the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare (stAt m c n hn).1 ∗ owns (c : Thread nD τ) scM1 fullShare (stAt m c n hn).2.1
      ∗ owns (c : Thread nD τ) scM2 fullShare (stAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (stAt m c n hn).1 ∗ owns (c : Thread nD τ) scM1 fullShare (stAt m c n hn).2.1
      ∗ owns (c : Thread nD τ) scM2 fullShare (stAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0 fullShare (stAt m c (n - 1) (by omega)).1 ∗ owns (c : Thread nD τ) scM1 fullShare (stAt m c (n - 1) (by omega)).2.1
      ∗ owns (c : Thread nD τ) scM2 fullShare (stAt m c (n - 1) (by omega)).2.2) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (stAt m c t.val t.isLt)
  Φ t := PhiS m c t.val (Nat.le_of_lt_succ t.isLt)
  q := qOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outOf (stAt m c t.val t.isLt) := by dsimp only [dats]

/-- Each input's current staging buffer holds its block at every point, fetched there or not: where it is not
    fetched the window's block index has not moved since the fetch, and the body left the block in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_in0 (c : Dev nD) (t : Fin cfg0.N) : (dats m 0 c).leavesExact 0 t = owns (c : Thread nD τ) (ms0 t) fullShare (iblk m c 0 t) := by
  unfold Dat.leavesExact; rw [liveAt0 t, after0]
theorem leaves_in1 (c : Dev nD) (t : Fin cfg0.N) : (dats m 0 c).leavesExact 1 t = owns (c : Thread nD τ) (ms1 t) fullShare (iblk m c 1 t) := by
  unfold Dat.leavesExact; rw [liveAt1 t, after1]
theorem leaves_in2 (c : Dev nD) (t : Fin cfg0.N) : (dats m 0 c).leavesExact 2 t = owns (c : Thread nD τ) (ms2 t) fullShare (iblk m c 2 t) := by
  unfold Dat.leavesExact; rw [liveAt2 t, after2]
theorem leaves_in3 (c : Dev nD) (t : Fin cfg0.N) : (dats m 0 c).leavesExact 3 t = owns (c : Thread nD τ) (ms3 t) fullShare (iblk m c 3 t) := by
  unfold Dat.leavesExact; rw [liveAt3 t, after3]
theorem leaves_out_last (c : Dev nD) (t : Fin cfg0.N) (h : isLast t.val = true) :
    (dats m 0 c).leavesExact 4 t = owns (c : Thread nD τ) (ms4 t) fullShare (outOf (stAt m c t.val t.isLt)) := by
  unfold Dat.leavesExact; rw [liveAt4 t h, after4]

set_option maxHeartbeats 4000000 in
/-- The body at any point: the inputs' buffers hold their blocks, the scratch columns what the point before
    left (anything before the first point, which resets them), and the body leaves the next state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, stAt_eq m c t]
  have hb1 := hcond1 t
  have hb2 := hcond2 t
  have hb3 := hcond3 t
  by_cases hz : t.val = 0
  · have hr : isReset t.val = true := by rw [hz]; rfl
    rw [PhiS_castSucc m c t, PhiS_zero m c _ _ hz, PhiA_eq]
    by_cases hl : isLast t.val = true
    · exfalso; rw [hz] at hl; exact absurd hl (by decide)
    · have hl' : isLast t.val = false := by simpa using hl
      rw [Dat.leavesExact_idle (dats m 0 c) 4 t (idleAt4 t hl') (noFlush4 t hl')]
      iintro ⟨⟨⟨⟨%d7, HS0⟩, ⟨%d8, HS1⟩, ⟨%d9, HS2⟩⟩, Hg⟩, Ho, ⟨%d0, H0⟩, ⟨%d1, H1⟩, ⟨%d2, H2⟩, ⟨%d3, H3⟩, ⟨%d4, H4⟩⟩
      iapply (body_run c (grid0.coords t) _ _ _ _ _ _ _ _ _ _ _ _ _ _ _ _ (isReset t.val) (isHit t.val) (isLast t.val) hb1 hb2 hb3
        (iblk m c 0 t) (iblk m c 1 t) (iblk m c 2 t) (iblk m c 3 t) ((dats m 0 c).before 4 t d4) (d7, d8, d9) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      rw [hl', hr, stNext_reset _ _ _ _ _ (d7, d8, d9) (stPrev m c t)]
      simp only [Bool.false_eq_true, if_false]
      iintro ⟨H0, H1, H2, H3, H4, HS0, HS1, HS2⟩
      isplitl [HS0 HS1 HS2 Hg]
      · isplitr [Hg]
        · isplitl [HS0]; · iexact HS0
          isplitl [HS1]; · iexact HS1
          iexact HS2
        · iexact Hg
      isplitl [Ho]; · iexact Ho
      isplitl [H0]; · iexact H0
      isplitl [H1]; · iexact H1
      isplitl [H2]; · iexact H2
      isplitl [H3]; · iexact H3
      iexists _; iexact H4
  · rw [PhiS_castSucc m c t, PhiS_pos m c _ _ hz]
    have hp : stPrev m c t = stAt m c (t.val - 1) (Nat.lt_of_le_of_lt (Nat.sub_le _ _) t.isLt) := by
      unfold stPrev; rw [dif_neg hz]
    rw [hp]
    by_cases hl : isLast t.val = true
    · rw [leaves_out_last m c t hl, stAt_eq m c t, hp]
      iintro ⟨⟨⟨HS0, HS1, HS2⟩, Hg⟩, Ho, ⟨%d0, H0⟩, ⟨%d1, H1⟩, ⟨%d2, H2⟩, ⟨%d3, H3⟩, ⟨%d4, H4⟩⟩
      iapply (body_run c (grid0.coords t) _ _ _ _ _ _ _ _ _ _ _ _ _ _ _ _ (isReset t.val) (isHit t.val) (isLast t.val) hb1 hb2 hb3
        (iblk m c 0 t) (iblk m c 1 t) (iblk m c 2 t) (iblk m c 3 t) ((dats m 0 c).before 4 t d4)
        (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      rw [hl]
      simp only [if_true]
      iintro ⟨H0, H1, H2, H3, H4, HS0, HS1, HS2⟩
      isplitl [HS0 HS1 HS2 Hg]
      · isplitr [Hg]
        · isplitl [HS0]; · iexact HS0
          isplitl [HS1]; · iexact HS1
          iexact HS2
        · iexact Hg
      isplitl [Ho]; · iexact Ho
      isplitl [H0]; · iexact H0
      isplitl [H1]; · iexact H1
      isplitl [H2]; · iexact H2
      isplitl [H3]; · iexact H3
      iexact H4
    · have hl' : isLast t.val = false := by simpa using hl
      rw [Dat.leavesExact_idle (dats m 0 c) 4 t (idleAt4 t hl') (noFlush4 t hl')]
      iintro ⟨⟨⟨HS0, HS1, HS2⟩, Hg⟩, Ho, ⟨%d0, H0⟩, ⟨%d1, H1⟩, ⟨%d2, H2⟩, ⟨%d3, H3⟩, ⟨%d4, H4⟩⟩
      iapply (body_run c (grid0.coords t) _ _ _ _ _ _ _ _ _ _ _ _ _ _ _ _ (isReset t.val) (isHit t.val) (isLast t.val) hb1 hb2 hb3
        (iblk m c 0 t) (iblk m c 1 t) (iblk m c 2 t) (iblk m c 3 t) ((dats m 0 c).before 4 t d4)
        (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      rw [hl']
      simp only [Bool.false_eq_true, if_false]
      iintro ⟨H0, H1, H2, H3, H4, HS0, HS1, HS2⟩
      isplitl [HS0 HS1 HS2 Hg]
      · isplitr [Hg]
        · isplitl [HS0]; · iexact HS0
          isplitl [HS1]; · iexact HS1
          iexact HS2
        · iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 256 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨⟨HS0, HS1, HS2⟩, Hg⟩
  isplitr [Hg]
  · isplitl [HS0]; · iexists _; iexact HS0
    isplitl [HS1]; · iexists _; iexact HS1
    iexists _; iexact HS2
  · iexact Hg

/-- THE RUN: the scalar result is the host tail of the output column's array after the write-backs; the
    arguments are unchanged. -/
theorem run_main : θ_run defs (onTc (τ := τ) (main (F := F))) (s₀ m ρ) (fun r => ∀ c : Dev nD,
      r.2.mem ((c.tc : Thread nD τ).loc main_v12) = tailVal ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_main_of m ρ (dats m) (fun c => (body_obligation m c).loose) (fun _ _ => rfl) (fun _ _ => rfl) (A_eq m) (hin m) (hout m)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.LibERealSums.lean ====
/-
  Finite sums, products and running maxima of extended reals all of whose terms are real numbers.

  On the extended reals multiplication does not distribute over addition at the infinities, and a sum
  cannot be regrouped against a factor there. Every law below is therefore proved by naming the real
  numbers behind the terms, moving the coercion ℝ → EReal outside the sum or product, and doing the
  algebra in ℝ.
-/
import Mathlib.Data.EReal.Operations
import Mathlib.Algebra.BigOperators.Group.Finset.Basic
import Mathlib.Algebra.BigOperators.Ring.Finset
import Mathlib.Data.Finset.Fold
import Mathlib.Tactic.Ring

namespace Cert.ERealSums

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two real extended reals is real. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A difference of two real extended reals is real. -/
theorem exists_real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- A finite sum of real extended reals is real. -/
theorem exists_real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finset_sum]; exact Finset.sum_congr rfl (fun i _ => hg i)⟩

/-- A finite sum of products of real extended reals (an inner product of two real vectors) is real. -/
theorem exists_real_sum_mul {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) :=
  exists_real_sum s _ (fun i => exists_real_mul (hf i) (hg i))

/-- The maximum of two real extended reals is real. -/
theorem exists_real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- The running maximum, started from ⊥, of real values over a NONEMPTY finite set is real (over the empty
    set it is ⊥). -/
theorem exists_real_fold_max {ι : Type*} (s : Finset ι) (hs : s.Nonempty) (f : ι → EReal)
    (hf : ∀ i, ∃ r : ℝ, f i = (r : EReal)) : ∃ r : ℝ, s.fold max ⊥ f = (r : EReal) := by
  induction hs using Finset.Nonempty.cons_induction with
  | singleton a => rw [Finset.fold_singleton, max_bot_right]; exact hf a
  | cons a s ha hs ih => rw [Finset.fold_cons]; exact exists_real_max (hf a) ih

/-- A real factor moves out of a finite sum of products of reals: ∑ x·(w·c) = (∑ x·w)·c. (False on the
    extended reals in general: the sum on the right can be ⊤ + ⊥.) -/
theorem sum_mul_mul_eq_sum_mul_mul {ι : Type*} (s : Finset ι) (x w : ι → EReal) (c : EReal)
    (hx : ∀ i, ∃ r : ℝ, x i = (r : EReal)) (hw : ∀ i, ∃ r : ℝ, w i = (r : EReal)) (hc : ∃ r : ℝ, c = (r : EReal)) :
    ∑ i ∈ s, x i * (w i * c) = (∑ i ∈ s, x i * w i) * c := by
  choose a ha using hx
  choose b hb using hw
  obtain ⟨t, rfl⟩ := hc
  have h1 : ∀ i, x i * (w i * (t : EReal)) = ((a i * (b i * t) : ℝ) : EReal) := fun i => by
    rw [ha i, hb i, EReal.coe_mul, EReal.coe_mul]
  have h2 : ∀ i, x i * w i = ((a i * b i : ℝ) : EReal) := fun i => by rw [ha i, hb i, EReal.coe_mul]
  rw [Finset.sum_congr rfl (fun i _ => h1 i), Finset.sum_congr rfl (fun i _ => h2 i), ← coe_finset_sum,
    ← coe_finset_sum, ← EReal.coe_mul, Finset.sum_mul]
  exact congrArg _ (Finset.sum_congr rfl (fun i _ => by ring))

end Cert.ERealSums
-- ==== Proof.OnlineLse.lean ====
/- The running maximum and running sum of exponentials of a row of logits taken tile by tile, against the
   maximum and the sum taken over the whole row at once.
   A row's logits are real numbers `g 0, g 1, …`. After `n` of them the pair kept is the maximum `M n` of the
   first `n` and the sum `L n` of `exp (g j - M n)` over them. Folding in a tile of further logits replaces
   the maximum by the larger of it and the tile's, rescales the sum kept by `exp (M n - M')` and adds the tile's
   exponentials relative to the new maximum: since `exp (M n - M') * exp (g j - M n) = exp (g j - M')` over the
   reals, the pair after the tile is again of that form. The first tile starts from the pair (-∞, 0), whose
   rescaling factor is `exp (-∞) = 0`. At the end the log-sum-exp against one more logit `p` computed from the
   pair equals the one computed from the whole row's maximum and sum. -/
import Idealize.ShloMosaic.PureOps.Ideal
import proofs.«117797_j84602265797103_1_alg».proof.Proof.LibERealSums
import Mathlib.Algebra.BigOperators.Fin
import Mathlib.Data.Finset.Fold
import Mathlib.Data.Finset.Lattice.Fold
import Mathlib.Tactic.Ring

noncomputable section

namespace Cert.OnlineLse

open Idealize.ShloMosaic

/-- A tile's maximum as the kernel takes it: the fold of `max` from -∞. -/
def rowMax {T : ℕ} (a : Fin T → EReal) : EReal := (Finset.univ : Finset (Fin T)).fold max ⊥ a

/-- One tile folded into the pair (running maximum, running sum). -/
def upd {T : ℕ} (a : Fin T → EReal) (s : EReal × EReal) : EReal × EReal :=
  (max s.1 (rowMax a), Ideal.exp (s.1 - max s.1 (rowMax a)) * s.2 + ∑ k : Fin T, Ideal.exp (a k - max s.1 (rowMax a)))

/-- The maximum of the first `n` logits (of no logits: 0, never used). -/
def Minv (g : ℕ → ℝ) (n : ℕ) : ℝ := if h : 0 < n then (Finset.range n).sup' ⟨0, Finset.mem_range.2 h⟩ g else 0

/-- The sum over the first `n` logits of their exponentials relative to that maximum. -/
def Linv (g : ℕ → ℝ) (n : ℕ) : ℝ := ∑ j ∈ Finset.range n, Real.exp (g j - Minv g n)

/-- Each of the first `n` logits is at most their maximum. -/
theorem le_Minv (g : ℕ → ℝ) {n j : ℕ} (hj : j < n) : g j ≤ Minv g n := by
  have hn : 0 < n := Nat.lt_of_le_of_lt (Nat.zero_le j) hj
  unfold Minv
  rw [dif_pos hn]
  exact Finset.le_sup' g (Finset.mem_range.2 hj)

/-- The maximum of the first `n` logits is one of them. -/
theorem exists_eq_Minv (g : ℕ → ℝ) {n : ℕ} (hn : 0 < n) : ∃ j, j < n ∧ Minv g n = g j := by
  unfold Minv
  rw [dif_pos hn]
  obtain ⟨j, hj, h⟩ := Finset.exists_mem_eq_sup' (⟨0, Finset.mem_range.2 hn⟩ : (Finset.range n).Nonempty) g
  exact ⟨j, Finset.mem_range.1 hj, h⟩

/-- A bound on each of the first `n` logits bounds their maximum. -/
theorem Minv_le (g : ℕ → ℝ) {n : ℕ} (hn : 0 < n) {c : ℝ} (h : ∀ j, j < n → g j ≤ c) : Minv g n ≤ c := by
  obtain ⟨j, hj, e⟩ := exists_eq_Minv g hn
  rw [e]
  exact h j hj

/-- The larger of the maximum of the first `n` logits and the maximum of the next `T` is the maximum of
    the first `n + T`. -/
theorem max_rowMax (g : ℕ → ℝ) (n T : ℕ) (hn : 0 < n) (a : Fin T → EReal)
    (ha : ∀ k : Fin T, a k = ((g (n + k.val) : ℝ) : EReal)) :
    max ((Minv g n : ℝ) : EReal) (rowMax a) = ((Minv g (n + T) : ℝ) : EReal) := by
  have hnT : 0 < n + T := Nat.add_pos_left hn T
  apply le_antisymm
  · apply max_le
    · exact EReal.coe_le_coe_iff.2 (Minv_le g hn (fun j hj => le_Minv g (Nat.lt_add_right T hj)))
    · unfold rowMax
      rw [Finset.fold_max_le]
      refine ⟨bot_le, fun k _ => ?_⟩
      rw [ha k]
      exact EReal.coe_le_coe_iff.2 (le_Minv g (Nat.add_lt_add_left k.isLt n))
  · obtain ⟨j, hj, e⟩ := exists_eq_Minv g hnT
    rw [e]
    rcases Nat.lt_or_ge j n with h | h
    · exact le_max_of_le_left (EReal.coe_le_coe_iff.2 (le_Minv g h))
    · apply le_max_of_le_right
      unfold rowMax
      rw [Finset.le_fold_max]
      right
      have hk : j - n < T := by omega
      refine ⟨⟨j - n, hk⟩, Finset.mem_univ _, ?_⟩
      rw [ha ⟨j - n, hk⟩]
      have : n + (j - n) = j := by omega
      simp only [this, le_refl]

/-- The maximum of the first tile is the maximum of the first `T` logits. -/
theorem rowMax_first (g : ℕ → ℝ) (T : ℕ) (hT : 0 < T) (a : Fin T → EReal)
    (ha : ∀ k : Fin T, a k = ((g k.val : ℝ) : EReal)) : rowMax a = ((Minv g T : ℝ) : EReal) := by
  apply le_antisymm
  · unfold rowMax
    rw [Finset.fold_max_le]
    refine ⟨bot_le, fun k _ => ?_⟩
    rw [ha k]
    exact EReal.coe_le_coe_iff.2 (le_Minv g k.isLt)
  · obtain ⟨j, hj, e⟩ := exists_eq_Minv g hT
    rw [e]
    unfold rowMax
    rw [Finset.le_fold_max]
    right
    exact ⟨⟨j, hj⟩, Finset.mem_univ _, by rw [ha ⟨j, hj⟩]⟩

/-- Rescaling the sum of exponentials from one reference value to another, over the reals. -/
theorem rescale_sum (g : ℕ → ℝ) (n : ℕ) (m m' : ℝ) :
    Real.exp (m - m') * ∑ j ∈ Finset.range n, Real.exp (g j - m) = ∑ j ∈ Finset.range n, Real.exp (g j - m') := by
  rw [Finset.mul_sum]
  refine Finset.sum_congr rfl (fun j _ => ?_)
  rw [← Real.exp_add]
  congr 1
  ring

/-- The first tile, folded into (-∞, 0). -/
theorem upd_first (g : ℕ → ℝ) (T : ℕ) (hT : 0 < T) (a : Fin T → EReal) (ha : ∀ k : Fin T, a k = ((g k.val : ℝ) : EReal)) :
    upd a (⊥, 0) = (((Minv g T : ℝ) : EReal), ((Linv g T : ℝ) : EReal)) := by
  have hM : max (⊥ : EReal) (rowMax a) = ((Minv g T : ℝ) : EReal) := by
    rw [max_bot_left]; exact rowMax_first g T hT a ha
  have hterm : ∀ k : Fin T, Ideal.exp (a k - ((Minv g T : ℝ) : EReal)) = ((Real.exp (g k.val - Minv g T) : ℝ) : EReal) := fun k => by
    rw [ha k, ← EReal.coe_sub, Ideal.exp_coe]
  have hsum : ∑ k : Fin T, Ideal.exp (a k - ((Minv g T : ℝ) : EReal)) = ((Linv g T : ℝ) : EReal) := by
    rw [Finset.sum_congr rfl (fun k _ => hterm k), ← Cert.ERealSums.coe_finset_sum]
    congr 1
    exact Fin.sum_univ_eq_sum_range (fun j => Real.exp (g j - Minv g T)) T
  unfold upd
  simp only [hM, mul_zero, zero_add, hsum]

/-- A further tile, folded into the pair of the first `n` logits. -/
theorem upd_next (g : ℕ → ℝ) (n T : ℕ) (hn : 0 < n) (a : Fin T → EReal) (ha : ∀ k : Fin T, a k = ((g (n + k.val) : ℝ) : EReal)) :
    upd a (((Minv g n : ℝ) : EReal), ((Linv g n : ℝ) : EReal)) = (((Minv g (n + T) : ℝ) : EReal), ((Linv g (n + T) : ℝ) : EReal)) := by
  have hM := max_rowMax g n T hn a ha
  have hterm : ∀ k : Fin T, Ideal.exp (a k - ((Minv g (n + T) : ℝ) : EReal))
      = ((Real.exp (g (n + k.val) - Minv g (n + T)) : ℝ) : EReal) := fun k => by
    rw [ha k, ← EReal.coe_sub, Ideal.exp_coe]
  have hsum : ∑ k : Fin T, Ideal.exp (a k - ((Minv g (n + T) : ℝ) : EReal))
      = ((∑ k ∈ Finset.range T, Real.exp (g (n + k) - Minv g (n + T)) : ℝ) : EReal) := by
    rw [Finset.sum_congr rfl (fun k _ => hterm k), ← Cert.ERealSums.coe_finset_sum]
    congr 1
    exact Fin.sum_univ_eq_sum_range (fun j => Real.exp (g (n + j) - Minv g (n + T))) T
  have hreal : Real.exp (Minv g n - Minv g (n + T)) * Linv g n
      + ∑ k ∈ Finset.range T, Real.exp (g (n + k) - Minv g (n + T)) = Linv g (n + T) := by
    unfold Linv
    rw [rescale_sum, Finset.sum_range_add]
  unfold upd
  simp only [hM, hsum]
  rw [← EReal.coe_sub, Ideal.exp_coe, ← EReal.coe_mul, ← EReal.coe_add, hreal]

/-- The log-sum-exp of the row's logits and one more, `p`, less `p`: from the pair kept tile by tile (left),
    and from the whole row's maximum and sum (right). -/
theorem final_eq (g : ℕ → ℝ) (N : ℕ) (hN : 0 < N) (p : ℝ) :
    (max ((Minv g N : ℝ) : EReal) (p : EReal)
        + Ideal.log (Ideal.exp (((Minv g N : ℝ) : EReal) - max ((Minv g N : ℝ) : EReal) (p : EReal)) * ((Linv g N : ℝ) : EReal)
            + Ideal.exp ((p : EReal) - max ((Minv g N : ℝ) : EReal) (p : EReal)))) - (p : EReal)
      = (max (p : EReal) ((Finset.univ : Finset (Fin N)).fold max ⊥ (fun k : Fin N => ((g k.val : ℝ) : EReal)))
          + Ideal.log (Ideal.exp ((p : EReal) - max (p : EReal) ((Finset.univ : Finset (Fin N)).fold max ⊥ (fun k : Fin N => ((g k.val : ℝ) : EReal))))
              + (0 + ∑ k : Fin N, Ideal.exp (((g k.val : ℝ) : EReal) - max (p : EReal) ((Finset.univ : Finset (Fin N)).fold max ⊥ (fun k : Fin N => ((g k.val : ℝ) : EReal)))))))
        - (p : EReal) := by
  have hF : (Finset.univ : Finset (Fin N)).fold max ⊥ (fun k : Fin N => ((g k.val : ℝ) : EReal)) = ((Minv g N : ℝ) : EReal) :=
    rowMax_first g N hN (fun k : Fin N => ((g k.val : ℝ) : EReal)) (fun _ => rfl)
  have hQ : max ((Minv g N : ℝ) : EReal) (p : EReal) = ((max (Minv g N) p : ℝ) : EReal) := (EReal.coe_strictMono.monotone.map_max).symm
  rw [hF, max_comm (p : EReal) ((Minv g N : ℝ) : EReal), hQ]
  have hterm : ∀ k : Fin N, Ideal.exp (((g k.val : ℝ) : EReal) - ((max (Minv g N) p : ℝ) : EReal))
      = ((Real.exp (g k.val - max (Minv g N) p) : ℝ) : EReal) := fun k => by
    rw [← EReal.coe_sub, Ideal.exp_coe]
  have hsum : ∑ k : Fin N, Ideal.exp (((g k.val : ℝ) : EReal) - ((max (Minv g N) p : ℝ) : EReal))
      = ((∑ j ∈ Finset.range N, Real.exp (g j - max (Minv g N) p) : ℝ) : EReal) := by
    rw [Finset.sum_congr rfl (fun k _ => hterm k), ← Cert.ERealSums.coe_finset_sum]
    congr 1
    exact Fin.sum_univ_eq_sum_range (fun j => Real.exp (g j - max (Minv g N) p)) N
  have harg : Ideal.exp (((Minv g N : ℝ) : EReal) - ((max (Minv g N) p : ℝ) : EReal)) * ((Linv g N : ℝ) : EReal)
        + Ideal.exp ((p : EReal) - ((max (Minv g N) p : ℝ) : EReal))
      = Ideal.exp ((p : EReal) - ((max (Minv g N) p : ℝ) : EReal))
        + (0 + ∑ k : Fin N, Ideal.exp (((g k.val : ℝ) : EReal) - ((max (Minv g N) p : ℝ) : EReal))) := by
    have hscale : Ideal.exp (((Minv g N : ℝ) : EReal) - ((max (Minv g N) p : ℝ) : EReal)) * ((Linv g N : ℝ) : EReal)
        = ((∑ j ∈ Finset.range N, Real.exp (g j - max (Minv g N) p) : ℝ) : EReal) := by
      rw [← EReal.coe_sub, Ideal.exp_coe, ← EReal.coe_mul]
      congr 1
      unfold Linv
      exact rescale_sum g N (Minv g N) (max (Minv g N) p)
    rw [hsum, zero_add, hscale, add_comm]
  rw [harg]

end Cert.OnlineLse

end
-- ==== Proof.KIPay.lean ====
/- The body's arithmetic read row by row at the ideal instance. For row `r` of the row tile and column `k` of the
   column tile the logit is twice the inner product of the two embedding rows; it is masked to the large
   negative constant where the two labels agree. The running maximum and running sum of a row are updated by
   the tile's masked logits as one step of the tile-by-tile log-sum-exp; the positive logit is the diagonal
   entry of the partner tile; the output is the log-sum-exp of the row's masked logits and the positive
   logit, less the positive logit. -/
import proofs.«117797_j84602265797103_1_alg».proof.Proof.KIState
import proofs.«117797_j84602265797103_1_alg».proof.Proof.OnlineLse
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.OnlineLse

/-- The logit of row `r` against column `k`: the inner product of the two rows, times the inverse temperature. -/
def tileSim (x0 x1 : Vec Ideal S512x256 .bf16) (r k : Fin 512) : EReal :=
  (∑ d : Fin 256, x0 (ix2 r d) * x1 (ix2 k d)) * Ideal.ofBits .f32 0x40000000#32

/-- The masked logit: kept where the row's and the column's labels differ, else the large negative constant. -/
def tileNeg (x0 x1 : Vec Ideal S512x256 .bf16) (x2 : Vec Ideal S512x1 .i32) (x3 : Vec Ideal S1x512 .i32) (r k : Fin 512) : EReal :=
  if x2 (ix2 r (0 : Fin 1)) ≠ x3 (ix2 (0 : Fin 1) k) then tileSim x0 x1 r k else Ideal.ofBits .f32 0xF149F2CA#32

/-! ## The column forms of the layout operations, at coordinates -/

/-- A vector of length `a` cast to an `[a, 1]` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of the `[512, 512]` tile over row `r` with lane `k` put back. -/
theorem lift_row (h : S512x512.Reduces [1] S512) (r k : Fin 512) : h.lift (ix1 r) k = ix2 r k := by
  funext a
  match a with
  | ⟨0, _⟩ => exact Fin.ext rfl
  | ⟨1, _⟩ => exact Fin.ext rfl

/-! ## The tile's product at an index -/

theorem lhs_tile_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs_tile_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhs_tile_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhs_tile_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- The product of a `[512, 256]` and a `[256, 512]` operand into the zero accumulator, at `(r, k)`: the sum over the
    contracted axis of the left operand's row `r` times the right operand's column `k`. -/
theorem matmul_tile (y0 : FVec Ideal S512x256 .bf16) (y1 : FVec Ideal S256x512 .bf16) (r k : Fin 512) :
    FloatOps.matmul dot_S512x256_S256x512_S512x512_1_0_0_1_n_n none y0 y1 (constant S512x512 .f32 0x00000000#32) (ix2 r k)
      = ∑ d : Fin 256, y0 (ix2 r d) * y1 (ix2 d k) := by
  rw [Ideal.matmul_constant_zero_apply, ← Equiv.sum_comp (contrEquiv1 dot_S512x256_S256x512_S512x512_1_0_0_1_n_n 256 rfl rfl).symm]
  refine Finset.sum_congr rfl fun d _ => ?_
  have hk := contrEquiv1_symm_val dot_S512x256_S256x512_S512x512_1_0_0_1_n_n 256 rfl rfl d
  have el : dot_S512x256_S256x512_S512x512_1_0_0_1_n_n.lhsIdx (ix2 r k) ((contrEquiv1 dot_S512x256_S256x512_S512x512_1_0_0_1_n_n 256 rfl rfl).symm d) = ix2 r d := funext fun a => Fin.ext (by
    match a with
    | ⟨0, _⟩ => exact lhs_tile_0 _ _
    | ⟨1, _⟩ => exact (lhs_tile_1 _ _).trans hk)
  have er : dot_S512x256_S256x512_S512x512_1_0_0_1_n_n.rhsIdx (ix2 r k) ((contrEquiv1 dot_S512x256_S256x512_S512x512_1_0_0_1_n_n 256 rfl rfl).symm d) = ix2 d k := funext fun a => Fin.ext (by
    match a with
    | ⟨0, _⟩ => exact (rhs_tile_0 _ _).trans hk
    | ⟨1, _⟩ => exact rhs_tile_1 _ _)
  rw [el, er]

/-- The tile of logits at `(r, k)`. -/
theorem pay8_apply (x0 x1 : Vec Ideal S512x256 .bf16) (r k : Fin 512) :
    k0_pay8 x0 x1 (ix2 r k) = tileSim x0 x1 r k := by
  have e0 : shapeCast S512x256 x0 shapeCasts_S512x256_S512x256 = x0 := shapeCast_self _ _
  have e1 : shapeCast S512x256 x1 shapeCasts_S512x256_S512x256 = x1 := shapeCast_self _ _
  show FloatOps.matmul dot_S512x256_S256x512_S512x512_1_0_0_1_n_n none (shapeCast S512x256 x0 shapeCasts_S512x256_S512x256)
      (transpose S256x512 [1, 0] (shapeCast S512x256 x1 shapeCasts_S512x256_S512x256) transposes_S512x256_p1_0_S256x512)
      (constant S512x512 .f32 0x00000000#32) (ix2 r k) * Ideal.ofBits .f32 0x40000000#32 = tileSim x0 x1 r k
  rw [e0, e1, matmul_tile]
  unfold tileSim
  refine congrArg (· * Ideal.ofBits .f32 0x40000000#32) (Finset.sum_congr rfl fun d _ => ?_)
  exact congrArg (x0 (ix2 r d) * ·) (transpose_ix2_apply x1 transposes_S512x256_p1_0_S256x512 d k)

/-! ## Words: a select on a comparison of two words -/

/-- A select on "the two words differ" is the `if` on their difference. -/
theorem select_cmpi_ne {α : Type} {w : ℕ} (a b : BitVec w) (A B : α) :
    Scalar.select (IntOp.cmpi .ne a b) A B = if a ≠ b then A else B := by
  unfold Scalar.select IntOp.cmpi
  by_cases h : a = b
  · subst h; simp
  · have hb : (a != b) = true := by simpa using h
    simp [hb, h]

/-- A select on "the two words agree" is the `if` on their equality. -/
theorem select_cmpi_eq {α : Type} {w : ℕ} (a b : BitVec w) (A B : α) :
    Scalar.select (IntOp.cmpi .eq a b) A B = if a = b then A else B := by
  unfold Scalar.select IntOp.cmpi
  by_cases h : a = b
  · subst h; simp
  · have hb : (a == b) = false := by simpa using h
    simp [hb, h]

/-- Two coordinates below 512 are equal exactly when their 32-bit words are. -/
theorem ofNat32_eq_iff (r k : Fin 512) : BitVec.ofNat 32 r.val = BitVec.ofNat 32 k.val ↔ r = k := by
  constructor
  · intro h
    have e := congrArg BitVec.toNat h
    simp only [BitVec.toNat_ofNat] at e
    have hr := r.isLt
    have hk := k.isLt
    exact Fin.ext (by omega)
  · rintro rfl; rfl

/-- The pattern of the reductions' starting maximum denotes -∞. -/
theorem ofBits_negInf : Ideal.ofBits .f32 0xFF800000#32 = (⊥ : EReal) := by
  simp [Ideal.ofBits, Ideal.ieee]

/-! ## The masked tile, and a row's maximum and sum over the lanes -/

/-- The tile of masked logits at `(r, k)`. -/
theorem pay9_apply (x0 x1 : Vec Ideal S512x256 .bf16) (x2 : Vec Ideal S512x1 .i32) (x3 : Vec Ideal S1x512 .i32) (r k : Fin 512) :
    k0_pay9 x0 x1 x2 x3 (ix2 r k) = tileNeg x0 x1 x2 x3 r k := by
  have e2 : shapeCast S512x1 x2 shapeCasts_S512x1_S512x1 = x2 := shapeCast_self _ _
  have e3 : shapeCast S1x512 x3 shapeCasts_S1x512_S1x512 = x3 := shapeCast_self _ _
  show Scalar.select (IntOp.cmpi .ne (broadcastTo S512x512 (shapeCast S512x1 x2 shapeCasts_S512x1_S512x1) broadcasts_S512x1_S512x512 (ix2 r k))
        (broadcastTo S512x512 (shapeCast S1x512 x3 shapeCasts_S1x512_S1x512) broadcasts_S1x512_S512x512 (ix2 r k)))
      (k0_pay8 x0 x1 (ix2 r k)) (Ideal.ofBits .f32 0xF149F2CA#32) = tileNeg x0 x1 x2 x3 r k
  rw [e2, e3, broadcastTo_a1_ab_apply, broadcastTo_1b_ab_apply, pay8_apply, select_cmpi_ne]
  rfl

/-- A tile's maximum over the lanes, kept as a column: at row `r` the fold of `max` from -∞ over the row. -/
theorem rowMax_tile (y : FVec Ideal S512x512 .f32) (h : S512x512.Reduces [1] S512) (hφ : FKind.Formats .f32)
    (hacc : (0xFF800000#32 : BitVec 32) = FKind.maximumf.neutral .f32 hφ) (hc : S512.ShapeCasts S512x1) (r : Fin 512) (u : Fin 1) :
    shapeCast S512x1 (multiReduction .maximumf [1] S512 y 0xFF800000#32 h hφ hacc) hc (ix2 r u)
      = rowMax (fun k : Fin 512 => y (ix2 r k)) := by
  refine (shapeCast_a_a1_apply _ hc r u).trans ?_
  refine (Ideal.multiReduction_maximumf_single y _ h hφ hacc (ix1 r)).trans ?_
  have hb : FloatOps.ofBits (F := Ideal) .f32 0xFF800000#32 = (⊥ : EReal) := ofBits_negInf
  have hf : (y ∘ h.lift (ix1 r)) = fun k : Fin 512 => y (ix2 r k) := funext fun k => congrArg y (lift_row h r k)
  rw [hb, hf]
  rfl

/-- A tile's sum over the lanes, kept as a column: at row `r` the sum over the row. -/
theorem rowSum_tile (y : FVec Ideal S512x512 .f32) (h : S512x512.Reduces [1] S512) (hφ : FKind.Formats .f32)
    (hacc : (0x00000000#32 : BitVec 32) = FKind.add.neutral .f32 hφ) (hc : S512.ShapeCasts S512x1) (r : Fin 512) (u : Fin 1) :
    shapeCast S512x1 (multiReduction .add [1] S512 y 0x00000000#32 h hφ hacc) hc (ix2 r u)
      = ∑ k : Fin 512, y (ix2 r k) := by
  refine (shapeCast_a_a1_apply _ hc r u).trans ?_
  refine (Ideal.multiReduction_add_single y _ h hφ hacc (ix1 r)).trans ?_
  exact Finset.sum_congr rfl fun k _ => congrArg y (lift_row h r k)

/-- The new running maximum of row `r`: the larger of the one kept and the tile's. -/
theorem pay10_apply (x0 x1 : Vec Ideal S512x256 .bf16) (x2 : Vec Ideal S512x1 .i32) (x3 : Vec Ideal S1x512 .i32)
    (m : Vec Ideal S512x1 .f32) (r : Fin 512) (u : Fin 1) :
    k0_pay10 x0 x1 x2 x3 m (ix2 r u) = max (m (ix2 r u)) (rowMax (fun k : Fin 512 => tileNeg x0 x1 x2 x3 r k)) := by
  show max (m (ix2 r u)) (shapeCast S512x1 (multiReduction .maximumf [1] S512 (k0_pay9 x0 x1 x2 x3) 0xFF800000#32
      reduces_S512x512_S512 (.inl rfl) rfl) shapeCasts_S512_S512x1 (ix2 r u)) = _
  exact (congrArg (fun t : EReal => max (m (ix2 r u)) t) (rowMax_tile (k0_pay9 x0 x1 x2 x3) _ _ _ _ r u)).trans
    (congrArg (fun a : Fin 512 → EReal => max (m (ix2 r u)) (rowMax a)) (funext fun k => pay9_apply x0 x1 x2 x3 r k))

/-- The new running sum of row `r`: the one kept rescaled to the new maximum, plus the tile's exponentials
    relative to the new maximum. -/
theorem pay11_apply (x0 x1 : Vec Ideal S512x256 .bf16) (x2 : Vec Ideal S512x1 .i32) (x3 : Vec Ideal S1x512 .i32)
    (m l : Vec Ideal S512x1 .f32) (r : Fin 512) :
    k0_pay11 x0 x1 x2 x3 m m l (ix2 r (0 : Fin 1))
      = Ideal.exp (m (ix2 r (0 : Fin 1)) - k0_pay10 x0 x1 x2 x3 m (ix2 r (0 : Fin 1))) * l (ix2 r (0 : Fin 1))
        + ∑ k : Fin 512, Ideal.exp (tileNeg x0 x1 x2 x3 r k - k0_pay10 x0 x1 x2 x3 m (ix2 r (0 : Fin 1))) := by
  show Ideal.exp (m (ix2 r (0 : Fin 1)) - k0_pay10 x0 x1 x2 x3 m (ix2 r (0 : Fin 1))) * l (ix2 r (0 : Fin 1))
      + shapeCast S512x1 (multiReduction .add [1] S512
          (exp (subf (k0_pay9 x0 x1 x2 x3) (broadcastTo S512x512 (k0_pay10 x0 x1 x2 x3 m) broadcasts_S512x1_S512x512)))
          0x00000000#32 reduces_S512x512_S512 (.inl rfl) rfl) shapeCasts_S512_S512x1 (ix2 r (0 : Fin 1)) = _
  refine (congrArg (fun t : EReal => Ideal.exp (m (ix2 r (0 : Fin 1)) - k0_pay10 x0 x1 x2 x3 m (ix2 r (0 : Fin 1))) * l (ix2 r (0 : Fin 1)) + t)
    (rowSum_tile (exp (subf (k0_pay9 x0 x1 x2 x3) (broadcastTo S512x512 (k0_pay10 x0 x1 x2 x3 m) broadcasts_S512x1_S512x512)))
      _ _ _ _ r (0 : Fin 1))).trans ?_
  refine congrArg (fun t : EReal => Ideal.exp (m (ix2 r (0 : Fin 1)) - k0_pay10 x0 x1 x2 x3 m (ix2 r (0 : Fin 1))) * l (ix2 r (0 : Fin 1)) + t)
    (Finset.sum_congr rfl fun k _ => ?_)
  show Ideal.exp (k0_pay9 x0 x1 x2 x3 (ix2 r k)
      - broadcastTo S512x512 (k0_pay10 x0 x1 x2 x3 m) broadcasts_S512x1_S512x512 (ix2 r k)) = _
  rw [broadcastTo_a1_ab_apply, pay9_apply]

/-! ## The columns a reset point starts from -/

theorem pay5_apply (i : S512x1.Idx) : k0_pay5 (F := Ideal) i = (⊥ : EReal) := by
  show shapeCast S512x1 (broadcast S512x1 (Ideal.ofBits .f32 0xFF800000#32)) shapeCasts_S512x1_S512x1 i = ⊥
  rw [shapeCast_self]
  exact ofBits_negInf

theorem pay6_apply (i : S512x1.Idx) : k0_pay6 (F := Ideal) i = (0 : EReal) := by
  show shapeCast S512x1 (broadcast S512x1 (Ideal.ofBits .f32 0x00000000#32)) shapeCasts_S512x1_S512x1 i = 0
  rw [shapeCast_self]
  exact Ideal.ofBits_zero_f32

theorem pay7_apply (i : S512x1.Idx) : k0_pay7 (F := Ideal) i = (0 : EReal) := by
  show shapeCast S512x1 (broadcast S512x1 (Ideal.ofBits .f32 0x00000000#32)) shapeCasts_S512x1_S512x1 i = 0
  rw [shapeCast_self]
  exact Ideal.ofBits_zero_f32

/-! ## The diagonal of a tile, kept as a column -/

/-- The tile masked to its diagonal and summed over the lanes: at row `r` the diagonal entry. -/
theorem pay3_apply (y : FVec Ideal S512x512 .f32) (r : Fin 512) (u : Fin 1) : k0_pay3 y (ix2 r u) = y (ix2 r r) := by
  show shapeCast S512x1 (shapeCast S512x1 (multiReduction .add [1] S512
      (select (cmpi .eq (iota .tc S512x512 32 [0] iota_S512x512_d0_w32) (iota .tc S512x512 32 [1] iota_S512x512_d1_w32)) y
        (broadcast S512x512 (Ideal.ofBits .f32 0x00000000#32)))
      0x00000000#32 reduces_S512x512_S512 (.inl rfl) rfl) shapeCasts_S512_S512x1) shapeCasts_S512x1_S512x1 (ix2 r u) = _
  refine (congrFun (shapeCast_self _ _) (ix2 r u)).trans ?_
  refine (rowSum_tile _ _ _ _ _ r u).trans ?_
  have hterm : ∀ k : Fin 512,
      select (cmpi .eq (iota .tc S512x512 32 [0] iota_S512x512_d0_w32) (iota .tc S512x512 32 [1] iota_S512x512_d1_w32)) y
        (broadcast S512x512 (Ideal.ofBits .f32 0x00000000#32)) (ix2 r k) = if r = k then y (ix2 r k) else 0 := fun k => by
    show Scalar.select (IntOp.cmpi .eq (iota .tc S512x512 32 [0] iota_S512x512_d0_w32 (ix2 r k))
        (iota .tc S512x512 32 [1] iota_S512x512_d1_w32 (ix2 r k))) (y (ix2 r k)) (Ideal.ofBits .f32 0x00000000#32) = _
    rw [iota_single_apply, iota_single_apply, select_cmpi_eq, Ideal.ofBits_zero_f32]
    exact if_congr (ofNat32_eq_iff r k) rfl rfl
  rw [Finset.sum_congr rfl fun k _ => hterm k, Finset.sum_ite_eq]
  simp

/-- Row `r`'s running maximum and sum after a point: one tile-by-tile step on the tile's masked logits, from
    (-∞, 0) at a reset point and from what the point before left otherwise. -/
theorem stNext_ML (x0 x1 : Vec Ideal S512x256 .bf16) (x2 : Vec Ideal S512x1 .i32) (x3 : Vec Ideal S1x512 .i32) (reset hit : Bool)
    (s : St Ideal) (r : Fin 512) :
    ((stNext x0 x1 x2 x3 reset hit s).1 (ix2 r (0 : Fin 1)), (stNext x0 x1 x2 x3 reset hit s).2.1 (ix2 r (0 : Fin 1)))
      = upd (fun k : Fin 512 => tileNeg x0 x1 x2 x3 r k)
          (if reset then ((⊥ : EReal), (0 : EReal)) else (s.1 (ix2 r (0 : Fin 1)), s.2.1 (ix2 r (0 : Fin 1)))) := by
  have hM : (stNext x0 x1 x2 x3 reset hit s).1
      = k0_pay10 x0 x1 x2 x3 (if reset then k0_pay5 (F := Ideal) else s.1) :=
    shapeCast_self (k0_pay10 x0 x1 x2 x3 (if reset then k0_pay5 (F := Ideal) else s.1)) shapeCasts_S512x1_S512x1
  have hL : (stNext x0 x1 x2 x3 reset hit s).2.1
      = k0_pay11 x0 x1 x2 x3 (if reset then k0_pay5 (F := Ideal) else s.1) (if reset then k0_pay5 (F := Ideal) else s.1)
          (if reset then k0_pay6 (F := Ideal) else s.2.1) :=
    shapeCast_self (k0_pay11 x0 x1 x2 x3 (if reset then k0_pay5 (F := Ideal) else s.1) (if reset then k0_pay5 (F := Ideal) else s.1)
      (if reset then k0_pay6 (F := Ideal) else s.2.1)) shapeCasts_S512x1_S512x1
  rw [hM, hL, pay11_apply, pay10_apply]
  unfold upd
  cases reset
  · rfl
  · simp only [if_true, pay5_apply, pay6_apply]

/-- Row `r`'s positive logit after a point: the tile's diagonal entry at the partner tile, else what it was
    (zero after a reset). -/
theorem stNext_P (x0 x1 : Vec Ideal S512x256 .bf16) (x2 : Vec Ideal S512x1 .i32) (x3 : Vec Ideal S1x512 .i32) (reset hit : Bool)
    (s : St Ideal) (r : Fin 512) :
    (stNext x0 x1 x2 x3 reset hit s).2.2 (ix2 r (0 : Fin 1))
      = if hit then tileSim x0 x1 r r else (if reset then (0 : EReal) else s.2.2 (ix2 r (0 : Fin 1))) := by
  have hP : (stNext x0 x1 x2 x3 reset hit s).2.2
      = if hit then k0_pay3 (k0_pay8 x0 x1) else (if reset then k0_pay7 (F := Ideal) else s.2.2) := rfl
  rw [hP]
  cases hit
  · cases reset
    · rfl
    · simp only [Bool.false_eq_true, if_false, if_true, pay7_apply]
  · simp only [if_true, pay3_apply, pay8_apply]

/-- Row `r`'s output: the log-sum-exp from the pair kept and the positive logit, less the positive logit. -/
theorem outOf_apply (s : St Ideal) (r : Fin 512) :
    outOf s (ix2 r (0 : Fin 1))
      = (max (s.1 (ix2 r (0 : Fin 1))) (s.2.2 (ix2 r (0 : Fin 1)))
          + Ideal.log (Ideal.exp (s.1 (ix2 r (0 : Fin 1)) - max (s.1 (ix2 r (0 : Fin 1))) (s.2.2 (ix2 r (0 : Fin 1)))) * s.2.1 (ix2 r (0 : Fin 1))
              + Ideal.exp (s.2.2 (ix2 r (0 : Fin 1)) - max (s.1 (ix2 r (0 : Fin 1))) (s.2.2 (ix2 r (0 : Fin 1))))))
        - s.2.2 (ix2 r (0 : Fin 1)) := by
  rfl

end Cert.KernelIdeal.Hand

end
-- ==== Proof.KIBlocks.lean ====
/- The windows' blocks read at an index of their arrays. Point `t` is at row tile `t / 16` and column tile
   `t % 16`; the row windows' blocks are the 512 rows of the row tile, the column windows' blocks those of the
   column tile. -/
import proofs.«117797_j84602265797103_1_alg».proof.Proof.KIState
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The printed index maps over the grid: the row windows' block index is the row tile on axis 0, the column
    windows' the column tile (on axis 0 for the embeddings, on axis 1 for the label row); the other axis is 0. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

variable (m : (ℓ : Loc nD τ sig) → Buf (Elt F) ℓ)

/- A block read at an index of the block is the array read at the block's embedded index, whose coordinate on
   each axis is the block index times the block's size plus the coordinate inside the block. -/

theorem xb0_apply (c : Dev nD) (t : Fin cfg0.N) (r : Fin 512) (d : Fin 256) :
    xb0 m c t (ix2 r d) = V m c main_v7 (ix2 (⟨512 * (t.val / 16) + r.val, by have := t.isLt; have hN : cfg0.N = 256 := N_0; omega⟩ : Fin 8192) d) := by
  show V m c main_v7 (((cfg0.win 0).blk t).view.emb (ix2 r d)) = _
  congr 1
  obtain ⟨e0, e1, -⟩ := idx_facts t
  funext a; apply Fin.ext
  match a with
  | ⟨0, _⟩ => show win0_0.index t (0 : Fin 2) * 512 + 1 * r.val = 512 * (t.val / 16) + r.val; omega
  | ⟨1, _⟩ => show win0_0.index t (1 : Fin 2) * 256 + 1 * d.val = d.val; omega

theorem xb1_apply (c : Dev nD) (t : Fin cfg0.N) (r : Fin 512) (d : Fin 256) :
    xb1 m c t (ix2 r d) = V m c main_v7 (ix2 (⟨512 * (t.val % 16) + r.val, by omega⟩ : Fin 8192) d) := by
  show V m c main_v7 (((cfg0.win 1).blk t).view.emb (ix2 r d)) = _
  congr 1
  obtain ⟨-, -, e0, e1, -⟩ := idx_facts t
  funext a; apply Fin.ext
  match a with
  | ⟨0, _⟩ => show win0_1.index t (0 : Fin 2) * 512 + 1 * r.val = 512 * (t.val % 16) + r.val; omega
  | ⟨1, _⟩ => show win0_1.index t (1 : Fin 2) * 256 + 1 * d.val = d.val; omega

theorem xb2_apply (c : Dev nD) (t : Fin cfg0.N) (r : Fin 512) :
    xb2 m c t (ix2 r (0 : Fin 1)) = V m c main_v8 (ix2 (⟨512 * (t.val / 16) + r.val, by have := t.isLt; have hN : cfg0.N = 256 := N_0; omega⟩ : Fin 8192) (0 : Fin 1)) := by
  show V m c main_v8 (((cfg0.win 2).blk t).view.emb (ix2 r (0 : Fin 1))) = _
  congr 1
  obtain ⟨-, -, -, -, e0, e1, -⟩ := idx_facts t
  funext a; apply Fin.ext
  match a with
  | ⟨0, _⟩ => show win0_2.index t (0 : Fin 2) * 512 + 1 * r.val = 512 * (t.val / 16) + r.val; omega
  | ⟨1, _⟩ => show win0_2.index t (1 : Fin 2) * 1 + 1 * (0 : Fin 1).val = (0 : Fin 1).val; omega

theorem xb3_apply (c : Dev nD) (t : Fin cfg0.N) (k : Fin 512) :
    xb3 m c t (ix2 (0 : Fin 1) k) = V m c main_v9 (ix2 (0 : Fin 1) (⟨512 * (t.val % 16) + k.val, by omega⟩ : Fin 8192)) := by
  show V m c main_v9 (((cfg0.win 3).blk t).view.emb (ix2 (0 : Fin 1) k)) = _
  congr 1
  obtain ⟨-, -, -, -, -, -, e0, e1⟩ := idx_facts t
  funext a; apply Fin.ext
  match a with
  | ⟨0, _⟩ => show win0_3.index t (0 : Fin 2) * 1 + 1 * (0 : Fin 1).val = (0 : Fin 1).val; omega
  | ⟨1, _⟩ => show win0_3.index t (1 : Fin 2) * 512 + 1 * k.val = 512 * (t.val % 16) + k.val; omega

end Cert.KernelIdeal.Hand

end
-- ==== Proof.KICover.lean ====
/- The output column's array after all the write-backs. The output column is written back once per row tile, at
   its last column tile, so row `i` of the array ends at what the point `16 * (i / 512) + 15` wrote at row
   `i % 512` of the block. -/
import proofs.«117797_j84602265797103_1_alg».proof.Proof.KIFrame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The state after a point depends on the point's number only. -/
theorem stAt_congr (c : Dev nD) {n n' : ℕ} (h : n = n') (hn : n < cfg0.N) (hn' : n' < cfg0.N) :
    stAt m c n hn = stAt m c n' hn' := by
  subst h; rfl

/-- The output window's printed index map over the grid: its block index is the row tile on axis 0, and 0 on
    axis 1. -/
theorem idx_facts4 : ∀ t : Fin cfg0.N, win0_4.index t (0 : Fin 2) = t.val / 16 ∧ win0_4.index t (1 : Fin 2) = 0 :=
  (by decide +kernel : ∀ t : Fin grid0.N, _)

/-- What the output column's array ends holding: row `i` is row `i % 512` of what the last point of row tile
    `i / 512` wrote. -/
def Gout (c : Dev nD) : S8192x1.Idx → Elt F .f32 := fun idx =>
  outOf (stAt m c (16 * ((idx 0).val / 512) + 15) (by have hN : cfg0.N = 256 := N_0; have hi : (idx 0).val < 8192 := (idx 0).isLt; omega))
    (ix2 (⟨(idx 0).val % 512, Nat.mod_lt _ (by decide)⟩ : Fin 512) (0 : Fin 1))

/-- What a point at the last column tile writes back is its block of `Gout`: the block index of the output
    window at point `t` is `t / 16`, so the rows of the block are those whose last point is `t`. -/
theorem flushed4_eq (c : Dev nD) (t : Fin cfg0.N) (hf : (cfg0.win 4).flush t = true) :
    (dats m 0 c).flushed 4 t = ((cfg0.win 4).blk t).view.read (Elt F) (Gout m c) := by
  show (cfg0.win 4).cut (grid0.coords t) ((dats m 0 c).after 4 t) = _
  rw [after4]
  have h15 : t.val % 16 = 15 := (flush0_4 t).mp hf
  obtain ⟨e0, e1⟩ := idx_facts4 t
  funext j
  show outOf (stAt m c t.val t.isLt) j = Gout m c (((cfg0.win 4).blk t).view.emb j)
  have hj0 : (j 0).val < 512 := (j 0).isLt
  have hv : ((((cfg0.win 4).blk t).view.emb j) 0).val = win0_4.index t (0 : Fin 2) * 512 + 1 * (j 0).val := rfl
  unfold Gout
  have hq : 16 * (((((cfg0.win 4).blk t).view.emb j) 0).val / 512) + 15 = t.val := by rw [hv]; omega
  have hr : ((((cfg0.win 4).blk t).view.emb j) 0).val % 512 = (j 0).val := by rw [hv]; omega
  rw [stAt_congr m c hq _ t.isLt]
  congr 1
  funext a; apply Fin.ext
  match a with
  | ⟨0, _⟩ => exact hr.symm
  | ⟨1, _⟩ => show (j 1).val = 0; have : (j 1).val < 1 := (j 1).isLt; omega

/-- An index of the array is in point `t`'s block iff each coordinate is in the block's range on its axis. -/
theorem mem_blk4 (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v10).slice (win0_4.rect t)).set ↔ _
  rw [View.set_slice_whole, Rect.mem_set_unit]
  exact Iff.rfl

/-- Every row is in the block written back at the last point of its row tile. -/
theorem cover4 (i : S8192x1.Idx) :
    ∃ t : Fin cfg0.N, (cfg0.win 4).flush t = true ∧ i ∈ ((cfg0.win 4).blk t).view.set := by
  have hN : cfg0.N = 256 := N_0
  have hi0 : (i 0).val < 8192 := (i 0).isLt
  have hi1 : (i 1).val < 1 := (i 1).isLt
  obtain ⟨t, ht⟩ : ∃ t : Fin cfg0.N, t.val = 16 * ((i 0).val / 512) + 15 := ⟨⟨16 * ((i 0).val / 512) + 15, by omega⟩, rfl⟩
  obtain ⟨e0, e1⟩ := idx_facts4 t
  refine ⟨t, (flush0_4 t).mpr (by omega), ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1 ≤ (i 1).val ∧ (i 1).val < win0_4.index t (1 : Fin 2) * 1 + 1; omega

/-- The output column's array after the run. -/
theorem arrAt4_eq (c : Dev nD) : (dats m 0 c).arrAt 4 cfg0.N = Gout m c :=
  (dats m 0 c).arrAt_eq_of_cover 4 (Gout m c) (fun t hf => flushed4_eq m c t hf) cover4

/-- The output column's array after the run, row by row. -/
theorem out_apply (c : Dev nD) (i : Fin 8192) :
    (dats m 0 c).arrAt 4 cfg0.N (ix2 i (0 : Fin 1))
      = outOf (stAt m c (16 * (i.val / 512) + 15) (by have hN : cfg0.N = 256 := N_0; omega)) (ix2 (⟨i.val % 512, Nat.mod_lt _ (by decide)⟩ : Fin 512) (0 : Fin 1)) := by
  rw [arrAt4_eq]
  rfl

end Cert.KernelIdeal.Hand

end
-- ==== Proof.RefGen.lean ====
/- The reference program's run and its stages read one operation at a time, gathered for the modules that
   reason about the reference's value. -/
import proofs.«117797_j84602265797103_1_alg».proof.Proof.Gen.ReferenceIdeal.Run
import proofs.«117797_j84602265797103_1_alg».proof.Proof.Gen.ReferenceIdeal.Read
-- ==== Proof.KIHost.lean ====
/- What the host operations before the region leave in the three arrays the kernel reads: the normalised
   embeddings (each row of the two embedding arrays laid end to end, divided by the larger of its norm and the
   small constant; the change of float format is the identity on extended reals) and the labels laid end to
   end with themselves, as a column and as a row. They are the same functions of the arguments as the
   reference program's stages of the same operations. -/
import proofs.«117797_j84602265797103_1_alg».proof.Proof.KIState
import proofs.«117797_j84602265797103_1_alg».proof.Proof.RefGen
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt Ideal) ℓ)

/-- The whole array of normalised embeddings, as the host operations leave it: the thirteen operations from
    the two embedding arguments to the change of float format, composed. They are the reference program's
    operations up to its quotient, followed by the change of format. -/
theorem V_zn_whole (c : Dev nD) :
    (V m c main_v7 : (⟨2, ![8192, 256]⟩ : Shape).Idx → EReal)
      = truncf (F := Ideal) .bf16
          (Cert.ReferenceIdeal.Read.val_main_v6 (F := Ideal) (m ((c.tc : Thread nD τ).loc main_arg0)) (m ((c.tc : Thread nD τ).loc main_arg1)))
          bitsLt_bf16_f32 := by
  dsimp only [V, V0]
  simp only [hostOps0, hostOps0_1, hostOps0_2, List.flatten_cons, List.flatten_nil, List.append_nil, List.cons_append,
    List.nil_append]
  after_results
  rfl

/-- The array the two embedding windows read holds the normalised embeddings. -/
theorem V_zn (c : Dev nD) (idx : (⟨2, ![8192, 256]⟩ : Shape).Idx) :
    (V m c main_v7 idx : EReal)
      = Cert.ReferenceIdeal.Read.val_main_v6 (F := Ideal) (m ((c.tc : Thread nD τ).loc main_arg0)) (m ((c.tc : Thread nD τ).loc main_arg1)) idx :=
  -- on extended reals the change of float format returns its operand
  congrFun (V_zn_whole m c) idx

/-- The label column, whole: the labels laid end to end with themselves, recast from a vector of 8192 to
    8192 rows of one. -/
theorem V_labc_whole (c : Dev nD) :
    (V m c main_v8 : (⟨2, ![8192, 1]⟩ : Shape).Idx → BitVec 32)
      = fun j => shapeCast S8192x1
          (Cert.ReferenceIdeal.Read.val_main_v1 (F := Ideal) (m ((c.tc : Thread nD τ).loc main_arg2))) shapeCasts_S8192_S8192x1 j := by
  dsimp only [V, V0]
  simp only [hostOps0, hostOps0_1, hostOps0_2, List.flatten_cons, List.flatten_nil, List.append_nil, List.cons_append,
    List.nil_append]
  after_results
  rfl

/-- The label column holds, at row `i`, the label of row `i`. -/
theorem V_labc (c : Dev nD) (i : Fin 8192) :
    V m c main_v8 (ix2 i (0 : Fin 1)) = Cert.ReferenceIdeal.Read.val_main_v1 (F := Ideal) (m ((c.tc : Thread nD τ).loc main_arg2)) (ix1 i) := by
  refine (congrFun (V_labc_whole m c) (ix2 i (0 : Fin 1))).trans ?_
  -- row `i`, column 0 of 8192 rows of one is position `i * 1 + 0 = i` in row-major order
  exact shapeCast_apply _ shapeCasts_S8192_S8192x1 _ (ix1 i) (by
    rw [Shape.rowMajor_val_two, Shape.rowMajor_val_one]
    show i.val = i.val * 1 + 0
    omega)

/-- The label row, whole: the same vector recast to one row of 8192. -/
theorem V_labr_whole (c : Dev nD) :
    (V m c main_v9 : (⟨2, ![1, 8192]⟩ : Shape).Idx → BitVec 32)
      = fun k => shapeCast S1x8192
          (Cert.ReferenceIdeal.Read.val_main_v1 (F := Ideal) (m ((c.tc : Thread nD τ).loc main_arg2))) shapeCasts_S8192_S1x8192 k := by
  dsimp only [V, V0]
  simp only [hostOps0, hostOps0_1, hostOps0_2, List.flatten_cons, List.flatten_nil, List.append_nil, List.cons_append,
    List.nil_append]
  after_results
  rfl

/-- The label row holds, at column `j`, the label of row `j`. -/
theorem V_labr (c : Dev nD) (j : Fin 8192) :
    V m c main_v9 (ix2 (0 : Fin 1) j) = Cert.ReferenceIdeal.Read.val_main_v1 (F := Ideal) (m ((c.tc : Thread nD τ).loc main_arg2)) (ix1 j) := by
  refine (congrFun (V_labr_whole m c) (ix2 (0 : Fin 1) j)).trans ?_
  -- a leading axis of one adds nothing to the row-major position
  exact shapeCast_a_1a_apply _ shapeCasts_S8192_S1x8192 (0 : Fin 1) j

end Cert.KernelIdeal.Hand

end
-- ==== Proof.LossSpec.lean ====
/- The loss, row by row, as functions of the normalised embeddings and the labels.
   For row `i` the logit against row `j` is twice the inner product of the two embedding rows; it is masked to
   the large negative constant where the labels agree. The positive logit of row `i` is its logit against the
   row half the batch away. A row's loss is the log-sum-exp of its masked logits and its positive logit, less
   the positive logit; the loss is the mean of the rows' losses. -/
import Idealize.ShloMosaic.PureOps.Ideal
import Idealize.ShloMosaic.Lib.ValueIdx

noncomputable section

namespace Cert.LossSpec

open Idealize.ShloMosaic Idealize.ShloMosaic.ValueIdx

/-- The logit of row `i` against row `j`. -/
def simE (zn : (⟨2, ![8192, 256]⟩ : Shape).Idx → EReal) (i j : Fin 8192) : EReal :=
  (∑ d : Fin 256, zn (ix2 i d) * zn (ix2 j d)) * Ideal.ofBits .f32 0x40000000#32

/-- The masked logit. -/
def negE (zn : (⟨2, ![8192, 256]⟩ : Shape).Idx → EReal) (lab : Fin 8192 → BitVec 32) (i j : Fin 8192) : EReal :=
  if lab i ≠ lab j then simE zn i j else Ideal.ofBits .f32 0xF149F2CA#32

/-- The row half the batch away. -/
def partner (i : Fin 8192) : Fin 8192 := ⟨(i.val + 4096) % 8192, Nat.mod_lt _ (by decide)⟩

/-- A row's loss from the whole row at once: maximum first, then the sum relative to it. -/
def rowRef (zn : (⟨2, ![8192, 256]⟩ : Shape).Idx → EReal) (lab : Fin 8192 → BitVec 32) (i : Fin 8192) : EReal :=
  (max (simE zn i (partner i)) ((Finset.univ : Finset (Fin 8192)).fold max ⊥ (fun j : Fin 8192 => negE zn lab i j))
      + Ideal.log (Ideal.exp (simE zn i (partner i) - max (simE zn i (partner i)) ((Finset.univ : Finset (Fin 8192)).fold max ⊥ (fun j : Fin 8192 => negE zn lab i j)))
          + (0 + ∑ j : Fin 8192, Ideal.exp (negE zn lab i j - max (simE zn i (partner i)) ((Finset.univ : Finset (Fin 8192)).fold max ⊥ (fun j : Fin 8192 => negE zn lab i j))))))
    - simE zn i (partner i)

/-- A row's loss from the pair (maximum, sum relative to it) of its masked logits and its positive logit. -/
def rowKer (M L p : EReal) : EReal :=
  (max M p + Ideal.log (Ideal.exp (M - max M p) * L + Ideal.exp (p - max M p))) - p

/-- The mean of the rows' losses. -/
def lossOf (row : Fin 8192 → EReal) : EReal :=
  Ideal.div (0 + ∑ i : Fin 8192, row i) (Ideal.ofBits .f32 0x46000000#32)

end Cert.LossSpec

end
-- ==== Proof.KIValue.lean ====
/- The value of the kernel program at the ideal instance: the scalar result is the mean of the rows' losses.
   Row by row the scratch columns are followed through the row tile's sixteen points: after the point at
   column tile `b` the first two hold the maximum of the row's first `512 (b + 1)` masked logits and the sum of
   their exponentials relative to it, and the third holds the positive logit once the partner tile is passed.
   All the logits are real numbers because the normalised embeddings are. At the last column tile the output
   is the row's loss, by the tile-by-tile law of the log-sum-exp. -/
import proofs.«117797_j84602265797103_1_alg».proof.Proof.KIFrame
import proofs.«117797_j84602265797103_1_alg».proof.Proof.KIPay
import proofs.«117797_j84602265797103_1_alg».proof.Proof.KIBlocks
import proofs.«117797_j84602265797103_1_alg».proof.Proof.KICover
import proofs.«117797_j84602265797103_1_alg».proof.Proof.KIHost
import proofs.«117797_j84602265797103_1_alg».proof.Proof.OnlineLse
import proofs.«117797_j84602265797103_1_alg».proof.Proof.LossSpec
import proofs.«117797_j84602265797103_1_alg».proof.Proof.LibERealSums
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.OnlineLse Cert.LossSpec Cert.ERealSums

variable (m : (ℓ : Loc nD τ sig) → Buf (Elt Ideal) ℓ) (c : Dev nD)

/-- The normalised embeddings, as a function of the two embedding arrays. -/
abbrev znOf : (⟨2, ![8192, 256]⟩ : Shape).Idx → EReal :=
  Cert.ReferenceIdeal.Read.val_main_v6 (F := Ideal) (m ((c.tc : Thread nD τ).loc main_arg0)) (m ((c.tc : Thread nD τ).loc main_arg1))
/-- The labels of all rows. -/
abbrev labOf (i : Fin 8192) : BitVec 32 :=
  Cert.ReferenceIdeal.Read.val_main_v1 (F := Ideal) (m ((c.tc : Thread nD τ).loc main_arg2)) (ix1 i)

/-- The row of the arrays that row `r` of point `t`'s row tile is, and the row that column `k` of its column tile is. -/
def rowIx (t : Fin cfg0.N) (r : Fin 512) : Fin 8192 := ⟨512 * (t.val / 16) + r.val, by have := t.isLt; have hN : cfg0.N = 256 := N_0; omega⟩
def colIx (t : Fin cfg0.N) (k : Fin 512) : Fin 8192 := ⟨512 * (t.val % 16) + k.val, by omega⟩

theorem tileSim_eq (t : Fin cfg0.N) (r k : Fin 512) :
    tileSim (xb0 m c t) (xb1 m c t) r k = simE (znOf m c) (rowIx t r) (colIx t k) := by
  have h : ∀ d : Fin 256, xb0 m c t (ix2 r d) * xb1 m c t (ix2 k d)
      = znOf m c (ix2 (rowIx t r) d) * znOf m c (ix2 (colIx t k) d) := fun d => by
    rw [xb0_apply, xb1_apply, V_zn, V_zn]; rfl
  unfold tileSim simE
  rw [Finset.sum_congr rfl (fun d _ => h d)]

theorem tileNeg_eq (t : Fin cfg0.N) (r k : Fin 512) :
    tileNeg (xb0 m c t) (xb1 m c t) (xb2 m c t) (xb3 m c t) r k = negE (znOf m c) (labOf m c) (rowIx t r) (colIx t k) := by
  have h2 : xb2 m c t (ix2 r (0 : Fin 1)) = labOf m c (rowIx t r) := (xb2_apply m c t r).trans (V_labc m c _)
  have h3 : xb3 m c t (ix2 (0 : Fin 1) k) = labOf m c (colIx t k) := (xb3_apply m c t k).trans (V_labr m c _)
  unfold tileNeg negE
  rw [h2, h3, tileSim_eq]

/-! ## The logits are real numbers -/

theorem two_real : ∃ r : ℝ, Ideal.ofBits .f32 0x40000000#32 = (r : EReal) := by
  refine ⟨2, ?_⟩; simp [Ideal.ofBits, Ideal.ieee]
  rw [← EReal.coe_mul]; exact congrArg _ (by norm_num)
theorem negBig_real : ∃ r : ℝ, Ideal.ofBits .f32 0xF149F2CA#32 = (r : EReal) := by
  refine ⟨-(13234890 * 2 ^ 76), ?_⟩; simp [Ideal.ofBits, Ideal.ieee]

variable (hz : ∀ idx, ∃ r : ℝ, znOf m c idx = (r : EReal))
include hz

theorem simE_real (i j : Fin 8192) : ∃ r : ℝ, simE (znOf m c) i j = (r : EReal) :=
  exists_real_mul (exists_real_sum_mul _ _ _ (fun d => hz _) (fun d => hz _)) two_real

theorem negE_real (i j : Fin 8192) : ∃ r : ℝ, negE (znOf m c) (labOf m c) i j = (r : EReal) := by
  unfold negE; split
  · exact simE_real m c hz i j
  · exact negBig_real

omit hz in
/-- Row `i`'s masked logits as real numbers, by column. -/
def gOf (i : Fin 8192) (j : ℕ) : ℝ := if h : j < 8192 then (negE (znOf m c) (labOf m c) i ⟨j, h⟩).toReal else 0
omit hz in
/-- Row `i`'s positive logit as a real number. -/
def pOf (i : Fin 8192) : ℝ := (simE (znOf m c) i (partner i)).toReal

theorem negE_eq (i j : Fin 8192) : negE (znOf m c) (labOf m c) i j = ((gOf m c i j.val : ℝ) : EReal) := by
  obtain ⟨r, hr⟩ := negE_real m c hz i j
  unfold gOf; rw [dif_pos j.isLt, show (⟨j.val, j.isLt⟩ : Fin 8192) = j from rfl, hr, EReal.toReal_coe]

theorem pos_eq (i : Fin 8192) : simE (znOf m c) i (partner i) = ((pOf m c i : ℝ) : EReal) := by
  obtain ⟨r, hr⟩ := simE_real m c hz i (partner i)
  unfold pOf; rw [hr, EReal.toReal_coe]

/-! ## The scratch columns, point by point -/

omit hz in
/-- The column tile that is row tile `b`'s partner. -/
def ptile (b : ℕ) : ℕ := if b < 8 then b + 8 else b - 8

omit hz in
theorem isHit_iff (n : ℕ) : isHit n = true ↔ n % 16 = ptile (n / 16) := by
  unfold ptile; simp [isHit]
omit hz in
theorem isHit_false_iff (n : ℕ) : isHit n = false ↔ n % 16 ≠ ptile (n / 16) := by
  rw [ne_eq, ← isHit_iff]; cases isHit n <;> simp
omit hz in
theorem ptile_cases (b : ℕ) : (b < 8 ∧ ptile b = b + 8) ∨ (8 ≤ b ∧ ptile b = b - 8) := by
  unfold ptile; split <;> omega

omit hz in
theorem rowIx_val (t : Fin cfg0.N) (r : Fin 512) : (rowIx t r).val = 512 * (t.val / 16) + r.val := rfl
omit hz in
theorem colIx_val (t : Fin cfg0.N) (k : Fin 512) : (colIx t k).val = 512 * (t.val % 16) + k.val := rfl
omit hz in
theorem partner_val (i : Fin 8192) : (partner i).val = (i.val + 4096) % 8192 := rfl

/-- A tile's masked logits are the row's real logits at the tile's columns. -/
theorem tile_logits (t : Fin cfg0.N) (r k : Fin 512) (n₀ : ℕ) (h₀ : n₀ = 512 * (t.val % 16)) :
    tileNeg (xb0 m c t) (xb1 m c t) (xb2 m c t) (xb3 m c t) r k = ((gOf m c (rowIx t r) (n₀ + k.val) : ℝ) : EReal) := by
  rw [tileNeg_eq, negE_eq m c hz]
  congr 2
  rw [colIx_val, h₀]

/-- After point `n`: the pair of the row's first `512 (n % 16 + 1)` logits, and the positive logit once the
    partner tile is passed. -/
theorem inv : ∀ (n : ℕ) (hn : n < cfg0.N) (r : Fin 512),
    ((stAt m c n hn).1 (ix2 r (0 : Fin 1)), (stAt m c n hn).2.1 (ix2 r (0 : Fin 1)))
        = (((Minv (gOf m c (rowIx ⟨n, hn⟩ r)) (512 * (n % 16 + 1)) : ℝ) : EReal),
           ((Linv (gOf m c (rowIx ⟨n, hn⟩ r)) (512 * (n % 16 + 1)) : ℝ) : EReal))
      ∧ (stAt m c n hn).2.2 (ix2 r (0 : Fin 1))
          = if ptile (n / 16) ≤ n % 16 then simE (znOf m c) (rowIx ⟨n, hn⟩ r) (partner (rowIx ⟨n, hn⟩ r)) else 0 := by
  intro n
  induction n with
  | zero =>
    intro hn r
    rw [stAt_zero]
    constructor
    · rw [stNext_ML, if_pos rfl]
      exact upd_first (gOf m c (rowIx ⟨0, hn⟩ r)) 512 (by decide) _
        (fun k => by rw [tile_logits m c hz ⟨0, hn⟩ r k 0 (by simp), Nat.zero_add])
    · rw [stNext_P]
      have h1 : isHit 0 = false := by decide
      have h2 : ¬ ptile (0 / 16) ≤ 0 % 16 := by decide
      rw [h1, if_neg h2]; simp
  | succ n ih =>
    intro hn r
    have hN : cfg0.N = 256 := N_0
    have hn' : n < cfg0.N := Nat.lt_of_succ_lt hn
    obtain ⟨ih1, ih2⟩ := ih hn' r
    rw [stAt_succ]
    by_cases hr : (n + 1) % 16 = 0
    · have hreset : isReset (n + 1) = true := by simp [isReset, hr]
      rw [hreset]
      constructor
      · rw [stNext_ML, if_pos rfl]
        have h := upd_first (gOf m c (rowIx ⟨n + 1, hn⟩ r)) 512 (by decide)
          (fun k : Fin 512 => tileNeg (xb0 m c ⟨n + 1, hn⟩) (xb1 m c ⟨n + 1, hn⟩) (xb2 m c ⟨n + 1, hn⟩) (xb3 m c ⟨n + 1, hn⟩) r k)
          (fun k => by rw [tile_logits m c hz ⟨n + 1, hn⟩ r k 0 (by simp [hr]), Nat.zero_add])
        rw [h, hr]
      · rw [stNext_P]
        by_cases hh : isHit (n + 1) = true
        · rw [hh, if_pos rfl]
          have hq := (isHit_iff (n + 1)).mp hh
          have hp : ptile ((n + 1) / 16) ≤ (n + 1) % 16 := by omega
          rw [if_pos hp, tileSim_eq]
          congr 1
          apply Fin.ext
          rw [colIx_val, partner_val, rowIx_val]
          rcases ptile_cases ((n + 1) / 16) with ⟨hb, hpt⟩ | ⟨hb, hpt⟩ <;> (simp only; omega)
        · have hh' : isHit (n + 1) = false := by simpa using hh
          rw [hh']
          have hq := (isHit_false_iff (n + 1)).mp hh'
          have hp : ¬ ptile ((n + 1) / 16) ≤ (n + 1) % 16 := by omega
          rw [if_neg hp]; simp
    · have hreset : isReset (n + 1) = false := by simp [isReset, hr]
      have hmod : (n + 1) % 16 = n % 16 + 1 := by omega
      have hdiv : (n + 1) / 16 = n / 16 := by omega
      have hrow : rowIx ⟨n + 1, hn⟩ r = rowIx ⟨n, hn'⟩ r := by
        apply Fin.ext; rw [rowIx_val, rowIx_val]; simp only [hdiv]
      rw [hreset]
      constructor
      · rw [stNext_ML]
        simp only [Bool.false_eq_true, if_false]
        rw [ih1]
        have h := upd_next (gOf m c (rowIx ⟨n, hn'⟩ r)) (512 * (n % 16 + 1)) 512 (by omega)
          (fun k : Fin 512 => tileNeg (xb0 m c ⟨n + 1, hn⟩) (xb1 m c ⟨n + 1, hn⟩) (xb2 m c ⟨n + 1, hn⟩) (xb3 m c ⟨n + 1, hn⟩) r k)
          (fun k => by rw [tile_logits m c hz ⟨n + 1, hn⟩ r k (512 * (n % 16 + 1)) (by simp only [hmod]), hrow])
        rw [h, hrow, hmod]
        have e : 512 * (n % 16 + 1) + 512 = 512 * (n % 16 + 1 + 1) := by ring
        rw [e]
      · rw [stNext_P]
        simp only [Bool.false_eq_true, if_false]
        by_cases hh : isHit (n + 1) = true
        · rw [hh, if_pos rfl]
          have hq := (isHit_iff (n + 1)).mp hh
          have hp : ptile ((n + 1) / 16) ≤ (n + 1) % 16 := by omega
          rw [if_pos hp, tileSim_eq]
          congr 1
          apply Fin.ext
          rw [colIx_val, partner_val, rowIx_val]
          rcases ptile_cases ((n + 1) / 16) with ⟨hb, hpt⟩ | ⟨hb, hpt⟩ <;> (simp only; omega)
        · have hh' : isHit (n + 1) = false := by simpa using hh
          rw [hh']
          simp only [Bool.false_eq_true, if_false]
          rw [ih2, hrow]
          have hne := (isHit_false_iff (n + 1)).mp hh'
          have hiff : (ptile ((n + 1) / 16) ≤ (n + 1) % 16) ↔ (ptile (n / 16) ≤ n % 16) := by
            rw [hdiv] at hne ⊢; omega
          by_cases hq : ptile (n / 16) ≤ n % 16
          · rw [if_pos hq, if_pos (hiff.mpr hq)]
          · rw [if_neg hq, if_neg (fun h => hq (hiff.mp h))]

/-! ## The output column and the scalar result -/

/-- Row `i` of the output column's array after the run is the row's loss. -/
theorem row_value (i : Fin 8192) :
    (dats m 0 c).arrAt 4 cfg0.N (ix2 i (0 : Fin 1)) = rowRef (znOf m c) (labOf m c) i := by
  have hN : cfg0.N = 256 := N_0
  rw [out_apply, outOf_apply]
  have hlt : 16 * (i.val / 512) + 15 < cfg0.N := by have := i.isLt; omega
  obtain ⟨h1, h2⟩ := inv m c hz (16 * (i.val / 512) + 15) hlt ⟨i.val % 512, Nat.mod_lt _ (by decide)⟩
  have hrow : rowIx ⟨16 * (i.val / 512) + 15, hlt⟩ ⟨i.val % 512, Nat.mod_lt _ (by decide)⟩ = i := by
    apply Fin.ext; rw [rowIx_val]; simp only; omega
  have hmodv : (16 * (i.val / 512) + 15) % 16 = 15 := by omega
  have hdivv : (16 * (i.val / 512) + 15) / 16 = i.val / 512 := by omega
  have hp : ptile ((16 * (i.val / 512) + 15) / 16) ≤ (16 * (i.val / 512) + 15) % 16 := by
    rw [hmodv, hdivv]; have := i.isLt; rcases ptile_cases (i.val / 512) with ⟨hb, hpt⟩ | ⟨hb, hpt⟩ <;> omega
  rw [if_pos hp, hrow] at h2
  rw [hrow, hmodv] at h1
  have e1 := congrArg Prod.fst h1
  have e2 := congrArg Prod.snd h1
  simp only at e1 e2
  rw [e1, e2, h2, pos_eq m c hz i]
  have hfin := final_eq (gOf m c i) 8192 (by decide) (pOf m c i)
  rw [show (512 * (15 + 1) : ℕ) = 8192 from rfl]
  rw [hfin]
  unfold rowRef
  simp only [negE_eq m c hz i, pos_eq m c hz i]

end Cert.KernelIdeal.Hand

end
-- ==== Proof.KITail.lean ====
/- The host operations after the region, read at the ideal instance: the sum of the output column over all
   its entries from the initial value zero, divided by the row count, is the mean of the rows' values. -/
import proofs.«117797_j84602265797103_1_alg».proof.Proof.KILaunch
import proofs.«117797_j84602265797103_1_alg».proof.Proof.LossSpec
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.LossSpec

/-- The host tail of a column whose row `i` holds `row i` is the mean of the rows. -/
theorem tailVal_eq (x : (⟨S8192x1, .f32⟩ : BufTy).Contents (Elt Ideal)) (row : Fin 8192 → EReal)
    (h : ∀ i : Fin 8192, (x (ix2 i (0 : Fin 1)) : EReal) = row i) :
    tailVal (F := Ideal) x = fun _ => lossOf row := by
  funext j
  unfold tailVal Host.divf Host.reduceAdd lossOf
  rw [Ideal.hostDivf_def, Ideal.hostReduceAdd_def, Ideal.hostReduceAdd_total _ (fun b => b.elim0), constant_apply, constant_apply,
    Ideal.ofBits_zero_f32, sum_idx2]
  -- the column has one entry per row: the inner sum is that entry
  have hs : (∑ a : Fin 8192, ∑ b : Fin 1, (x (ix2 a b) : EReal)) = ∑ i : Fin 8192, row i :=
    Finset.sum_congr rfl fun i _ => by rw [Fin.sum_univ_one]; exact h i
  rw [hs]

end Cert.KernelIdeal.Hand

end
-- ==== Proof.RefVal.lean ====
/- The reference program's result as the mean of the rows' losses, each row's loss taken from the whole row at once.
   The program's stages are read one operation at a time: the logits are the inner products of the normalised
   embedding rows divided by the temperature one half, which is their double; the two diagonals half the batch
   off the main one, laid end to end, are each row's logit against the row half the batch away; the mask compares
   the labels; the row maximum is a fold from -∞; the sums are plain sums. -/
import proofs.«117797_j84602265797103_1_alg».proof.Proof.RefGen
import proofs.«117797_j84602265797103_1_alg».proof.Proof.LossSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.RefValue

open Cert.ReferenceIdeal Cert.ReferenceIdeal.Gen Cert.ReferenceIdeal.Read Cert.LossSpec
open Idealize.ShloMosaic Idealize.ShloMosaic.TcCoe Idealize.ShloMosaic.ValueIdx Idealize.ShloMosaic.StableHlo

/-- The labels of all rows: the label array laid end to end with itself. -/
def labOf (x2 : (⟨S4096, .i32⟩ : BufTy).Contents (Elt Ideal)) (i : Fin 8192) : BitVec 32 :=
  Read.val_main_v1 (F := Ideal) x2 (ix1 i)

/-! ## The literal words -/

/-- The word of -∞. -/
theorem ofBits_neg_inf : Ideal.ofBits .f32 0xFF800000#32 = ⊥ := by simp [Ideal.ofBits, Ideal.ieee]

/-- The word of one half. -/
theorem ofBits_half : Ideal.ofBits .f32 0x3F000000#32 = ((1 / 2 : ℝ) : EReal) := by
  simp [Ideal.ofBits, Ideal.ieee, -EReal.coe_mul]; norm_num

/-- The word of two. -/
theorem ofBits_two : Ideal.ofBits .f32 0x40000000#32 = ((2 : ℝ) : EReal) := by
  simp [Ideal.ofBits, Ideal.ieee, -EReal.coe_mul]; norm_num

/-- Dividing by one half doubles. -/
theorem div_half (x : EReal) : Ideal.div x (Ideal.ofBits .f32 0x3F000000#32) = x * Ideal.ofBits .f32 0x40000000#32 := by
  rw [ofBits_half, ofBits_two, Ideal.div_coe (by norm_num)]
  congr 2; norm_num

/-! ## Index words: a count below 2³¹ as a 32-bit word -/

/-- Read signed, the word of a small count is the count. -/
theorem word_toNat (n : Nat) (h : n < 2 ^ 31) : (BitVec.ofNat 32 n).toInt.toNat = n := by
  rw [Predicate.toInt_ofNat_small n h]; rfl

/-- The word of a small count is not below zero. -/
theorem word_slt_zero (n : Nat) (h : n < 2 ^ 31) : IntOp.cmpi .slt (BitVec.ofNat 32 n) 0#32 = 0#1 := by
  apply eq_zero_of_ne_one
  rw [Predicate.slt_iff_toNat (by simp only [BitVec.toNat_ofNat]; omega) (by decide)]
  simp

/-- Words add as counts do. -/
theorem word_add (m n : Nat) : IntOp.addi (BitVec.ofNat 32 m) (BitVec.ofNat 32 n) = BitVec.ofNat 32 (m + n) :=
  (BitVec.ofNat_add m n).symm

/-- An index word that is not negative is kept by the select that would wrap a negative one around. -/
theorem word_select (n : Nat) (h : n < 2 ^ 31) (a : BitVec 32) :
    Scalar.select (IntOp.cmpi .slt (BitVec.ofNat 32 n) 0#32) a (BitVec.ofNat 32 n) = BitVec.ofNat 32 n := by
  rw [word_slt_zero n h, select_zero]

/-! ## Shape operations read at coordinates -/

section Shapes
variable {α : Type}

/-- The two-coordinate gather reads the operand at the two start words of row j, each read signed and clamped. -/
theorem gather_pair_apply (x : S8192x8192.Idx → α) (idx : IVec S4096x2 32) (j : Fin 4096) :
    Host.gather gather_S8192x8192_S4096x2_S4096_n_01_n_n_01_1_11 x idx (ix1 j)
      = x (ix2 (⟨min (idx (ix2 j 0)).toInt.toNat 8191, by omega⟩ : Fin 8192) (⟨min (idx (ix2 j 1)).toInt.toNat 8191, by omega⟩ : Fin 8192)) := by
  unfold Host.gather
  congr 1
  funext a
  refine Fin.ext ?_
  have hb : ∀ a : Fin S8192x8192.rank, gather_S8192x8192_S4096x2_S4096_n_01_n_n_01_1_11.batchCoord (ix1 j) a = 0 := fun a =>
    GatherDims.batchCoord_eq_zero _ _ _ List.not_mem_nil
  match a with
  | ⟨0, _⟩ =>
    show gather_S8192x8192_S4096x2_S4096_n_01_n_n_01_1_11.start (ix1 j) idx 0 + gather_S8192x8192_S4096x2_S4096_n_01_n_n_01_1_11.batchCoord (ix1 j) 0
      + gather_S8192x8192_S4096x2_S4096_n_01_n_n_01_1_11.offCoord (ix1 j) 0 = _
    rw [hb, GatherDims.offCoord_eq_zero _ _ _ (fun h => ((GatherDims.mem_sKept _ _).mp h).1 (by decide))]
    simp only [Nat.add_zero]
    unfold GatherDims.start
    rw [dif_pos (show (0 : Fin 2) ∈ gather_S8192x8192_S4096x2_S4096_n_01_n_n_01_1_11.startIndexMap by decide)]
    have hsi : gather_S8192x8192_S4096x2_S4096_n_01_n_n_01_1_11.siIdx (ix1 j)
        ⟨List.idxOf (0 : Fin 2) gather_S8192x8192_S4096x2_S4096_n_01_n_n_01_1_11.startIndexMap,
          List.idxOf_lt_length_iff.2 (by decide)⟩ = ix2 j 0 := by
      funext b; refine Fin.ext ?_
      match b with
      | ⟨0, _⟩ => rfl
      | ⟨1, _⟩ => rfl
    rw [hsi]
    rfl
  | ⟨1, _⟩ =>
    show gather_S8192x8192_S4096x2_S4096_n_01_n_n_01_1_11.start (ix1 j) idx 1 + gather_S8192x8192_S4096x2_S4096_n_01_n_n_01_1_11.batchCoord (ix1 j) 1
      + gather_S8192x8192_S4096x2_S4096_n_01_n_n_01_1_11.offCoord (ix1 j) 1 = _
    rw [hb, GatherDims.offCoord_eq_zero _ _ _ (fun h => ((GatherDims.mem_sKept _ _).mp h).1 (by decide))]
    simp only [Nat.add_zero]
    unfold GatherDims.start
    rw [dif_pos (show (1 : Fin 2) ∈ gather_S8192x8192_S4096x2_S4096_n_01_n_n_01_1_11.startIndexMap by decide)]
    have hsi : gather_S8192x8192_S4096x2_S4096_n_01_n_n_01_1_11.siIdx (ix1 j)
        ⟨List.idxOf (1 : Fin 2) gather_S8192x8192_S4096x2_S4096_n_01_n_n_01_1_11.startIndexMap,
          List.idxOf_lt_length_iff.2 (by decide)⟩ = ix2 j 1 := by
      funext b; refine Fin.ext ?_
      match b with
      | ⟨0, _⟩ => rfl
      | ⟨1, _⟩ => rfl
    rw [hsi]
    rfl

/-- Two length-4096 arrays laid end to end, read in the first half. -/
theorem concat_lo (a b : S4096.Idx → α) (i : Fin 8192) (h : i.val < 4096) :
    concatenate S8192 0 [⟨S4096, a⟩, ⟨S4096, b⟩] concatenates_S4096_S4096_S8192_d0 (ix1 i) = a (ix1 (⟨i.val, h⟩ : Fin 4096)) :=
  concatenate_pair_apply_left 0 a b concatenates_S4096_S4096_S8192_d0 (ix1 i) rfl (ix1 (⟨i.val, h⟩ : Fin 4096))
    (fun c => match c with | ⟨0, _⟩ => rfl)

/-- Two length-4096 arrays laid end to end, read in the second half. -/
theorem concat_hi (a b : S4096.Idx → α) (i : Fin 8192) (h : 4096 ≤ i.val) :
    concatenate S8192 0 [⟨S4096, a⟩, ⟨S4096, b⟩] concatenates_S4096_S4096_S8192_d0 (ix1 i)
      = b (ix1 (⟨i.val - 4096, by omega⟩ : Fin 4096)) :=
  concatenate_pair_apply_right 0 a b concatenates_S4096_S4096_S8192_d0 (ix1 i) rfl rfl (ix1 (⟨i.val - 4096, by omega⟩ : Fin 4096))
    (fun c => match c with | ⟨0, _⟩ => fun hc => absurd rfl hc)
    (by show i.val - 4096 + 4096 = i.val; omega)

/-- Two one-column arrays laid side by side, read in the first column. -/
theorem concat_col0 (a b : S4096x1.Idx → α) (i : Fin 4096) :
    concatenate S4096x2 1 [⟨S4096x1, a⟩, ⟨S4096x1, b⟩] concatenates_S4096x1_S4096x1_S4096x2_d1 (ix2 i 0) = a (ix2 i 0) :=
  concatenate_pair_apply_left 1 a b concatenates_S4096x1_S4096x1_S4096x2_d1 (ix2 i 0) rfl (ix2 i 0)
    (fun c => match c with | ⟨0, _⟩ => rfl | ⟨1, _⟩ => rfl)

/-- Two one-column arrays laid side by side, read in the second column. -/
theorem concat_col1 (a b : S4096x1.Idx → α) (i : Fin 4096) :
    concatenate S4096x2 1 [⟨S4096x1, a⟩, ⟨S4096x1, b⟩] concatenates_S4096x1_S4096x1_S4096x2_d1 (ix2 i 1) = b (ix2 i 0) :=
  concatenate_pair_apply_right 1 a b concatenates_S4096x1_S4096x1_S4096x2_d1 (ix2 i 1) rfl rfl (ix2 i 0)
    (fun c => match c with | ⟨0, _⟩ => fun _ => rfl | ⟨1, _⟩ => fun hc => absurd rfl hc)
    rfl

/-- The two-coordinate gather with its two clamped start words named. -/
theorem gather_pair_at (x : S8192x8192.Idx → α) (idx : IVec S4096x2 32) (j : Fin 4096) (r c : Fin 8192)
    (hr : min (idx (ix2 j 0)).toInt.toNat 8191 = r.val) (hc : min (idx (ix2 j 1)).toInt.toNat 8191 = c.val) :
    Host.gather gather_S8192x8192_S4096x2_S4096_n_01_n_n_01_1_11 x idx (ix1 j) = x (ix2 r c) :=
  (gather_pair_apply x idx j).trans (congrArg₂ (fun a b : Fin 8192 => x (ix2 a b)) (Fin.ext hr) (Fin.ext hc))

end Shapes

/-! ## Folds and sums over a row -/

/-- The column index put back into a row index. -/
theorem lift_row (h : S8192x8192.Reduces [1] S8192) (i : Fin 8192) (k : Fin (S8192x8192.size 1)) :
    h.lift (ix1 i) k = ix2 i (⟨k.val, k.isLt⟩ : Fin 8192) := by
  funext c; apply Fin.ext
  match c with
  | ⟨0, _⟩ => rfl
  | ⟨1, _⟩ => rfl

/-- The maximum-reduce along a row from -∞ is the fold of max over the row's columns from ⊥. -/
theorem rowmax_apply (x : S8192x8192.Idx → EReal) (init : S_.Idx → EReal) (hi : init (Shape.Idx.first h_S_) = (⊥ : EReal)) (i : Fin 8192) :
    Host.reduce (FloatOps.maximumf (F := Ideal) (φ := .f32)) x init reducesTo_S8192x8192_S8192_d1 h_S_ (ix1 i)
      = (Finset.univ : Finset (Fin 8192)).fold max ⊥ (fun k : Fin 8192 => x (ix2 i k)) := by
  have h : S8192x8192.Reduces [1] S8192 := by decide
  refine (Host.reduce_eq_fold_single (FloatOps.maximumf (F := Ideal) (φ := .f32)) x init reducesTo_S8192x8192_S8192_d1 h h_S_ (ix1 i)).trans ?_
  have hf : (x ∘ h.lift (ix1 i)) = fun k : Fin 8192 => x (ix2 i k) := funext fun k => congrArg x (lift_row h i k)
  rw [hi]
  exact congrArg (fun f => Finset.fold max (⊥ : EReal) f (Finset.univ : Finset (Fin 8192))) hf

/-- A sum over the rank-1 index set is the sum over its coordinate. -/
def idxEquiv1 {n : Nat} : (⟨1, ![n]⟩ : Shape).Idx ≃ Fin n where
  toFun j := j 0
  invFun i := ix1 i
  left_inv j := (eq_ix1 j).symm
  right_inv i := rfl

theorem sum_idx1 {n : Nat} (f : (⟨1, ![n]⟩ : Shape).Idx → EReal) : ∑ j : (⟨1, ![n]⟩ : Shape).Idx, f j = ∑ i : Fin n, f (ix1 i) :=
  (Equiv.sum_comp idxEquiv1.symm f).symm

/-! ## The program's stages at coordinates -/

section Stages
variable (x0 x1 : (⟨S4096x256, .f32⟩ : BufTy).Contents (Elt Ideal)) (x2 : (⟨S4096, .i32⟩ : BufTy).Contents (Elt Ideal))

/-- The logit of row i against row j: the inner product of the two normalised rows, divided by one half. -/
theorem sim_apply (i j : Fin 8192) :
    Read.val_main_v10 (F := Ideal) x0 x1 (ix2 i j) = simE (Read.val_main_v6 (F := Ideal) x0 x1) i j := by
  rw [Read.val_main_v10_apply, Read.val_main_v9_apply, Read.val_main_cst_0_apply, Read.val_main_v8_apply]
  simp only [Read.val_main_v7_apply]
  generalize Read.val_main_v6 (F := Ideal) x0 x1 = zn
  rw [Ideal.hostDivf_def, Ideal.ofBits_def, div_half]
  unfold simE
  refine congrArg (· * _) (Finset.sum_congr rfl fun k _ => ?_)
  have el : Read.lidx_main_v8 (ix2 i j) k = ix2 i k :=
    funext fun a => Fin.ext (by match a with | ⟨0, _⟩ => rfl | ⟨1, _⟩ => rfl)
  have er : Read.idx_main_v7 (Read.ridx_main_v8 (ix2 i j) k) = ix2 j k :=
    funext fun a => Fin.ext (by match a with | ⟨0, _⟩ => rfl | ⟨1, _⟩ => rfl)
  rw [el, er]

/-- The label broadcast along the rows is the row's label. -/
theorem lab_row (i j : Fin 8192) : Read.val_main_v16 (F := Ideal) x2 (ix2 i j) = labOf x2 i := by
  rw [Read.val_main_v16_apply, Read.val_main_v14_apply]
  unfold labOf
  exact congrArg (Read.val_main_v1 (F := Ideal) x2) (funext fun a => Fin.ext (by match a with | ⟨0, _⟩ => rfl))

/-- The label broadcast along the columns is the column's label. -/
theorem lab_col (i j : Fin 8192) : Read.val_main_v17 (F := Ideal) x2 (ix2 i j) = labOf x2 j := by
  rw [Read.val_main_v17_apply, Read.val_main_v15_apply]
  unfold labOf
  exact congrArg (Read.val_main_v1 (F := Ideal) x2) (funext fun a => Fin.ext (by match a with | ⟨0, _⟩ => rfl))

/-- The mask is set exactly where the two labels differ. -/
theorem mask_apply (i j : Fin 8192) : Read.val_main_v18 (F := Ideal) x2 (ix2 i j) = 1#1 ↔ labOf x2 i ≠ labOf x2 j := by
  rw [Read.val_main_v18_apply, lab_row, lab_col]
  generalize labOf x2 i = a
  generalize labOf x2 j = b
  simp only [IntOp.cmpi, Predicate.ofBool_eq_one_iff, bne_iff_ne]

/-- The masked logit. -/
theorem neg_apply (i j : Fin 8192) :
    Read.val_main_v19 (F := Ideal) x0 x1 x2 (ix2 i j) = negE (Read.val_main_v6 (F := Ideal) x0 x1) (labOf x2) i j := by
  rw [Read.val_main_v19_apply, Read.val_main_call3_v1_apply, Read.val_main_call3_v0_apply, Read.val_main_cst_1_apply,
    sim_apply, Ideal.ofBits_def]
  by_cases h : labOf x2 i ≠ labOf x2 j
  · rw [(mask_apply x2 i j).2 h, select_one, negE, if_pos h]
  · rw [eq_zero_of_ne_one (fun h1 => h ((mask_apply x2 i j).1 h1)), select_zero, negE, if_neg h]

/-- The upper diagonal's start words at row n: row n … -/
theorem diag1_row (n : Nat) (h : n < 4096) :
    Read.val_main_call1_v16 (F := Ideal) (ix2 (⟨n, h⟩ : Fin 4096) 0) = BitVec.ofNat 32 n := by
  unfold Read.val_main_call1_v16
  rw [concat_col0, Read.val_main_call1_v14_apply, Read.val_main_call1_v8_apply, Read.val_main_call1_v5_apply,
    Read.val_main_call1_v0_apply, Read.val_main_call1_v4_apply, Read.val_main_call1_c_0_apply]
  exact word_select n (by omega) _

/-- … and column n + 4096. -/
theorem diag1_col (n : Nat) (h : n < 4096) :
    Read.val_main_call1_v16 (F := Ideal) (ix2 (⟨n, h⟩ : Fin 4096) 1) = BitVec.ofNat 32 (4096 + n) := by
  unfold Read.val_main_call1_v16
  rw [concat_col1, Read.val_main_call1_v15_apply, Read.val_main_call1_v13_apply, Read.val_main_call1_v10_apply,
    Read.val_main_call1_v3_apply, Read.val_main_call1_v2_apply, Read.val_main_call1_c_apply, Read.val_main_call1_v1_apply,
    Read.val_main_call1_v9_apply, Read.val_main_call1_c_2_apply]
  show Scalar.select (IntOp.cmpi .slt (IntOp.addi (BitVec.ofNat 32 4096) (BitVec.ofNat 32 n)) 0#32) _
    (IntOp.addi (BitVec.ofNat 32 4096) (BitVec.ofNat 32 n)) = _
  rw [word_add]
  exact word_select _ (by omega) _

/-- The lower diagonal's start words at row n: row n + 4096 … -/
theorem diag2_row (n : Nat) (h : n < 4096) :
    Read.val_main_call2_v16 (F := Ideal) (ix2 (⟨n, h⟩ : Fin 4096) 0) = BitVec.ofNat 32 (4096 + n) := by
  unfold Read.val_main_call2_v16
  rw [concat_col0, Read.val_main_call2_v14_apply, Read.val_main_call2_v8_apply, Read.val_main_call2_v5_apply,
    Read.val_main_call2_v3_apply, Read.val_main_call2_v2_apply, Read.val_main_call2_c_apply, Read.val_main_call2_v1_apply,
    Read.val_main_call2_v4_apply, Read.val_main_call2_c_0_apply]
  show Scalar.select (IntOp.cmpi .slt (IntOp.addi (BitVec.ofNat 32 4096) (BitVec.ofNat 32 n)) 0#32) _
    (IntOp.addi (BitVec.ofNat 32 4096) (BitVec.ofNat 32 n)) = _
  rw [word_add]
  exact word_select _ (by omega) _

/-- … and column n. -/
theorem diag2_col (n : Nat) (h : n < 4096) :
    Read.val_main_call2_v16 (F := Ideal) (ix2 (⟨n, h⟩ : Fin 4096) 1) = BitVec.ofNat 32 n := by
  unfold Read.val_main_call2_v16
  rw [concat_col1, Read.val_main_call2_v15_apply, Read.val_main_call2_v13_apply, Read.val_main_call2_v10_apply,
    Read.val_main_call2_v0_apply, Read.val_main_call2_v9_apply, Read.val_main_call2_c_2_apply]
  exact word_select n (by omega) _

/-- The two diagonals laid end to end: each row's logit against the row half the batch away. -/
theorem pos_apply (i : Fin 8192) :
    Read.val_main_v13 (F := Ideal) x0 x1 (ix1 i) = simE (Read.val_main_v6 (F := Ideal) x0 x1) i (partner i) := by
  have hi := i.isLt
  unfold Read.val_main_v13
  by_cases h : i.val < 4096
  · rw [concat_lo _ _ i h]
    unfold Read.val_main_v11
    refine (gather_pair_at _ _ (⟨i.val, h⟩ : Fin 4096) i (partner i) ?_ ?_).trans (sim_apply x0 x1 i (partner i))
    · rw [diag1_row, word_toNat _ (by omega)]; omega
    · rw [diag1_col, word_toNat _ (by omega)]
      show min (4096 + i.val) 8191 = (i.val + 4096) % 8192
      omega
  · rw [concat_hi _ _ i (by omega)]
    unfold Read.val_main_v12
    refine (gather_pair_at _ _ (⟨i.val - 4096, by omega⟩ : Fin 4096) i (partner i) ?_ ?_).trans (sim_apply x0 x1 i (partner i))
    · rw [diag2_row, word_toNat _ (by omega)]; omega
    · rw [diag2_col, word_toNat _ (by omega)]
      show min (i.val - 4096) 8191 = (i.val + 4096) % 8192
      omega

/-- The row maximum of the masked logits. -/
theorem rowmax (i : Fin 8192) :
    Read.val_main_v20 (F := Ideal) x0 x1 x2 (ix1 i)
      = (Finset.univ : Finset (Fin 8192)).fold max ⊥
          (fun j : Fin 8192 => negE (Read.val_main_v6 (F := Ideal) x0 x1) (labOf x2) i j) := by
  unfold Read.val_main_v20
  refine (rowmax_apply _ _ ((Read.val_main_cst_2_apply (F := Ideal) _).trans ofBits_neg_inf) i).trans ?_
  exact congrArg (fun f => Finset.fold max (⊥ : EReal) f (Finset.univ : Finset (Fin 8192)))
    (funext fun j => neg_apply x0 x1 x2 i j)

/-- The larger of the positive logit and the row maximum. -/
theorem top_apply (i : Fin 8192) :
    Read.val_main_v21 (F := Ideal) x0 x1 x2 (ix1 i)
      = max (simE (Read.val_main_v6 (F := Ideal) x0 x1) i (partner i))
          ((Finset.univ : Finset (Fin 8192)).fold max ⊥
            (fun j : Fin 8192 => negE (Read.val_main_v6 (F := Ideal) x0 x1) (labOf x2) i j)) := by
  rw [Read.val_main_v21_apply, pos_apply, rowmax, Ideal.maximumf_def]

/-- A row's loss. -/
theorem row_apply (i : Fin 8192) :
    Read.val_main_v32 (F := Ideal) x0 x1 x2 (ix1 i) = rowRef (Read.val_main_v6 (F := Ideal) x0 x1) (labOf x2) i := by
  have e1 : ∀ k : Fin 8192, Read.idx_main_v28 (ix1 i) k = ix2 i k := fun k =>
    funext fun a => Fin.ext (by match a with | ⟨0, _⟩ => rfl | ⟨1, _⟩ => rfl)
  have e2 : ∀ k : Fin 8192, Read.idx_main_v24 (Read.idx_main_v25 (ix2 i k)) = ix1 i := fun k =>
    funext fun a => Fin.ext (by match a with | ⟨0, _⟩ => rfl)
  rw [Read.val_main_v32_apply, Read.val_main_v31_apply, Read.val_main_v30_apply, Read.val_main_v29_apply,
    Read.val_main_v23_apply, Read.val_main_v22_apply, Read.val_main_v28_apply, Read.val_main_cst_3_apply]
  simp only [Read.val_main_v27_apply, Read.val_main_v26_apply, Read.val_main_v25_apply, Read.val_main_v24_apply, e1, e2,
    neg_apply, top_apply, pos_apply]
  simp only [Ideal.subf_def, Ideal.addf_def, Ideal.hostUnary_exp_def, Ideal.hostUnary_log_def, Ideal.ofBits_def,
    Ideal.ofBits_zero_f32]
  rfl

end Stages

/-- THE REFERENCE'S VALUE: the mean over the rows of the row losses, over the normalised embeddings (the
    program's stage `val_main_v6`) and the labels. -/
theorem ref_value (x0 x1 : (⟨S4096x256, .f32⟩ : BufTy).Contents (Elt Ideal)) (x2 : (⟨S4096, .i32⟩ : BufTy).Contents (Elt Ideal)) :
    Read.val_main_v34 (F := Ideal) x0 x1 x2 = fun _ => lossOf (rowRef (Read.val_main_v6 (F := Ideal) x0 x1) (labOf x2)) := by
  funext s
  rw [Read.val_main_v34_apply, Read.val_main_v33_apply, Read.val_main_cst_5_apply, Read.val_main_cst_4_apply,
    sum_idx1 (n := 8192) (Read.val_main_v32 (F := Ideal) x0 x1 x2)]
  simp only [row_apply]
  rw [Ideal.hostDivf_def, Ideal.ofBits_def, Ideal.ofBits_def, Ideal.ofBits_zero_f32]
  rfl

end Cert.RefValue

end
-- ==== Proof.ZnReal.lean ====
/- Under the precondition every entry of the two embedding arrays is a real number, and then so is every
   entry of the normalised embeddings: a row's sum of squares is a nonnegative real, its square root a real,
   the larger of that and the small positive constant a positive real, and a real divided by a positive real
   is a real. -/
import proofs.«117797_j84602265797103_1_alg».proof.Defs
import proofs.«117797_j84602265797103_1_alg».proof.Proof.RefGen
import proofs.«117797_j84602265797103_1_alg».proof.Proof.Gen.Pre_finite_inputs
import proofs.«117797_j84602265797103_1_alg».proof.Proof.LibERealSums
import Idealize.ShloMosaic.Lib.ValueIdx
import Idealize.ShloMosaic.Lib.ReduceAll
import Idealize.ShloMosaic.PureOps.Ideal.Laws

set_option maxRecDepth 16384

noncomputable section

namespace Cert.ZnReal

open Idealize.ShloMosaic Idealize.ShloMosaic.TcCoe Idealize.SL.Sem Idealize.ShloMosaic.ValueIdx

/-- The scalar shape has exactly one index. -/
instance : Subsingleton Cert.Pre_finite_inputs.S_.Idx := ⟨fun a b => funext fun d => d.elim0⟩

/-- The single-precision pattern 0x7F800000 denotes +∞. -/
theorem inf_eq : Ideal.ofBits .f32 0x7F800000#32 = (⊤ : EReal) := by
  simp [Ideal.ofBits, Ideal.ieee]

/-- An extended real whose absolute value max x (-x) lies strictly below +∞ is a real number: at ⊥ and at ⊤
    the absolute value is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The same, with the strict bound given as the one-bit result of the comparison |x| < +∞. -/
theorem real_of_cmp (x : EReal)
    (h : Ideal.cmp .olt (max x (-x)) (Ideal.ofBits .f32 0x7F800000#32) = 1#1) : ∃ r : ℝ, x = (r : EReal) := by
  rw [inf_eq] at h
  refine real_of_abs_lt_top x ?_
  by_contra hn
  have e : Ideal.cmp .olt (max x (-x)) ⊤ = 0#1 := by
    show BitVec.ofBool (decide (max x (-x) < ⊤)) = 0#1
    rw [decide_eq_false hn]; rfl
  rw [e] at h
  exact absurd h (by decide)

/-- The precondition makes every entry of the two embedding arrays a real number. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) i : EReal) = (r : EReal))
    ∧ (∀ i, ∃ r : ℝ, (m ((c.tc : Thread Cert.KernelIdeal.nD Cert.KernelIdeal.τ).loc Cert.KernelIdeal.main_arg1) i : EReal) = (r : EReal)) := by
  -- the predicate at its one index: the conjunction of the two "all entries finite" reductions
  have h0 := congrFun (h c) ValueIdx.ix0
  generalize m ((c.tc : Thread Cert.KernelIdeal.nD Cert.KernelIdeal.τ).loc Cert.KernelIdeal.main_arg0) = a0 at h0 ⊢
  generalize m ((c.tc : Thread Cert.KernelIdeal.nD Cert.KernelIdeal.τ).loc Cert.KernelIdeal.main_arg1) = a1 at h0 ⊢
  generalize m ((c.tc : Thread Cert.KernelIdeal.nD Cert.KernelIdeal.τ).loc Cert.KernelIdeal.main_arg2) = a2 at h0 ⊢
  dsimp only [Cert.Pre_finite_inputs.fn] at h0
  obtain ⟨e0, e1⟩ := IntOp.andi_eq_one.1 h0
  -- a reduction by "and" that is 1 met a 1 at every index: |x| < +∞ at every entry
  refine ⟨fun i => ?_, fun i => ?_⟩
  · have e := Host.reduce_andi_all _ _ _ _ _ e0 i
    exact real_of_cmp (a0 i) e
  · have e := Host.reduce_andi_all _ _ _ _ _ e1 i
    exact real_of_cmp (a1 i) e

/-- The single-precision pattern 0x322BCC77 (about 1e-8) denotes a positive real number. -/
theorem eps_pos : ∃ e : ℝ, 0 < e ∧ Ideal.ofBits .f32 0x322BCC77#32 = (e : EReal) := by
  refine ⟨(11258999 : ℝ) * (2 : ℝ) ^ (-50 : Int), by positivity, ?_⟩
  simp [Ideal.ofBits, Ideal.ieee, -EReal.coe_mul]

/-- Each entry of the two arrays stacked along the rows is an entry of one of them, hence real. -/
theorem v0_real (x0 x1 : (⟨Cert.ReferenceIdeal.S4096x256, .f32⟩ : BufTy).Contents (Elt Ideal))
    (h0 : ∀ i, ∃ r : ℝ, (x0 i : EReal) = (r : EReal)) (h1 : ∀ i, ∃ r : ℝ, (x1 i : EReal) = (r : EReal)) :
    ∀ idx, ∃ r : ℝ, (Cert.ReferenceIdeal.Read.val_main_v0 (F := Ideal) x0 x1 idx : EReal) = (r : EReal) := by
  intro idx
  unfold Cert.ReferenceIdeal.Read.val_main_v0
  by_cases hlt : (idx 0).val < 4096
  · have e := concatenate_pair_apply_left (t := Cert.ReferenceIdeal.S8192x256) (0 : Fin 2) x0 x1
      Cert.ReferenceIdeal.Gen.concatenates_S4096x256_S4096x256_S8192x256_d0 idx rfl
      (fun b => match b with | ⟨0, _⟩ => ⟨(idx 0).val, hlt⟩ | ⟨1, _⟩ => ⟨(idx 1).val, (idx 1).isLt⟩)
      (fun b => match b with | ⟨0, _⟩ => rfl | ⟨1, _⟩ => rfl)
    rw [e]
    exact h0 _
  · have hb : (idx 0).val < 8192 := ValueIdx.idx2_lt0 idx
    have e := concatenate_pair_apply_right (t := Cert.ReferenceIdeal.S8192x256) (0 : Fin 2) x0 x1
      Cert.ReferenceIdeal.Gen.concatenates_S4096x256_S4096x256_S8192x256_d0 idx rfl rfl
      (fun b => match b with | ⟨0, _⟩ => ⟨(idx 0).val - 4096, by show (idx 0).val - 4096 < 4096; omega⟩ | ⟨1, _⟩ => ⟨(idx 1).val, (idx 1).isLt⟩)
      (fun b hb => match b, hb with | ⟨0, _⟩, hb => absurd rfl hb | ⟨1, _⟩, _ => rfl)
      (by show (idx 0).val - 4096 + 4096 = (idx 0).val; omega)
    rw [e]
    exact h1 _

open Cert.ReferenceIdeal Cert.ReferenceIdeal.Gen Cert.ReferenceIdeal.Read in
/-- A row's sum of squares of real entries is a nonnegative real. -/
theorem sumsq_real (x0 x1 : (⟨Cert.ReferenceIdeal.S4096x256, .f32⟩ : BufTy).Contents (Elt Ideal))
    (hv : ∀ idx, ∃ r : ℝ, (val_main_v0 (F := Ideal) x0 x1 idx : EReal) = (r : EReal)) (k : S8192.Idx) :
    ∃ s : ℝ, 0 ≤ s ∧ (val_main_call0_v1 (F := Ideal) x0 x1 k : EReal) = (s : EReal) := by
  choose g hg using hv
  refine ⟨∑ j : Fin 256, g (idx_main_call0_v1 k j) * g (idx_main_call0_v1 k j),
    Finset.sum_nonneg (fun j _ => mul_self_nonneg _), ?_⟩
  rw [val_main_call0_v1_apply, val_main_call0_cst_apply, Ideal.ofBits_def, Ideal.ofBits_zero_f32, zero_add,
    Cert.ERealSums.coe_finset_sum]
  refine Finset.sum_congr rfl (fun j _ => ?_)
  rw [val_main_call0_v0_apply, Ideal.mulf_def, hg, EReal.coe_mul]

open Cert.ReferenceIdeal Cert.ReferenceIdeal.Gen Cert.ReferenceIdeal.Read in
/-- The divisor — the larger of a row's norm and the small positive constant — is a positive real. -/
theorem den_real (x0 x1 : (⟨Cert.ReferenceIdeal.S4096x256, .f32⟩ : BufTy).Contents (Elt Ideal))
    (hv : ∀ idx, ∃ r : ℝ, (val_main_v0 (F := Ideal) x0 x1 idx : EReal) = (r : EReal)) (i : S8192x256.Idx) :
    ∃ d : ℝ, 0 < d ∧ (val_main_v5 (F := Ideal) x0 x1 i : EReal) = (d : EReal) := by
  obtain ⟨e, he, hE⟩ := eps_pos
  obtain ⟨s, hs, hS⟩ := sumsq_real x0 x1 hv (idx_main_call0_v2 (idx_main_v5 i))
  refine ⟨max (Real.sqrt s) e, lt_max_of_lt_right he, ?_⟩
  rw [val_main_v5_apply, val_main_v4_apply, val_main_v2_apply, val_main_call0_v2_apply, hS, val_main_v3_apply,
    val_main_cst_apply, Ideal.ofBits_def, hE, Ideal.hostUnary_sqrt_def, Ideal.sqrt_coe, if_neg (not_lt.2 hs),
    Ideal.maximumf_def]
  exact (EReal.coe_strictMono.monotone.map_max).symm

/-- Real embeddings have real normalised embeddings. -/
theorem zn_real (x0 x1 : (⟨Cert.ReferenceIdeal.S4096x256, .f32⟩ : BufTy).Contents (Elt Ideal))
    (h0 : ∀ i, ∃ r : ℝ, (x0 i : EReal) = (r : EReal)) (h1 : ∀ i, ∃ r : ℝ, (x1 i : EReal) = (r : EReal)) :
    ∀ idx, ∃ r : ℝ, (Cert.ReferenceIdeal.Read.val_main_v6 (F := Ideal) x0 x1 idx : EReal) = (r : EReal) := by
  intro idx
  have hv := v0_real x0 x1 h0 h1
  obtain ⟨a, ha⟩ := hv idx
  obtain ⟨d, hd, hD⟩ := den_real x0 x1 hv idx
  refine ⟨a * (1 / d), ?_⟩
  rw [Cert.ReferenceIdeal.Read.val_main_v6_apply, Ideal.hostDivf_def, ha, hD, Ideal.div_coe hd.ne', EReal.coe_mul]

end Cert.ZnReal

end
-- ==== Proof.Claims.lean ====
/- The five claims. The two kernel programs' frames are the run of the hand-proved launch with the value
   dropped; the reference's frame is its run with the result dropped. The ideal pass rewrote nothing. At the
   ideal instance both programs end with the mean of the rows' losses over the normalised embeddings and the
   labels: the kernel by following its scratch columns tile by tile, the reference by reading its stages; the
   tile-by-tile log-sum-exp equals the whole-row one because every logit is a real number, which the
   precondition gives. -/
import proofs.«117797_j84602265797103_1_alg».proof.Defs
import proofs.«117797_j84602265797103_1_alg».proof.Proof.KFrame
import proofs.«117797_j84602265797103_1_alg».proof.Proof.KIValue
import proofs.«117797_j84602265797103_1_alg».proof.Proof.KITail
import proofs.«117797_j84602265797103_1_alg».proof.Proof.RefVal
import proofs.«117797_j84602265797103_1_alg».proof.Proof.ZnReal

noncomputable section

namespace Cert.Proof.Claims

open Idealize.ShloMosaic Idealize.ShloMosaic.TcCoe Idealize.SL.Sem Cert.LossSpec

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hz : ∀ c idx, ∃ r : ℝ, Cert.KernelIdeal.Hand.znOf m c idx = (r : EReal) := fun c =>
    Cert.ZnReal.zn_real _ _ (Cert.ZnReal.args_real m hpre c).1 (Cert.ZnReal.args_real m hpre c).2
  refine ⟨fun c _ => lossOf (rowRef (Cert.KernelIdeal.Hand.znOf m c) (Cert.KernelIdeal.Hand.labOf m c)), ?_, ?_⟩
  · exact (θ_run Cert.KernelIdeal.defs _ _).mono
      (fun r h c => ⟨(h c).1.trans (Cert.KernelIdeal.Hand.tailVal_eq _ _ (Cert.KernelIdeal.Hand.row_value m c (hz c))), (h c).2⟩)
      (Cert.KernelIdeal.Hand.run_main m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v34_eq, Cert.RefValue.ref_value, (hagree c).1, (hagree c).2.1, (hagree c).2.2]
    rfl

end Cert.Proof.Claims

end
-- ==== Proof.lean ====
/- The proof of `Cert.Claim`: the witnesses of the programs' stated facts, then the five claims
   (Proof/Claims.lean). The kernel computes, for each row of the doubled batch, the log-sum-exp of its masked
   logits and its positive logit by a running maximum and a running sum over column tiles, and the reference
   the same from the whole row at once; over the real numbers the two agree. -/
import proofs.«117797_j84602265797103_1_alg».proof.Defs
import proofs.«117797_j84602265797103_1_alg».proof.Proof.Claims
import proofs.«117797_j84602265797103_1_alg».proof.Proof.Gen.Kernel
import proofs.«117797_j84602265797103_1_alg».proof.Proof.Gen.KernelIdeal
import proofs.«117797_j84602265797103_1_alg».proof.Proof.Gen.ReferenceIdeal
import proofs.«117797_j84602265797103_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
